-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.named_const.Statement Cert.KernelIdeal.κ "neg_half_over_sigma_sq" .f32 0xC2480000#32 ((-268435456 / 5368709 : ℝ) : EReal)
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16
  ∧ IdealRules.truncf_extf.Statement Cert.KernelIdeal.S1024x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel

variable [Facts]

def fn {F : FTy → Type} [FloatOps F] (main_arg0 : FVec F S2000000 .f32) (main_arg1 : FVec F S2000000 .f32) (main_arg2 : FVec F S2000000 .f32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S2000000 : Shape := ⟨1, ![2000000]⟩
abbrev S_ : Shape := ⟨0, ![]⟩
abbrev S2000896 : Shape := ⟨1, ![2000896]⟩
abbrev S2x1000448x1 : Shape := ⟨3, ![2, 1000448, 1]⟩
abbrev S2x1024x1024 : Shape := ⟨3, ![2, 1024, 1024]⟩
abbrev S1x1024x1 : Shape := ⟨3, ![1, 1024, 1]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 21
  | .vmem => 8
  | .smem => 0
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000, .f32⟩
  | .hbm, ⟨3, _⟩ => ⟨S_, .i32⟩
  | .hbm, ⟨4, _⟩ => ⟨S_, .f32⟩
  | .hbm, ⟨5, _⟩ => ⟨S2000896, .f32⟩
  | .hbm, ⟨6, _⟩ => ⟨S2x1000448x1, .f32⟩
  | .hbm, ⟨7, _⟩ => ⟨S_, .i32⟩
  | .hbm, ⟨8, _⟩ => ⟨S_, .f32⟩
  | .hbm, ⟨9, _⟩ => ⟨S2000896, .f32⟩
  | .hbm, ⟨10, _⟩ => ⟨S2x1000448x1, .f32⟩
  | .hbm, ⟨11, _⟩ => ⟨S_, .i32⟩
  | .hbm, ⟨12, _⟩ => ⟨S_, .f32⟩
  | .hbm, ⟨13, _⟩ => ⟨S2000896, .f32⟩
  | .hbm, ⟨14, _⟩ => ⟨S2x1000448x1, .f32⟩
  | .hbm, ⟨15, _⟩ => ⟨S2x1024x1024, .f32⟩
  | .hbm, ⟨16, _⟩ => ⟨S1x1024x1024, .f32⟩
  | .hbm, ⟨17, _⟩ => ⟨S1024x1024, .f32⟩
  | .hbm, ⟨18, _⟩ => ⟨S1x1024x1024, .f32⟩
  | .hbm, ⟨19, _⟩ => ⟨S1024x1024, .f32⟩
  | .hbm, ⟨20, _⟩ => ⟨S1024x1024, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x1024, .f32⟩
  | .local _ .vmem, ⟨7, _⟩ => ⟨S1x1024x1024, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 977], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S2000000_S2000896_08960 : S2000000.Pads (![0] : Fin 1 → Nat) ![896] ![0] S2000896
  h_S_ : 0 < S_.numel
  shapeCasts_S2000896_S2x1000448x1 : S2000896.ShapeCasts S2x1000448x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1024x1024_d1_w32 : S1024x1024.Iotas .tc 32 [1]
  broadcasts_S1024x1_S1024x1024 : S1024x1.Broadcasts S1024x1024
  bitsLt_bf16_f32 : FTy.bits .bf16 < FTy.bits .f32
  shapeCasts_S1024x1_S1024x1 : S1024x1.ShapeCasts S1024x1
  slices_S2x1024x1024_S1x1024x1024_0_0_0 : S2x1024x1024.Slices ![0, 0, 0] S1x1024x1024
  slices_S2x1024x1024_S1x1024x1024_1_0_0 : S2x1024x1024.Slices ![1, 0, 0] S1x1024x1024
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S2x1000448x1.size a
  hwx0_0 : ∀ i : grid0.Coords, EltTy.bits .f32 = 32 ∨ (Rect.block (s := S2x1000448x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S2x1000448x1.size a
  hwx0_1 : ∀ i : grid0.Coords, EltTy.bits .f32 = 32 ∨ (Rect.block (s := S2x1000448x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S2x1000448x1.size a
  hwx0_2 : ∀ i : grid0.Coords, EltTy.bits .f32 = 32 ∨ (Rect.block (s := S2x1000448x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S2x1024x1024.size a
  hwx0_3 : ∀ i : grid0.Coords, EltTy.bits .f32 = 32 ∨ (Rect.block (s := S2x1024x1024) S1x1024x1024.size (cc0_transform_3 i) (hinb0_3 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v1) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000 : Shape := ⟨1, ![2000000]⟩
abbrev S25 : Shape := ⟨1, ![25]⟩
abbrev S_ : Shape := ⟨0, ![]⟩
abbrev S2000000x1 : Shape := ⟨2, ![2000000, 1]⟩
abbrev S1x25 : Shape := ⟨2, ![1, 25]⟩
abbrev S2000000x25 : Shape := ⟨2, ![2000000, 25]⟩
abbrev S50000000 : Shape := ⟨1, ![50000000]⟩
abbrev S1048576 : Shape := ⟨1, ![1048576]⟩
abbrev S50000000x1 : Shape := ⟨2, ![50000000, 1]⟩
abbrev S1024x1024 : Shape := ⟨2, ![1024, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2000000, .f32⟩
  | .hbm, ⟨1, _⟩ => ⟨S2000000, .f32⟩
  | .hbm, ⟨2, _⟩ => ⟨S2000000, .f32⟩
  | .hbm, ⟨3, _⟩ => ⟨S25, .i32⟩
  | .hbm, ⟨4, _⟩ => ⟨S25, .i32⟩
  | .hbm, ⟨5, _⟩ => ⟨S_, .f32⟩
  | .hbm, ⟨6, _⟩ => ⟨S2000000, .f32⟩
  | .hbm, ⟨7, _⟩ => ⟨S2000000, .f32⟩
  | .hbm, ⟨8, _⟩ => ⟨S_, .f32⟩
  | .hbm, ⟨9, _⟩ => ⟨S2000000, .f32⟩
  | .hbm, ⟨10, _⟩ => ⟨S2000000, .f32⟩
  | .hbm, ⟨11, _⟩ => ⟨S_, .f32⟩
  | .hbm, ⟨12, _⟩ => ⟨S2000000, .f32⟩
  | .hbm, ⟨13, _⟩ => ⟨S2000000, .f32⟩
  | .hbm, ⟨14, _⟩ => ⟨S_, .f32⟩
  | .hbm, ⟨15, _⟩ => ⟨S2000000, .f32⟩
  | .hbm, ⟨16, _⟩ => ⟨S2000000, .f32⟩
  | .hbm, ⟨17, _⟩ => ⟨S2000000, .f32⟩
  | .hbm, ⟨18, _⟩ => ⟨S2000000, .i32⟩
  | .hbm, ⟨19, _⟩ => ⟨S2000000, .f32⟩
  | .hbm, ⟨20, _⟩ => ⟨S2000000, .i32⟩
  | .hbm, ⟨21, _⟩ => ⟨S2000000, .f32⟩
  | .hbm, ⟨22, _⟩ => ⟨S2000000, .f32⟩
  | .hbm, ⟨23, _⟩ => ⟨S2000000, .f32⟩
  | .hbm, ⟨24, _⟩ => ⟨S2000000, .f32⟩
  | .hbm, ⟨25, _⟩ => ⟨S2000000x1, .i32⟩
  | .hbm, ⟨26, _⟩ => ⟨S1x25, .i32⟩
  | .hbm, ⟨27, _⟩ => ⟨S2000000x25, .i32⟩
  | .hbm, ⟨28, _⟩ => ⟨S2000000x25, .i32⟩
  | .hbm, ⟨29, _⟩ => ⟨S2000000x25, .i32⟩
  | .hbm, ⟨30, _⟩ => ⟨S2000000x1, .i32⟩
  | .hbm, ⟨31, _⟩ => ⟨S1x25, .i32⟩
  | .hbm, ⟨32, _⟩ => ⟨S2000000x25, .i32⟩
  | .hbm, ⟨33, _⟩ => ⟨S2000000x25, .i32⟩
  | .hbm, ⟨34, _⟩ => ⟨S2000000x25, .i32⟩
  | .hbm, ⟨35, _⟩ => ⟨S2000000x1, .f32⟩
  | .hbm, ⟨36, _⟩ => ⟨S1x25, .i32⟩
  | .hbm, ⟨37, _⟩ => ⟨S1x25, .f32⟩
  | .hbm, ⟨38, _⟩ => ⟨S2000000x25, .f32⟩
  | .hbm, ⟨39, _⟩ => ⟨S2000000x25, .f32⟩
  | .hbm, ⟨40, _⟩ => ⟨S2000000x25, .f32⟩
  | .hbm, ⟨41, _⟩ => ⟨S2000000x1, .f32⟩
  | .hbm, ⟨42, _⟩ => ⟨S1x25, .i32⟩
  | .hbm, ⟨43, _⟩ => ⟨S1x25, .f32⟩
  | .hbm, ⟨44, _⟩ => ⟨S2000000x25, .f32⟩
  | .hbm, ⟨45, _⟩ => ⟨S2000000x25, .f32⟩
  | .hbm, ⟨46, _⟩ => ⟨S2000000x25, .f32⟩
  | .hbm, ⟨47, _⟩ => ⟨S2000000x25, .f32⟩
  | .hbm, ⟨48, _⟩ => ⟨S2000000x25, .f32⟩
  | .hbm, ⟨49, _⟩ => ⟨S2000000x25, .f32⟩
  | .hbm, ⟨50, _⟩ => ⟨S_, .f32⟩
  | .hbm, ⟨51, _⟩ => ⟨S2000000x25, .f32⟩
  | .hbm, ⟨52, _⟩ => ⟨S2000000x25, .f32⟩
  | .hbm, ⟨53, _⟩ => ⟨S_, .f32⟩
  | .hbm, ⟨54, _⟩ => ⟨S2000000x25, .f32⟩
  | .hbm, ⟨55, _⟩ => ⟨S2000000x25, .f32⟩
  | .hbm, ⟨56, _⟩ => ⟨S2000000x25, .f32⟩
  | .hbm, ⟨57, _⟩ => ⟨S_, .f32⟩
  | .hbm, ⟨58, _⟩ => ⟨S2000000, .f32⟩
  | .hbm, ⟨59, _⟩ => ⟨S2000000x1, .f32⟩
  | .hbm, ⟨60, _⟩ => ⟨S2000000x25, .f32⟩
  | .hbm, ⟨61, _⟩ => ⟨S2000000x25, .f32⟩
  | .hbm, ⟨62, _⟩ => ⟨S_, .i32⟩
  | .hbm, ⟨63, _⟩ => ⟨S2000000x25, .i32⟩
  | .hbm, ⟨64, _⟩ => ⟨S2000000x25, .i1⟩
  | .hbm, ⟨65, _⟩ => ⟨S_, .i32⟩
  | .hbm, ⟨66, _⟩ => ⟨S2000000x25, .i32⟩
  | .hbm, ⟨67, _⟩ => ⟨S2000000x25, .i1⟩
  | .hbm, ⟨68, _⟩ => ⟨S2000000x25, .i1⟩
  | .hbm, ⟨69, _⟩ => ⟨S_, .i32⟩
  | .hbm, ⟨70, _⟩ => ⟨S2000000x25, .i32⟩
  | .hbm, ⟨71, _⟩ => ⟨S2000000x25, .i1⟩
  | .hbm, ⟨72, _⟩ => ⟨S2000000x25, .i1⟩
  | .hbm, ⟨73, _⟩ => ⟨S_, .i32⟩
  | .hbm, ⟨74, _⟩ => ⟨S2000000x25, .i32⟩
  | .hbm, ⟨75, _⟩ => ⟨S2000000x25, .i1⟩
  | .hbm, ⟨76, _⟩ => ⟨S2000000x25, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S2000000x25, .i32⟩
  | .hbm, ⟨81, _⟩ => ⟨S2000000x25, .i32⟩
  | .hbm, ⟨82, _⟩ => ⟨S_, .i32⟩
  | .hbm, ⟨83, _⟩ => ⟨S2000000x25, .i32⟩
  | .hbm, ⟨84, _⟩ => ⟨S2000000x25, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S2000000x25, .i32⟩
  | .hbm, ⟨89, _⟩ => ⟨S2000000x25, .i32⟩
  | .hbm, ⟨90, _⟩ => ⟨S_, .i32⟩
  | .hbm, ⟨91, _⟩ => ⟨S2000000x25, .i32⟩
  | .hbm, ⟨92, _⟩ => ⟨S2000000x25, .i32⟩
  | .hbm, ⟨93, _⟩ => ⟨S2000000x1, .f32⟩
  | .hbm, ⟨94, _⟩ => ⟨S2000000x25, .f32⟩
  | .hbm, ⟨95, _⟩ => ⟨S2000000x25, .f32⟩
  | .hbm, ⟨96, _⟩ => ⟨S2000000x25, .f32⟩
  | .hbm, ⟨97, _⟩ => ⟨S2000000x25, .f32⟩
  | .hbm, ⟨98, _⟩ => ⟨S_, .i32⟩
  | .hbm, ⟨99, _⟩ => ⟨S2000000x25, .i32⟩
  | .hbm, ⟨100, _⟩ => ⟨S2000000x25, .i32⟩
  | .hbm, ⟨101, _⟩ => ⟨S2000000x25, .i32⟩
  | .hbm, ⟨102, _⟩ => ⟨S50000000, .i32⟩
  | .hbm, ⟨103, _⟩ => ⟨S50000000, .f32⟩
  | .hbm, ⟨104, _⟩ => ⟨S_, .f32⟩
  | .hbm, ⟨105, _⟩ => ⟨S1048576, .f32⟩
  | .hbm, ⟨106, _⟩ => ⟨S50000000x1, .i32⟩
  | .hbm, ⟨107, _⟩ => ⟨S1048576, .f32⟩
  | .hbm, ⟨108, _⟩ => ⟨S1024x1024, .f32⟩
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_7 : Ref sig .tc := ⟨.hbm, 62, rfl⟩
abbrev main_v50 : Ref sig .tc := ⟨.hbm, 63, rfl⟩
abbrev main_v51 : Ref sig .tc := ⟨.hbm, 64, rfl⟩
abbrev main_c_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_9 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_c_11 : Ref sig .tc := ⟨.hbm, 77, rfl⟩
abbrev main_c_12 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v61 : Ref sig .tc := ⟨.hbm, 84, rfl⟩
abbrev main_c_13 : Ref sig .tc := ⟨.hbm, 85, rfl⟩
abbrev main_c_14 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S25_S1x25_1 : S25.BroadcastsInDim S1x25 (![1] : Fin 1 → Fin S1x25.rank)
  bcast_S2000000x1_S2000000x25_0_1 : S2000000x1.BroadcastsInDim S2000000x25 (![0, 1] : Fin 2 → Fin S2000000x25.rank)
  bcast_S1x25_S2000000x25_0_1 : S1x25.BroadcastsInDim S2000000x25 (![0, 1] : Fin 2 → Fin S2000000x25.rank)
  bcast_S_S2000000x25 : S_.BroadcastsInDim S2000000x25 (![] : Fin 0 → Fin S2000000x25.rank)
  reducesTo_S2000000x25_S2000000_d1 : S2000000x25.ReducesTo [1] S2000000
  h_S_ : 0 < S_.numel
  shapeCasts_S2000000x25_S50000000 : S2000000x25.ShapeCasts S50000000
  bcast_S_S1048576 : S_.BroadcastsInDim S1048576 (![] : Fin 0 → Fin S1048576.rank)
  bcast_S50000000_S50000000x1_0 : S50000000.BroadcastsInDim S50000000x1 (![0] : Fin 1 → Fin S50000000x1.rank)
  shapeCasts_S1048576_S1024x1024 : S1048576.ShapeCasts S1024x1024
  scatter_S1048576_S50000000x1_S50000000_n_0_0_1_wf : ScatterDims.WF S1048576 S50000000x1 S50000000 [] [0] [0] 1

variable [Facts₀]

def scatter_S1048576_S50000000x1_S50000000_n_0_0_1 : ScatterDims S1048576 S50000000x1 S50000000 where
  updateWindowDims := []
  insertedWindowDims := [0]
  scatterDimsToOperandDims := [0]
  indexVectorDim := 1
  wf := scatter_S1048576_S50000000x1_S50000000_n_0_0_1_wf

class Facts : Prop extends Facts₀ where

variable [Facts]
-- ==== Proof.TileDef.lean ====
import proofs.«401088_j71786083385669_3_alg».proof.Proof.Gen.KernelIdeal.Skeleton

/-!
  One grid point's result block, as a function of what the body loads.

  The body of the kernel loads a tile of 1024 abscissae (`xs`), 1024 ordinates (`ys`) and
  1024 values (`vs`), and the result block `prev` it accumulates into; it stores back
  `prev` plus the tile's contribution.  `tileStore` composes the body's pure pieces into
  that stored block.
-/

noncomputable section

namespace Cert.KernelIdeal.Tile

open Idealize.ShloMosaic Cert.KernelIdeal Cert.KernelIdeal.Gen

variable {F : FTy → Type} [FloatOps F] [Named F]

/-- The block a grid point stores: `prev` plus the products of the tile's row weights and
    column weights summed over the tile's points (three products: high·high, high·low,
    low·high of the two-term splittings of the weights). -/
def tileStore (xs ys vs : Vec F S1x1024x1 .f32) (prev : Vec F S1x1024x1024 .f32) : FVec F S1x1024x1024 .f32 :=
  let v8 := k0_pay3 vs
  let v18 := k0_pay6 xs
  let v20 := k0_pay7 ys
  let v22 := k0_pay8 xs
  let v24 := k0_pay9 ys
  let v32 := k0_pay10 xs
  let v36 := k0_pay11 xs
  let v40 := k0_pay12 v22 v36
  let v48 := k0_pay13 v22
  let v56 := k0_pay14 v22
  let v64 := k0_pay15 v22
  let v72 := k0_pay16 v24
  let v80 := k0_pay17 v24
  let v88 := k0_pay18 v24
  let v96 := k0_pay19 v24
  let v104 := k0_pay20 v24
  let v118 := k0_pay21 v32 v40 v48 v56 v64
  let v120 := k0_pay22 v24 v72 v80
  let v123 := k0_pay23 v20
  let v124 := k0_pay24 (F := F)
  let v125 := k0_pay25 (F := F)
  let v178 := k0_pay34 v8 v72 v80 v88 v96 v120 v123 v124
  let v181 := k0_pay35 v8 v72 v80 v88 v96 v120 v123 v125
  let v192 := k0_pay38 v8 v104 v120 v123 v178
  let v195 := k0_pay39 v8 v104 v120 v123 v181
  let v198 := k0_pay40 v18
  let v223 := k0_pay45 v18 v32 v40 v118
  let v226 := k0_pay46 v18 v32 v40 v118
  let v231 := k0_pay48 v48 v118
  let v233 := k0_pay49 v18
  let v235 := k0_pay50 v48 v118
  k0_pay1 v56 v64 v118 v192 v195 v198 v223 v226 v231 v233 v235 prev

end Cert.KernelIdeal.Tile

end
-- ==== Proof.Spec.lean ====
import Idealize.ShloMosaic.PureOps.Ideal
import Idealize.ShloMosaic.Lib.ValueIdx
import Mathlib.Algebra.BigOperators.Group.Finset.Basic

/-!
  The splat of one point, as scalar functions on the extended reals.

  A point `(x, y)` with value `v` lands at pixel coordinates `pix x`, `pix y` of a
  1024 × 1024 image whose pixel size is `2⁻⁹` and whose origin is `-1`.  Its base pixel is the
  floor of the coordinate, read as a 32-bit integer; its offset inside that pixel is `frac`.
  The five neighbours `-2 … 2` along an axis carry the gaussian taps
  `exp (lam · (frac - d)²)`, normalised by their sum.  Along the row axis the tap is also
  scaled by the value `v`.

  `rowW` and `colW` say what image row `r` (column `c`) receives from a point: the
  normalised tap of the one neighbour that lands there, zero when none does.  The image is
  the sum over the points of `rowW · colW` (`img`).

  The second half states the same splat the other way round: all 25 neighbours of a point,
  each with its weight `exp (-½ (dx² + dy²) / D)` divided by the sum of the 25, masked by
  whether the neighbour is inside the image, and sent to the flat pixel index of the
  clipped neighbour (`flat`, `upd`).
-/

open scoped BigOperators

noncomputable section

namespace Cert.Splat

open Idealize.ShloMosaic

/-! ## Literals -/

/-- `-1`, the origin. -/
def cOrigin : EReal := Ideal.ofBits .f32 0xBF800000#32
/-- `2⁻⁹`, the pixel size. -/
def cPixel : EReal := Ideal.ofBits .f32 0x3B000000#32
/-- `0` and `1` as the programs spell them. -/
def cZero : EReal := Ideal.ofBits .f32 0x00000000#32
def cOne : EReal := Ideal.ofBits .f32 0x3F800000#32
/-- The zero a row or column weight starts from (a 16-bit float zero). -/
def cZero16 : EReal := Ideal.ofBits .bf16 0x0000#16
/-- `-½` and the divisor `D` (the 32-bit float nearest to one hundredth) of the 25-neighbour form. -/
def cNegHalf : EReal := Ideal.ofBits .f32 0xBF000000#32
def cD : EReal := Ideal.ofBits .f32 0x3C23D70A#32

/-- The five neighbour offsets `-2, -1, 0, 1, 2` as floats … -/
def off : Fin 5 → EReal
  | 0 => Ideal.ofBits .f32 0xC0000000#32
  | 1 => Ideal.ofBits .f32 0xBF800000#32
  | 2 => Ideal.ofBits .f32 0x00000000#32
  | 3 => Ideal.ofBits .f32 0x3F800000#32
  | 4 => Ideal.ofBits .f32 0x40000000#32

/-- … and as 32-bit integers. -/
def offI : Fin 5 → BitVec 32
  | 0 => 4294967294#32
  | 1 => 4294967295#32
  | 2 => 0#32
  | 3 => 1#32
  | 4 => 2#32

/-! ## One axis of one point -/

/-- Pixel coordinate of a position. -/
def pix (x : EReal) : EReal := Ideal.div (x - cOrigin) cPixel

/-- The base pixel: the floor of the coordinate as a 32-bit integer. -/
def base (x : EReal) : BitVec 32 := Ideal.fptosi 32 (Ideal.liftRound Int.floor (pix x))

/-- Offset of the position inside its base pixel. -/
def frac (x : EReal) : EReal := pix x - (((base x).toInt : ℝ) : EReal)

/-- The gaussian tap of neighbour `d` at in-pixel offset `f`, with exponent scale `lam`. -/
def tap (lam f : EReal) (d : Fin 5) : EReal := Ideal.exp ((lam * (f - off d)) * (f - off d))

/-- The sum of the five taps, added left to right from zero. -/
def norm (lam f : EReal) : EReal :=
  ((((cZero + tap lam f 0) + tap lam f 1) + tap lam f 2) + tap lam f 3) + tap lam f 4

/-- Reciprocal of the sum of the taps. -/
def inv (lam f : EReal) : EReal := Ideal.div cOne (norm lam f)

/-- Choose among five values by a pixel distance `δ`: the value of the neighbour offset equal
    to `δ`, zero if there is none.  (The offsets are tried from `2` down to `-2`.) -/
def sel5 (δ : BitVec 32) (w : Fin 5 → EReal) : EReal :=
  if δ = offI 4 then w 4 else if δ = offI 3 then w 3 else if δ = offI 2 then w 2
  else if δ = offI 1 then w 1 else if δ = offI 0 then w 0 else cZero16

/-- What image row `r` receives from a point at height `y` with value `v`. -/
def rowW (lam y v : EReal) (r : ℕ) : EReal :=
  sel5 (BitVec.ofNat 32 r - base y) fun d => (v * tap lam (frac y) d) * inv lam (frac y)

/-- What image column `c` receives from a point at abscissa `x`. -/
def colW (lam x : EReal) (c : ℕ) : EReal :=
  sel5 (BitVec.ofNat 32 c - base x) fun d => tap lam (frac x) d * inv lam (frac x)

/-- The image: at pixel `(r, c)` the sum over all points of row weight times column weight. -/
def img (lam : EReal) (X Y W : Fin 2000000 → EReal) (r c : Fin 1024) : EReal :=
  ∑ n : Fin 2000000, rowW lam (Y n) (W n) r.val * colW lam (X n) c.val

/-! ## The 25 neighbours of one point -/

/-- Neighbour `q`'s column offset (`q mod 5`) and row offset (`q / 5`), as integers. -/
def ox (q : Fin 25) : BitVec 32 := offI ⟨q.val % 5, Nat.mod_lt _ (by decide)⟩
def oy (q : Fin 25) : BitVec 32 := offI ⟨q.val / 5, by have := q.isLt; omega⟩

/-- An integer read as a float. -/
def ofI (b : BitVec 32) : EReal := ((b.toInt : ℝ) : EReal)

/-- Unnormalised weight of neighbour `q`: `exp ((-½ · (dx² + dy²)) / D)`. -/
def nbE (x y : EReal) (q : Fin 25) : EReal :=
  Ideal.exp (Ideal.div
    (cNegHalf * ((frac x - ofI (ox q)) * (frac x - ofI (ox q)) + (frac y - ofI (oy q)) * (frac y - ofI (oy q))))
    cD)

/-- The sum of the 25 weights, from zero. -/
def nbS (x y : EReal) : EReal := cZero + ∑ q : Fin 25, nbE x y q

/-- Neighbour `q`'s pixel column and row. -/
def nbX (x : EReal) (q : Fin 25) : BitVec 32 := IntOp.addi (base x) (ox q)
def nbY (y : EReal) (q : Fin 25) : BitVec 32 := IntOp.addi (base y) (oy q)

/-- Whether neighbour `q` is inside the image: `0 ≤ col < 1024` and `0 ≤ row < 1024`. -/
def nbValid (x y : EReal) (q : Fin 25) : BitVec 1 :=
  IntOp.andi (IntOp.andi (IntOp.andi (IntOp.cmpi .sge (nbX x q) 0#32) (IntOp.cmpi .slt (nbX x q) 1024#32))
    (IntOp.cmpi .sge (nbY y q) 0#32)) (IntOp.cmpi .slt (nbY y q) 1024#32)

/-- Clip a pixel coordinate into `[0, 1023]`. -/
def clip (b : BitVec 32) : BitVec 32 := IntOp.minsi 1023#32 (IntOp.maxsi 0#32 b)

/-- Flat pixel index of the clipped neighbour: `row · 1024 + col`. -/
def flat (x y : EReal) (q : Fin 25) : BitVec 32 :=
  IntOp.addi (IntOp.muli (clip (nbY y q)) 1024#32) (clip (nbX x q))

/-- What neighbour `q` adds to its pixel: value times normalised weight times the inside mask. -/
def upd (x y v : EReal) (q : Fin 25) : EReal :=
  (v * Ideal.div (nbE x y q) (nbS x y)) * (((nbValid x y q).toNat : ℝ) : EReal)

end Cert.Splat

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.SplatReal.lean ====
import proofs.«401088_j71786083385669_3_alg».proof.Proof.Spec
import proofs.«401088_j71786083385669_3_alg».proof.Proof.LibReal
import Idealize.ShloMosaic.PureOps.Ideal
import Idealize.ShloMosaic.PureOps.Ideal.Laws
import Mathlib.Analysis.SpecialFunctions.Exp

/-!
  Realness of the splat of a real point, and the values of the literals.

  For a real position every quantity of the splat (pixel coordinate, in-pixel offset, the five
  gaussian taps, their sum and its reciprocal) is a real number, and the sum of the taps is
  positive, hence nonzero.  The exponent scale is the real `-268435456 / 5368709`.
-/

open scoped BigOperators

noncomputable section

namespace Cert.Splat

open Idealize.ShloMosaic
open Cert.LibReal

/-- The exponent scale `-½ / D` as a real, and as an extended real. -/
def lamR : ℝ := -268435456 / 5368709
def lam : EReal := ((lamR : ℝ) : EReal)

/-! ## The literals -/

theorem cZero_eq : cZero = 0 := by
  simp [cZero, Ideal.ofBits, Ideal.ieee]

theorem cZero16_eq : cZero16 = 0 := by
  simp [cZero16, Ideal.ofBits, Ideal.ieee]

theorem cOne_eq : cOne = 1 := by
  simp [cOne, Ideal.ofBits, Ideal.ieee, -EReal.coe_mul]; norm_num

theorem cOrigin_eq : cOrigin = ((-1 : ℝ) : EReal) := by
  simp [cOrigin, Ideal.ofBits, Ideal.ieee, -EReal.coe_mul]; norm_num

theorem cPixel_eq : cPixel = (((1 / 512 : ℝ)) : EReal) := by
  simp [cPixel, Ideal.ofBits, Ideal.ieee, -EReal.coe_mul]; norm_num

theorem cNegHalf_eq : cNegHalf = ((-1 / 2 : ℝ) : EReal) := by
  simp [cNegHalf, Ideal.ofBits, Ideal.ieee, -EReal.coe_mul]; norm_num

theorem cD_eq : cD = ((5368709 / 536870912 : ℝ) : EReal) := by
  simp [cD, Ideal.ofBits, Ideal.ieee, -EReal.coe_mul]; norm_num

/-- The five offsets as reals. -/
def offR : Fin 5 → ℝ
  | 0 => -2
  | 1 => -1
  | 2 => 0
  | 3 => 1
  | 4 => 2

theorem off_eq (d : Fin 5) : off d = ((offR d : ℝ) : EReal) := by
  fin_cases d
  · simp [off, offR, Ideal.ofBits, Ideal.ieee, -EReal.coe_mul]; norm_num
  · simp [off, offR, Ideal.ofBits, Ideal.ieee, -EReal.coe_mul]; norm_num
  · simp [off, offR, Ideal.ofBits, Ideal.ieee, -EReal.coe_mul]
  · simp [off, offR, Ideal.ofBits, Ideal.ieee, -EReal.coe_mul]; norm_num
  · simp [off, offR, Ideal.ofBits, Ideal.ieee, -EReal.coe_mul]; norm_num

theorem off_isReal (d : Fin 5) : IsReal (off d) := ⟨offR d, off_eq d⟩

/-! ## One axis of a real point -/

theorem pix_isReal (x : ℝ) : IsReal (pix (x : EReal)) := by
  unfold pix
  rw [cOrigin_eq, cPixel_eq]
  refine IsReal.div (IsReal.sub (IsReal.coe x) (IsReal.coe _)) (IsReal.coe _) ?_
  intro h
  have : ((1 / 512 : ℝ)) = 0 := by exact_mod_cast h
  norm_num at this

theorem frac_isReal (x : ℝ) : IsReal (frac (x : EReal)) := by
  unfold frac
  exact IsReal.sub (pix_isReal x) (IsReal.coe _)

/-- A tap at a real offset is the exponential of a real. -/
theorem tap_coe (f : ℝ) (d : Fin 5) :
    tap lam (f : EReal) d = ((Real.exp (lamR * (f - offR d) * (f - offR d)) : ℝ) : EReal) := by
  unfold tap lam
  rw [off_eq, ← EReal.coe_sub, ← EReal.coe_mul, ← EReal.coe_mul, Ideal.exp_coe]

theorem tap_isReal (f : EReal) (hf : IsReal f) (d : Fin 5) : IsReal (tap lam f d) := by
  obtain ⟨r, rfl⟩ := hf
  rw [tap_coe]
  exact IsReal.coe _

/-- The sum of the five taps at a real offset is the real sum of the five exponentials. -/
theorem norm_coe (f : ℝ) :
    norm lam (f : EReal) = ((∑ d : Fin 5, Real.exp (lamR * (f - offR d) * (f - offR d)) : ℝ) : EReal) := by
  unfold norm
  rw [cZero_eq, zero_add, tap_coe, tap_coe, tap_coe, tap_coe, tap_coe, Fin.sum_univ_five,
    EReal.coe_add, EReal.coe_add, EReal.coe_add, EReal.coe_add]

theorem norm_isReal (f : EReal) (hf : IsReal f) : IsReal (norm lam f) := by
  obtain ⟨r, rfl⟩ := hf
  rw [norm_coe]
  exact IsReal.coe _

/-- The real sum of the five exponentials is positive. -/
theorem normR_pos (f : ℝ) : 0 < ∑ d : Fin 5, Real.exp (lamR * (f - offR d) * (f - offR d)) :=
  Finset.sum_pos (fun _ _ => Real.exp_pos _) Finset.univ_nonempty

theorem norm_ne_zero (f : EReal) (hf : IsReal f) : norm lam f ≠ 0 := by
  obtain ⟨r, rfl⟩ := hf
  rw [norm_coe]
  intro h
  have h0 : (∑ d : Fin 5, Real.exp (lamR * (r - offR d) * (r - offR d))) = 0 := by exact_mod_cast h
  exact (normR_pos r).ne' h0

/-- The reciprocal of the sum of the taps at a real offset is the real reciprocal. -/
theorem inv_coe (f : ℝ) :
    inv lam (f : EReal) = (((∑ d : Fin 5, Real.exp (lamR * (f - offR d) * (f - offR d)))⁻¹ : ℝ) : EReal) := by
  unfold inv
  rw [cOne_eq, norm_coe, Ideal.div_coe (normR_pos f).ne', one_mul, one_div]

theorem inv_isReal (f : EReal) (hf : IsReal f) : IsReal (inv lam f) := by
  obtain ⟨r, rfl⟩ := hf
  rw [inv_coe]
  exact IsReal.coe _

theorem rowVal_isReal (y v : ℝ) (d : Fin 5) :
    IsReal (((v : EReal) * tap lam (frac (y : EReal)) d) * inv lam (frac (y : EReal))) :=
  IsReal.mul (IsReal.mul (IsReal.coe v) (tap_isReal _ (frac_isReal y) d)) (inv_isReal _ (frac_isReal y))

theorem colVal_isReal (x : ℝ) (d : Fin 5) :
    IsReal (tap lam (frac (x : EReal)) d * inv lam (frac (x : EReal))) :=
  IsReal.mul (tap_isReal _ (frac_isReal x) d) (inv_isReal _ (frac_isReal x))

theorem sub_self_of_isReal {a : EReal} (h : IsReal a) : a - a = 0 := by
  obtain ⟨r, rfl⟩ := h
  rw [← EReal.coe_sub, sub_self, EReal.coe_zero]

/-- A point of value zero adds nothing to any row: `0 * t = 0` for every extended real `t`. -/
theorem rowW_zero (y : EReal) (r : ℕ) : rowW lam y 0 r = 0 := by
  unfold rowW sel5
  simp only [zero_mul, cZero16_eq, ite_self]

end Cert.Splat

end
-- ==== Proof.TileSum.lean ====
import proofs.«401088_j71786083385669_3_alg».proof.Proof.Spec
import proofs.«401088_j71786083385669_3_alg».proof.Proof.SplatReal
import Mathlib.Algebra.BigOperators.Group.Finset.Basic

/-!
  A tile's contribution to a pixel.

  The padded point list has two halves of 977 tiles of 1024 points.  `pos h k j` is the
  position in the list of point `j` of tile `k` of half `h`; `tileSum` is what that tile
  adds to a pixel: the sum over its points of row weight times column weight.
-/

open scoped BigOperators

noncomputable section

namespace Cert.Splat

/-- Position in the padded point list of point `j` of tile `k` of half `h`. -/
def pos (h k j : ℕ) : ℕ := h * 1000448 + k * 1024 + j

/-- What tile `k` of half `h` adds to pixel `(r, col)`. -/
def tileSum (X Y W : ℕ → EReal) (h k : ℕ) (r col : Fin 1024) : EReal :=
  ∑ j : Fin 1024, rowW lam (Y (pos h k j.val)) (W (pos h k j.val)) r.val * colW lam (X (pos h k j.val)) col.val

end Cert.Splat

end
-- ==== Proof.KAccum.lean ====
import proofs.«401088_j71786083385669_3_alg».proof.Proof.Gen.KernelIdeal.Frame
import proofs.«401088_j71786083385669_3_alg».proof.Proof.TileDef
import proofs.«401088_j71786083385669_3_alg».proof.Proof.TileSum
import proofs.«401088_j71786083385669_3_alg».proof.Proof.LibReal
import Idealize.ShloMosaic.Lib.ValueIdx
import Mathlib.Algebra.BigOperators.Group.Finset.Basic
import Mathlib.Algebra.BigOperators.Intervals

/-!
  The running sum over the grid.

  The grid has 2 × 977 points; point `t` works on half `t / 977` of the padded point list
  and on tile `t % 977` of that half.  The result block of a half is reset at the half's
  first tile and every tile adds its contribution, so after point `t` the block holds the sum
  of the contributions of tiles `0 … t % 977` of half `t / 977`.
-/

open scoped BigOperators

noncomputable section

namespace Cert.KernelIdeal.Accum

open Idealize.ShloMosaic Idealize.ShloMosaic.TcCoe Idealize.SL.Sem
open Cert.KernelIdeal Cert.KernelIdeal.Gen Cert.KernelIdeal.Tile Cert.Splat Cert.LibReal
open Idealize.ShloMosaic.ValueIdx

variable (m : (ℓ : Loc nD τ sig) → Buf (Elt Ideal) ℓ)

/-- The tile of abscissae, of ordinates and of values that grid point `t` loads. -/
abbrev xb (c : Dev nD) (t : Fin cfg0.N) : Vec Ideal S1x1024x1 .f32 := iblk m c 0 t
abbrev yb (c : Dev nD) (t : Fin cfg0.N) : Vec Ideal S1x1024x1 .f32 := iblk m c 1 t
abbrev vb (c : Dev nD) (t : Fin cfg0.N) : Vec Ideal S1x1024x1 .f32 := iblk m c 2 t

/-- What the result block holds after grid point `n`. -/
abbrev ob (c : Dev nD) (n : ℕ) (hn : n < cfg0.N) : Vec Ideal S1x1024x1024 .f32 := outsAt0 m c n hn

section
variable (c : Dev nD) (X Y W : ℕ → EReal)
  (hX : ∀ n, IsReal (X n)) (hY : ∀ n, IsReal (Y n)) (hW : ∀ n, IsReal (W n))
  (hbx : ∀ (t : Fin cfg0.N) (j : Fin 1024), xb m c t (ix3 (0 : Fin 1) j (0 : Fin 1)) = X (pos (t.val / 977) (t.val % 977) j.val))
  (hby : ∀ (t : Fin cfg0.N) (j : Fin 1024), yb m c t (ix3 (0 : Fin 1) j (0 : Fin 1)) = Y (pos (t.val / 977) (t.val % 977) j.val))
  (hbv : ∀ (t : Fin cfg0.N) (j : Fin 1024), vb m c t (ix3 (0 : Fin 1) j (0 : Fin 1)) = W (pos (t.val / 977) (t.val % 977) j.val))
  (hT : ∀ (xs ys vs : Vec Ideal S1x1024x1 .f32) (prev : Vec Ideal S1x1024x1024 .f32),
      (∀ j : Fin 1024, IsReal (xs (ix3 (0 : Fin 1) j (0 : Fin 1)))) → (∀ j : Fin 1024, IsReal (ys (ix3 (0 : Fin 1) j (0 : Fin 1)))) →
      (∀ j : Fin 1024, IsReal (vs (ix3 (0 : Fin 1) j (0 : Fin 1)))) → ∀ r col : Fin 1024,
      tileStore (F := Ideal) xs ys vs prev (ix3 (0 : Fin 1) r col)
        = prev (ix3 (0 : Fin 1) r col) + ∑ j : Fin 1024, rowW lam (ys (ix3 (0 : Fin 1) j (0 : Fin 1))) (vs (ix3 (0 : Fin 1) j (0 : Fin 1))) r.val * colW lam (xs (ix3 (0 : Fin 1) j (0 : Fin 1))) col.val)

include hX hY hW hbx hby hbv hT in
/-- One grid point: the stored block is the block it found plus the tile's contribution. -/
theorem tile_apply (t : Fin cfg0.N) (prev : Vec Ideal S1x1024x1024 .f32) (r col : Fin 1024) :
    tileStore (F := Ideal) (xb m c t) (yb m c t) (vb m c t) prev (ix3 (0 : Fin 1) r col)
      = prev (ix3 (0 : Fin 1) r col) + tileSum X Y W (t.val / 977) (t.val % 977) r col := by
  refine (hT (xb m c t) (yb m c t) (vb m c t) prev
    (fun j => by have h := hX (pos (t.val / 977) (t.val % 977) j.val); rw [← hbx t j] at h; exact h)
    (fun j => by have h := hY (pos (t.val / 977) (t.val % 977) j.val); rw [← hby t j] at h; exact h)
    (fun j => by have h := hW (pos (t.val / 977) (t.val % 977) j.val); rw [← hbv t j] at h; exact h) r col).trans ?_
  unfold tileSum
  refine congrArg (fun s => prev (ix3 (0 : Fin 1) r col) + s) (Finset.sum_congr rfl fun j _ => ?_)
  rw [hbx t j, hby t j, hbv t j]

end

section
variable (c : Dev nD) (X Y W : ℕ → EReal)
  (hX : ∀ n, IsReal (X n)) (hY : ∀ n, IsReal (Y n)) (hW : ∀ n, IsReal (W n))
  (hbx : ∀ (t : Fin cfg0.N) (j : Fin 1024), xb m c t (ix3 (0 : Fin 1) j (0 : Fin 1)) = X (pos (t.val / 977) (t.val % 977) j.val))
  (hby : ∀ (t : Fin cfg0.N) (j : Fin 1024), yb m c t (ix3 (0 : Fin 1) j (0 : Fin 1)) = Y (pos (t.val / 977) (t.val % 977) j.val))
  (hbv : ∀ (t : Fin cfg0.N) (j : Fin 1024), vb m c t (ix3 (0 : Fin 1) j (0 : Fin 1)) = W (pos (t.val / 977) (t.val % 977) j.val))
  (hT : ∀ (xs ys vs : Vec Ideal S1x1024x1 .f32) (prev : Vec Ideal S1x1024x1024 .f32),
      (∀ j : Fin 1024, IsReal (xs (ix3 (0 : Fin 1) j (0 : Fin 1)))) → (∀ j : Fin 1024, IsReal (ys (ix3 (0 : Fin 1) j (0 : Fin 1)))) →
      (∀ j : Fin 1024, IsReal (vs (ix3 (0 : Fin 1) j (0 : Fin 1)))) → ∀ r col : Fin 1024,
      tileStore (F := Ideal) xs ys vs prev (ix3 (0 : Fin 1) r col)
        = prev (ix3 (0 : Fin 1) r col) + ∑ j : Fin 1024, rowW lam (ys (ix3 (0 : Fin 1) j (0 : Fin 1))) (vs (ix3 (0 : Fin 1) j (0 : Fin 1))) r.val * colW lam (xs (ix3 (0 : Fin 1) j (0 : Fin 1))) col.val)
  (hA : ∀ (i : grid0.Coords) (a2 : Memref sig .tc .vmem S1x1024x1 .f32) (h2 : a2.IsWhole) (a3 : Memref sig .tc .vmem S1x1024x1 .f32) (h3 : a3.IsWhole)
      (a4 : Memref sig .tc .vmem S1x1024x1 .f32) (h4 : a4.IsWhole) (a5 : Memref sig .tc .vmem S1x1024x1024 .f32) (h5 : a5.IsWhole) (hc : cond0_0 i)
      (x0 x1 x2 : Vec Ideal S1x1024x1 .f32), out0_A_3 c i a2 h2 a3 h3 a4 h4 a5 h5 hc x0 x1 x2 = tileStore x0 x1 x2 (k0_pay2 (F := Ideal)))
  (hB : ∀ (i : grid0.Coords) (a2 : Memref sig .tc .vmem S1x1024x1 .f32) (h2 : a2.IsWhole) (a3 : Memref sig .tc .vmem S1x1024x1 .f32) (h3 : a3.IsWhole)
      (a4 : Memref sig .tc .vmem S1x1024x1 .f32) (h4 : a4.IsWhole) (a5 : Memref sig .tc .vmem S1x1024x1024 .f32) (h5 : a5.IsWhole) (hc : ¬cond0_0 i)
      (x0 x1 x2 : Vec Ideal S1x1024x1 .f32) (xo : Vec Ideal S1x1024x1024 .f32), out0_B_3 c i a2 h2 a3 h3 a4 h4 a5 h5 hc x0 x1 x2 xo = tileStore x0 x1 x2 xo)
  (hZ : ∀ i : S1x1024x1024.Idx, k0_pay2 (F := Ideal) i = 0)

include hA in
/-- A half's first tile stores the zero block plus its contribution. -/
theorem first_eq (t : Fin cfg0.N) (h0 : t.val % 977 = 0) :
    ob m c t.val t.isLt = tileStore (F := Ideal) (xb m c t) (yb m c t) (vb m c t) (k0_pay2 (F := Ideal)) :=
  (outsAt0_A m c t h0).trans
    (hA (grid0.coords t) (ms0_0 t) (hs0_0 t) (ms0_1 t) (hs0_1 t) (ms0_2 t) (hs0_2 t) (ms0_3 t) (hs0_3 t)
      ((hcond0_0 t).mpr h0) (xb m c t) (yb m c t) (vb m c t))

include hB in
/-- Every other tile stores what the tile before left plus its contribution. -/
theorem next_eq (t : Fin cfg0.N) (h0 : ¬t.val % 977 = 0) :
    ob m c t.val t.isLt = tileStore (F := Ideal) (xb m c t) (yb m c t) (vb m c t)
      (ob m c (t.val - 1) (Nat.lt_of_le_of_lt (Nat.sub_le _ _) t.isLt)) :=
  (outsAt0_B m c t h0).trans
    (hB (grid0.coords t) (ms0_0 t) (hs0_0 t) (ms0_1 t) (hs0_1 t) (ms0_2 t) (hs0_2 t) (ms0_3 t) (hs0_3 t)
      (fun h => h0 ((hcond0_0 t).mp h)) (xb m c t) (yb m c t) (vb m c t)
      (ob m c (t.val - 1) (Nat.lt_of_le_of_lt (Nat.sub_le _ _) t.isLt)))

include hX hY hW hbx hby hbv hT hA hB hZ in
/-- After grid point `n` the result block holds the contributions of tiles `0 … n % 977` of half
    `n / 977`: by induction on the point, a half's first tile starting from the zero block. -/
theorem outsAt_apply : ∀ (n : ℕ) (hn : n < cfg0.N) (r col : Fin 1024),
    ob m c n hn (ix3 (0 : Fin 1) r col) = ∑ k ∈ Finset.range (n % 977 + 1), tileSum X Y W (n / 977) k r col := by
  intro n
  induction n with
  | zero =>
    intro hn r col
    rw [first_eq m c hA ⟨0, hn⟩ rfl, tile_apply m c X Y W hX hY hW hbx hby hbv hT ⟨0, hn⟩ _ r col, hZ, zero_add]
    show tileSum X Y W (0 / 977) (0 % 977) r col = _
    simp
  | succ n ih =>
    intro hn r col
    by_cases h0 : (n + 1) % 977 = 0
    · rw [first_eq m c hA ⟨n + 1, hn⟩ h0, tile_apply m c X Y W hX hY hW hbx hby hbv hT ⟨n + 1, hn⟩ _ r col, hZ, zero_add]
      show tileSum X Y W ((n + 1) / 977) ((n + 1) % 977) r col = _
      rw [h0]
      simp
    · rw [next_eq m c hB ⟨n + 1, hn⟩ h0, tile_apply m c X Y W hX hY hW hbx hby hbv hT ⟨n + 1, hn⟩ _ r col]
      show ob m c n _ (ix3 (0 : Fin 1) r col) + tileSum X Y W ((n + 1) / 977) ((n + 1) % 977) r col = _
      have e1 : (n + 1) / 977 = n / 977 := by omega
      have e2 : (n + 1) % 977 = n % 977 + 1 := by omega
      rw [ih (Nat.lt_of_succ_lt hn) r col, e1, e2, Finset.sum_range_succ _ (n % 977 + 1)]

end

end Cert.KernelIdeal.Accum

end
-- ==== Proof.KFinal.lean ====
import proofs.«401088_j71786083385669_3_alg».proof.Proof.Gen.KernelIdeal.Frame
import proofs.«401088_j71786083385669_3_alg».proof.Proof.TileSum
import Idealize.ShloMosaic.Lib.Pipeline.Value
import Idealize.ShloMosaic.Lib.ValueIdx
import Mathlib.Algebra.BigOperators.Group.Finset.Basic

/-!
  From the result block after each grid point to the region's result array.

  The grid has 2 × 977 points; point `t` works on half `t / 977` and tile `t % 977`.  The result
  array has shape 2 × 1024 × 1024 and the result block at point `t` is its half `t / 977`.  The
  block is written back to the array exactly at a half's last tile, `t % 977 = 976`, when it holds
  the sum of all 977 tiles' contributions of that half.  The two write-backs, at `t = 976` and at
  `t = 1953`, cover the two halves of the array, so at the end the array holds at `(h, r, col)`
  the sum over the 977 tiles of half `h` of the tiles' contributions to pixel `(r, col)`.
-/

set_option maxRecDepth 16384

open scoped BigOperators

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Splat
open Idealize.ShloMosaic.ValueIdx

variable (m : (ℓ : Loc nD τ sig) → Buf (Elt Ideal) ℓ)

/-- The region's result array on core `c` after the last write-back, an extended real at each
    (half, image row, image column). -/
abbrev arr6 (c : Dev nD) : S2x1024x1024.Idx → EReal := (dats m 0 c).arrAt 3 cfg0.N

/-- The sum over the 977 tiles of a half of their contributions to a pixel, at every (half, image
    row, image column) of the result array. -/
abbrev halfSums (X Y W : ℕ → EReal) : S2x1024x1024.Idx → EReal :=
  fun i => ∑ k ∈ Finset.range 977, tileSum X Y W (i 0).val k ⟨(i 1).val, (i 1).isLt⟩ ⟨(i 2).val, (i 2).isLt⟩

/-- `halfSums` at an index whose coordinates are known. -/
theorem halfSums_apply (X Y W : ℕ → EReal) (i : S2x1024x1024.Idx) (h : ℕ) (r col : Fin 1024)
    (h0 : (i 0).val = h) (h1 : (i 1).val = r.val) (h2 : (i 2).val = col.val) :
    halfSums X Y W i = ∑ k ∈ Finset.range 977, tileSum X Y W h k r col := by
  have e1 : (⟨(i 1).val, (i 1).isLt⟩ : Fin 1024) = r := Fin.ext h1
  have e2 : (⟨(i 2).val, (i 2).isLt⟩ : Fin 1024) = col := Fin.ext h2
  show ∑ k ∈ Finset.range 977, tileSum X Y W (i 0).val k ⟨(i 1).val, (i 1).isLt⟩ ⟨(i 2).val, (i 2).isLt⟩ = _
  rw [h0, e1, e2]

/-- The result window's block index at grid point `t` is `(t / 977, 0, 0)`: the block is half
    `t / 977` of the array (decided over the grid). -/
theorem idx_facts6 : ∀ t : Fin cfg0.N, win0_3.index t (0 : Fin 3) = t.val / 977
    ∧ win0_3.index t (1 : Fin 3) = 0 ∧ win0_3.index t (2 : Fin 3) = 0 :=
  (by decide +kernel : ∀ t : Fin grid0.N, _)

/-- WHAT A WRITE-BACK WRITES: at a half's last tile the block holds all 977 tiles' contributions,
    which is the half of `halfSums` the block covers. -/
theorem flushed6_eq (c : Dev nD) (X Y W : ℕ → EReal)
    (hacc : ∀ (n : ℕ) (hn : n < cfg0.N) (r col : Fin 1024),
      (outsAt0 m c n hn : Vec Ideal S1x1024x1024 .f32) (ix3 (0 : Fin 1) r col)
        = ∑ k ∈ Finset.range (n % 977 + 1), tileSum X Y W (n / 977) k r col)
    (t : Fin cfg0.N) (hf : (cfg0.win 3).flush t = true) :
    (dats m 0 c).flushed 3 t = ((cfg0.win 3).blk t).view.read (Elt Ideal) (halfSums X Y W) := by
  have h976 : t.val % 977 = 976 := (flush0_3 t).mp hf
  have h977 : t.val % 977 + 1 = 977 := by omega
  obtain ⟨e0, e1, e2⟩ := idx_facts6 t
  show (cfg0.win 3).cut (grid0.coords t) ((dats m 0 c).after 3 t) = _
  rw [after0_3]
  funext j
  show outsAt0 m c t.val t.isLt ((cfg0.win 3).xinj (grid0.coords t) j) = halfSums X Y W (((cfg0.win 3).blk t).view.emb j)
  have hj0 : (j 0).val < 1 := (j 0).isLt
  have hj1 : (j 1).val < 1024 := (j 1).isLt
  have hj2 : (j 2).val < 1024 := (j 2).isLt
  have hx : (cfg0.win 3).xinj (grid0.coords t) j = ix3 (0 : Fin 1) (⟨(j 1).val, hj1⟩ : Fin 1024) (⟨(j 2).val, hj2⟩ : Fin 1024) := by
    funext a; apply Fin.ext
    match a with
    | ⟨0, _⟩ => show (j 0).val = 0; omega
    | ⟨1, _⟩ => rfl
    | ⟨2, _⟩ => rfl
  rw [hx, hacc t.val t.isLt, h977]
  refine (halfSums_apply X Y W _ (t.val / 977) _ _ ?_ ?_ ?_).symm
  · show win0_3.index t (0 : Fin 3) * 1 + 1 * (j 0).val = t.val / 977; omega
  · show win0_3.index t (1 : Fin 3) * 1024 + 1 * (j 1).val = (j 1).val; omega
  · show win0_3.index t (2 : Fin 3) * 1024 + 1 * (j 2).val = (j 2).val; omega

/-- An index of the array is in point `t`'s block iff each coordinate is in the block's range on
    its axis. -/
theorem mem_blk6 (t : Fin cfg0.N) (i : S2x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v6).slice (win0_3.rect t)).set ↔ _
  rw [View.set_slice_whole, Rect.mem_set_unit]
  exact Iff.rfl

/-- THE TWO WRITE-BACKS COVER THE ARRAY: index `(h, r, col)` is in the block of the last tile of
    half `h`, the grid point `h * 977 + 976`. -/
theorem cover6 (i : S2x1024x1024.Idx) :
    ∃ t : Fin cfg0.N, (cfg0.win 3).flush t = true ∧ i ∈ ((cfg0.win 3).blk t).view.set := by
  have hi0 : (i 0).val < 2 := (i 0).isLt
  have hi1 : (i 1).val < 1024 := (i 1).isLt
  have hi2 : (i 2).val < 1024 := (i 2).isLt
  have hN : cfg0.N = 1954 := N_0
  obtain ⟨t, ht⟩ : ∃ t : Fin cfg0.N, t.val = (i 0).val * 977 + 976 := ⟨⟨(i 0).val * 977 + 976, by rw [hN]; omega⟩, rfl⟩
  obtain ⟨e0, e1, e2⟩ := idx_facts6 t
  refine ⟨t, (flush0_3 t).mpr (by omega), ?_⟩
  rw [mem_blk6]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY: at `(h, r, col)` the sum over the 977 tiles of half `h` of the tiles'
    contributions to pixel `(r, col)`. -/
theorem final6 (c : Dev nD) (X Y W : ℕ → EReal)
    (hacc : ∀ (n : ℕ) (hn : n < cfg0.N) (r col : Fin 1024),
      (outsAt0 m c n hn : Vec Ideal S1x1024x1024 .f32) (ix3 (0 : Fin 1) r col)
        = ∑ k ∈ Finset.range (n % 977 + 1), tileSum X Y W (n / 977) k r col)
    (h : Fin 2) (r col : Fin 1024) :
    arr6 m c (ix3 h r col) = ∑ k ∈ Finset.range 977, tileSum X Y W h.val k r col := by
  have hG : (dats m 0 c).arrAt 3 cfg0.N = halfSums X Y W :=
    (dats m 0 c).arrAt_eq_of_cover 3 (halfSums X Y W) (flushed6_eq m c X Y W hacc) cover6
  exact (congrFun hG (ix3 h r col)).trans (halfSums_apply X Y W _ h.val r col rfl rfl rfl)

end Cert.KernelIdeal.Final

end
-- ==== Proof.TilePieces.lean ====
import proofs.«401088_j71786083385669_3_alg».proof.Proof.Gen.KernelIdeal.Frame
import proofs.«401088_j71786083385669_3_alg».proof.Proof.TileDef
import Idealize.ShloMosaic.Lib.Pipeline.Value

/-!
  What one grid point leaves in the result block, read off the body's stores.

  At a point that opens a half of the point list the body first stores the zero block,
  reads it back and stores it plus the tile's contribution; at any other point it reads the
  block the point before left and stores that plus the tile's contribution.  In both cases
  the last store covers the whole block, so the block's final contents are that store's
  payload: `tileStore` of the three loaded tiles over the block read back.
-/

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The origin of a rank-3 block, as the constant-zero offset. -/
theorem hz3 : (![0, 0, 0] : Fin 3 → Nat) = fun _ => 0 := funext fun a => by fin_cases a <;> rfl

/-- A point that does not open a half: the one store covers the block, and its payload is the
    tile's contribution added to the block `xo3` the point before left (the loads read the
    whole staging buffers, so they are the buffers' contents). -/
theorem out0_B_3_eq (c : Dev nD) (i : grid0.Coords) (arg2 : Memref sig .tc .vmem S1x1024x1 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S1x1024x1024 .f32) (harg5 : arg5.IsWhole) (hc0 : ¬cond0_0 i)
    (x0 x1 x2 : Vec F S1x1024x1 .f32) (xo3 : Vec F S1x1024x1024 .f32) :
    out0_B_3 c i arg2 harg2 arg3 harg3 arg4 harg4 arg5 harg5 hc0 x0 x1 x2 xo3 = tileStore x0 x1 x2 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz3]
  simp only [View.readAt_eq_ld, harg2.read_unread, harg3.read_unread, harg4.read_unread, harg5.read_unread,
    View.ld_unit_zero (S := S1x1024x1) hz3, View.ld_unit_zero (S := S1x1024x1024) hz3]
  rfl

/-- A point that opens a half: the zero block `k0_pay2` is stored first and covers the block;
    the later store covers it again, so the block ends at the later payload, in which the block
    read back is the zero block just stored. -/
theorem out0_A_3_eq (c : Dev nD) (i : grid0.Coords) (arg2 : Memref sig .tc .vmem S1x1024x1 .f32) (harg2 : arg2.IsWhole) (arg3 : Memref sig .tc .vmem S1x1024x1 .f32) (harg3 : arg3.IsWhole) (arg4 : Memref sig .tc .vmem S1x1024x1 .f32) (harg4 : arg4.IsWhole) (arg5 : Memref sig .tc .vmem S1x1024x1024 .f32) (harg5 : arg5.IsWhole) (hc0 : cond0_0 i)
    (x0 x1 x2 : Vec F S1x1024x1 .f32) :
    out0_A_3 c i arg2 harg2 arg3 harg3 arg4 harg4 arg5 harg5 hc0 x0 x1 x2 = tileStore x0 x1 x2 (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1x1024x1024) hz3]
  simp only [View.readCov_unit_zero (S := S1x1024x1024) _ hz3, View.readAt_eq_ld, harg2.read_unread, harg3.read_unread,
    harg4.read_unread, View.ld_unit_zero (S := S1x1024x1) hz3]
  rfl

end Cert.KernelIdeal.Tile

end
-- ==== Proof.TileValue.lean ====
import proofs.«401088_j71786083385669_3_alg».proof.Proof.TileDef
import proofs.«401088_j71786083385669_3_alg».proof.Proof.Spec
import proofs.«401088_j71786083385669_3_alg».proof.Proof.LibReal
import proofs.«401088_j71786083385669_3_alg».proof.Proof.SplatReal
import Idealize.ShloMosaic.PureOps.Ideal.Laws
import Idealize.ShloMosaic.Lib.ValueIdx
import Idealize.ShloMosaic.Lib.Pipeline.Value
import Idealize.ShloMosaic.Lib.ValueLayout

/-!
  The block one grid point stores, entry by entry.

  For a tile of 1024 points `(x_j, y_j)` with values `v_j` the body forms, per point, the pixel
  coordinate, base pixel and in-pixel offset along each axis, the five gaussian taps along each
  axis, their sum and its reciprocal.  From these it builds a row-weight matrix
  `A[j, r]` — the normalised `y`-tap of the one neighbour of point `j` that lands on image row
  `r`, times `v_j`, zero when none does — and a column-weight matrix `B[j, c]` likewise along
  `x`.  Each matrix is split into a high part (the matrix itself) and a low part (each entry
  minus itself, which is zero because every entry is a real number).  The stored block is the
  block before plus `A_hiᵀ B_hi + A_hiᵀ B_lo + A_loᵀ B_hi`, each product a sum over the
  tile's points; the two products with a zero matrix vanish.

  Hence, at `(r, c)`, the stored block is the block before plus
  `Σ_j rowW (y_j, v_j, r) · colW (x_j, c)` (`tileStore_apply`).
-/

open scoped BigOperators

noncomputable section

namespace Cert.Splat

open Idealize.ShloMosaic Idealize.ShloMosaic.ValueIdx Cert.KernelIdeal Cert.KernelIdeal.Gen Cert.LibReal

/-! ## Small facts about the integer and layout operations -/

/-- A select on an integer equality test is an `if` on the equality. -/
theorem select_cmpi_eq {α : Type} (x y : BitVec 32) (a b : α) :
    Scalar.select (IntOp.cmpi .eq x y) a b = if x = y then a else b := by
  show (if BitVec.ofBool (x == y) = 1 then a else b) = _
  by_cases h : x = y
  · have hb : (x == y) = true := by simpa using h
    rw [if_pos h, hb]; exact if_pos rfl
  · have hb : (x == y) = false := by simpa using h
    rw [if_neg h, hb]; exact if_neg (by decide)

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The column-index iota of a `1024 × 1024` matrix reads its column. -/
theorem iota_col_apply (j r : Fin 1024) :
    iota .tc S1024x1024 32 [1] iota_S1024x1024_d1_w32 (ix2 j r) = BitVec.ofNat 32 r.val :=
  iota_single_apply .tc S1024x1024 32 1 iota_S1024x1024_d1_w32 (ix2 j r)

/-- The exponent scale the kernel names is `lam`. -/
theorem kappa_eq :
    Named.named (F := Ideal) Cert.KernelIdeal.κ "neg_half_over_sigma_sq" (φ := .f32) 0xC2480000#32 = lam :=
  IdealRules.named_const.ideal_named_scalar _ _ _ _ rfl

/-! ## One axis of one point of the tile -/

section Column
variable (xs : Vec Ideal S1x1024x1 .f32) (j : Fin 1024)

theorem pay3_apply : k0_pay3 (F := Ideal) xs (ix2 j (0 : Fin 1)) = xs (ix3 (0 : Fin 1) j (0 : Fin 1)) := by
  unfold k0_pay3
  exact shapeCast_1ab_ab_apply xs shapeCasts_S1x1024x1_S1024x1 j (0 : Fin 1)

theorem pay4_apply : k0_pay4 (F := Ideal) xs (ix2 j (0 : Fin 1)) = pix (xs (ix3 (0 : Fin 1) j (0 : Fin 1))) := by
  unfold k0_pay4 pix
  show Ideal.div (shapeCast S1024x1 xs shapeCasts_S1x1024x1_S1024x1 (ix2 j (0 : Fin 1)) - cOrigin) cPixel = _
  rw [shapeCast_1ab_ab_apply xs shapeCasts_S1x1024x1_S1024x1 j (0 : Fin 1)]

theorem pay5_apply : k0_pay5 (F := Ideal) xs (ix2 j (0 : Fin 1)) = pix (xs (ix3 (0 : Fin 1) j (0 : Fin 1))) := by
  unfold k0_pay5 pix
  show Ideal.div (shapeCast S1024x1 xs shapeCasts_S1x1024x1_S1024x1 (ix2 j (0 : Fin 1)) - cOrigin) cPixel = _
  rw [shapeCast_1ab_ab_apply xs shapeCasts_S1x1024x1_S1024x1 j (0 : Fin 1)]

theorem pay6_apply : k0_pay6 (F := Ideal) xs (ix2 j (0 : Fin 1)) = base (xs (ix3 (0 : Fin 1) j (0 : Fin 1))) := by
  unfold k0_pay6 base
  show Ideal.fptosi 32 (Ideal.liftRound Int.floor (k0_pay4 (F := Ideal) xs (ix2 j (0 : Fin 1)))) = _
  rw [pay4_apply]

theorem pay7_apply : k0_pay7 (F := Ideal) xs (ix2 j (0 : Fin 1)) = base (xs (ix3 (0 : Fin 1) j (0 : Fin 1))) := by
  unfold k0_pay7 base
  show Ideal.fptosi 32 (Ideal.liftRound Int.floor (k0_pay5 (F := Ideal) xs (ix2 j (0 : Fin 1)))) = _
  rw [pay5_apply]

theorem pay8_apply : k0_pay8 (F := Ideal) xs (ix2 j (0 : Fin 1)) = frac (xs (ix3 (0 : Fin 1) j (0 : Fin 1))) := by
  unfold k0_pay8 frac
  show k0_pay4 (F := Ideal) xs (ix2 j (0 : Fin 1)) - (((k0_pay6 (F := Ideal) xs (ix2 j (0 : Fin 1))).toInt : ℝ) : EReal) = _
  rw [pay4_apply, pay6_apply]

theorem pay9_apply : k0_pay9 (F := Ideal) xs (ix2 j (0 : Fin 1)) = frac (xs (ix3 (0 : Fin 1) j (0 : Fin 1))) := by
  unfold k0_pay9 frac
  show k0_pay5 (F := Ideal) xs (ix2 j (0 : Fin 1)) - (((k0_pay7 (F := Ideal) xs (ix2 j (0 : Fin 1))).toInt : ℝ) : EReal) = _
  rw [pay5_apply, pay7_apply]

end Column

/-! ## The five taps, their sum and its reciprocal -/

section Taps
variable (v : FVec Ideal S1024x1 .f32) (i : S1024x1.Idx)

theorem pay10_apply (xs : Vec Ideal S1x1024x1 .f32) : k0_pay10 (F := Ideal) xs i = tap lam (k0_pay8 (F := Ideal) xs i) 0 := by
  unfold k0_pay10 tap
  show Ideal.exp ((Named.named (F := Ideal) Cert.KernelIdeal.κ "neg_half_over_sigma_sq" (φ := .f32) 0xC2480000#32
      * (k0_pay8 (F := Ideal) xs i - off 0)) * (k0_pay8 (F := Ideal) xs i - off 0)) = _
  rw [kappa_eq]

theorem pay11_apply (xs : Vec Ideal S1x1024x1 .f32) : k0_pay11 (F := Ideal) xs i = lam * (k0_pay8 (F := Ideal) xs i - off 1) := by
  unfold k0_pay11
  show Named.named (F := Ideal) Cert.KernelIdeal.κ "neg_half_over_sigma_sq" (φ := .f32) 0xC2480000#32
      * (k0_pay8 (F := Ideal) xs i - off 1) = _
  rw [kappa_eq]

theorem pay12_apply (w : FVec Ideal S1024x1 .f32) : k0_pay12 (F := Ideal) v w i = Ideal.exp (w i * (v i - off 1)) := rfl

theorem pay13_apply : k0_pay13 (F := Ideal) v i = tap lam (v i) 2 := by
  unfold k0_pay13 tap
  show Ideal.exp ((Named.named (F := Ideal) Cert.KernelIdeal.κ "neg_half_over_sigma_sq" (φ := .f32) 0xC2480000#32
      * (v i - off 2)) * (v i - off 2)) = _
  rw [kappa_eq]

theorem pay14_apply : k0_pay14 (F := Ideal) v i = tap lam (v i) 3 := by
  unfold k0_pay14 tap
  show Ideal.exp ((Named.named (F := Ideal) Cert.KernelIdeal.κ "neg_half_over_sigma_sq" (φ := .f32) 0xC2480000#32
      * (v i - off 3)) * (v i - off 3)) = _
  rw [kappa_eq]

theorem pay15_apply : k0_pay15 (F := Ideal) v i = tap lam (v i) 4 := by
  unfold k0_pay15 tap
  show Ideal.exp ((Named.named (F := Ideal) Cert.KernelIdeal.κ "neg_half_over_sigma_sq" (φ := .f32) 0xC2480000#32
      * (v i - off 4)) * (v i - off 4)) = _
  rw [kappa_eq]

theorem pay16_apply : k0_pay16 (F := Ideal) v i = tap lam (v i) 0 := by
  unfold k0_pay16 tap
  show Ideal.exp ((Named.named (F := Ideal) Cert.KernelIdeal.κ "neg_half_over_sigma_sq" (φ := .f32) 0xC2480000#32
      * (v i - off 0)) * (v i - off 0)) = _
  rw [kappa_eq]

theorem pay17_apply : k0_pay17 (F := Ideal) v i = tap lam (v i) 1 := by
  unfold k0_pay17 tap
  show Ideal.exp ((Named.named (F := Ideal) Cert.KernelIdeal.κ "neg_half_over_sigma_sq" (φ := .f32) 0xC2480000#32
      * (v i - off 1)) * (v i - off 1)) = _
  rw [kappa_eq]

theorem pay18_apply : k0_pay18 (F := Ideal) v i = tap lam (v i) 2 := by
  unfold k0_pay18 tap
  show Ideal.exp ((Named.named (F := Ideal) Cert.KernelIdeal.κ "neg_half_over_sigma_sq" (φ := .f32) 0xC2480000#32
      * (v i - off 2)) * (v i - off 2)) = _
  rw [kappa_eq]

theorem pay19_apply : k0_pay19 (F := Ideal) v i = tap lam (v i) 3 := by
  unfold k0_pay19 tap
  show Ideal.exp ((Named.named (F := Ideal) Cert.KernelIdeal.κ "neg_half_over_sigma_sq" (φ := .f32) 0xC2480000#32
      * (v i - off 3)) * (v i - off 3)) = _
  rw [kappa_eq]

theorem pay20_apply : k0_pay20 (F := Ideal) v i = tap lam (v i) 4 := by
  unfold k0_pay20 tap
  show Ideal.exp ((Named.named (F := Ideal) Cert.KernelIdeal.κ "neg_half_over_sigma_sq" (φ := .f32) 0xC2480000#32
      * (v i - off 4)) * (v i - off 4)) = _
  rw [kappa_eq]

theorem pay21_apply (t0 t1 t2 t3 t4 : FVec Ideal S1024x1 .f32) :
    k0_pay21 (F := Ideal) t0 t1 t2 t3 t4 i = Ideal.div cOne (((((cZero + t0 i) + t1 i) + t2 i) + t3 i) + t4 i) := rfl

theorem pay22_apply (t0 t1 : FVec Ideal S1024x1 .f32) :
    k0_pay22 (F := Ideal) v t0 t1 i
      = Ideal.div cOne (((((cZero + t0 i) + t1 i) + k0_pay18 (F := Ideal) v i) + k0_pay19 (F := Ideal) v i)
          + k0_pay20 (F := Ideal) v i) := rfl

end Taps

/-! ## The selected weight matrices -/

section Select
variable {α : Type}

/-- A select on "this integer matrix equals the constant `k`" read at an index. -/
theorem select_eq_apply (v : IVec S1024x1024 32) (k : BitVec 32) (a b : S1024x1024.Idx → α) (i : S1024x1024.Idx) :
    select (cmpi .eq v (broadcast S1024x1024 k)) a b i = if v i = k then a i else b i :=
  select_cmpi_eq (v i) k (a i) (b i)

/-- A column laid along every column of the matrix reads its row's entry. -/
theorem bcast_col_apply (w : S1024x1.Idx → α) (j r : Fin 1024) :
    broadcastTo S1024x1024 (shapeCast S1024x1 w shapeCasts_S1024x1_S1024x1) broadcasts_S1024x1_S1024x1024 (ix2 j r)
      = w (ix2 j (0 : Fin 1)) := by
  rw [shapeCast_self]
  exact broadcastTo_a1_ab_apply w broadcasts_S1024x1_S1024x1024 j r

end Select

/-- The pixel distance from a point's base pixel to image row (column) `r`. -/
theorem pay23_apply (b : IVec S1024x1 32) (j r : Fin 1024) :
    k0_pay23 b (ix2 j r) = BitVec.ofNat 32 r.val - b (ix2 j (0 : Fin 1)) := by
  unfold k0_pay23
  show iota .tc S1024x1024 32 [1] iota_S1024x1024_d1_w32 (ix2 j r)
      - broadcastTo S1024x1024 b broadcasts_S1024x1_S1024x1024 (ix2 j r) = _
  rw [iota_col_apply, broadcastTo_a1_ab_apply]

theorem pay40_apply (b : IVec S1024x1 32) (j r : Fin 1024) :
    k0_pay40 b (ix2 j r) = BitVec.ofNat 32 r.val - b (ix2 j (0 : Fin 1)) := by
  unfold k0_pay40
  show iota .tc S1024x1024 32 [1] iota_S1024x1024_d1_w32 (ix2 j r)
      - broadcastTo S1024x1024 b broadcasts_S1024x1_S1024x1024 (ix2 j r) = _
  rw [iota_col_apply, broadcastTo_a1_ab_apply]

section Rows
variable (v8 t0 t1 t2 t3 t4 n : FVec Ideal S1024x1 .f32) (δ : IVec S1024x1024 32)
  (z : FVec Ideal S1024x1024 .bf16) (j r : Fin 1024)

theorem pay34_apply :
    k0_pay34 (F := Ideal) v8 t0 t1 t2 t3 n δ z (ix2 j r)
      = if δ (ix2 j r) = 1#32 then (v8 (ix2 j (0 : Fin 1)) * t3 (ix2 j (0 : Fin 1))) * n (ix2 j (0 : Fin 1))
        else if δ (ix2 j r) = 0#32 then (v8 (ix2 j (0 : Fin 1)) * t2 (ix2 j (0 : Fin 1))) * n (ix2 j (0 : Fin 1))
        else if δ (ix2 j r) = 4294967295#32 then (v8 (ix2 j (0 : Fin 1)) * t1 (ix2 j (0 : Fin 1))) * n (ix2 j (0 : Fin 1))
        else if δ (ix2 j r) = 4294967294#32 then (v8 (ix2 j (0 : Fin 1)) * t0 (ix2 j (0 : Fin 1))) * n (ix2 j (0 : Fin 1))
        else z (ix2 j r) := by
  unfold k0_pay34 k0_pay33 k0_pay31 k0_pay29 k0_pay27
  refine (select_eq_apply δ 1#32 _ _ _).trans (if_congr Iff.rfl ?_ ?_)
  · exact bcast_col_apply _ j r
  refine (select_eq_apply δ 0#32 _ _ _).trans (if_congr Iff.rfl ?_ ?_)
  · exact bcast_col_apply _ j r
  refine (select_eq_apply δ 4294967295#32 _ _ _).trans (if_congr Iff.rfl ?_ ?_)
  · exact bcast_col_apply _ j r
  refine (select_eq_apply δ 4294967294#32 _ _ _).trans (if_congr Iff.rfl ?_ rfl)
  exact bcast_col_apply _ j r

theorem pay35_apply :
    k0_pay35 (F := Ideal) v8 t0 t1 t2 t3 n δ z (ix2 j r)
      = if δ (ix2 j r) = 1#32 then
          (v8 (ix2 j (0 : Fin 1)) * t3 (ix2 j (0 : Fin 1))) * n (ix2 j (0 : Fin 1))
            - (v8 (ix2 j (0 : Fin 1)) * t3 (ix2 j (0 : Fin 1))) * n (ix2 j (0 : Fin 1))
        else if δ (ix2 j r) = 0#32 then
          (v8 (ix2 j (0 : Fin 1)) * t2 (ix2 j (0 : Fin 1))) * n (ix2 j (0 : Fin 1))
            - (v8 (ix2 j (0 : Fin 1)) * t2 (ix2 j (0 : Fin 1))) * n (ix2 j (0 : Fin 1))
        else if δ (ix2 j r) = 4294967295#32 then
          (v8 (ix2 j (0 : Fin 1)) * t1 (ix2 j (0 : Fin 1))) * n (ix2 j (0 : Fin 1))
            - (v8 (ix2 j (0 : Fin 1)) * t1 (ix2 j (0 : Fin 1))) * n (ix2 j (0 : Fin 1))
        else if δ (ix2 j r) = 4294967294#32 then
          (v8 (ix2 j (0 : Fin 1)) * t0 (ix2 j (0 : Fin 1))) * n (ix2 j (0 : Fin 1))
            - (v8 (ix2 j (0 : Fin 1)) * t0 (ix2 j (0 : Fin 1))) * n (ix2 j (0 : Fin 1))
        else z (ix2 j r) := by
  unfold k0_pay35 k0_pay33 k0_pay31 k0_pay29 k0_pay27
  refine (select_eq_apply δ 1#32 _ _ _).trans (if_congr Iff.rfl ?_ ?_)
  · exact bcast_col_apply _ j r
  refine (select_eq_apply δ 0#32 _ _ _).trans (if_congr Iff.rfl ?_ ?_)
  · exact bcast_col_apply _ j r
  refine (select_eq_apply δ 4294967295#32 _ _ _).trans (if_congr Iff.rfl ?_ ?_)
  · exact bcast_col_apply _ j r
  refine (select_eq_apply δ 4294967294#32 _ _ _).trans (if_congr Iff.rfl ?_ rfl)
  exact bcast_col_apply _ j r

theorem pay38_apply :
    k0_pay38 (F := Ideal) v8 t4 n δ z (ix2 j r)
      = if δ (ix2 j r) = 2#32 then (v8 (ix2 j (0 : Fin 1)) * t4 (ix2 j (0 : Fin 1))) * n (ix2 j (0 : Fin 1))
        else z (ix2 j r) := by
  unfold k0_pay38 k0_pay37
  refine (select_eq_apply δ 2#32 _ _ _).trans (if_congr Iff.rfl ?_ rfl)
  exact bcast_col_apply _ j r

theorem pay39_apply :
    k0_pay39 (F := Ideal) v8 t4 n δ z (ix2 j r)
      = if δ (ix2 j r) = 2#32 then
          (v8 (ix2 j (0 : Fin 1)) * t4 (ix2 j (0 : Fin 1))) * n (ix2 j (0 : Fin 1))
            - (v8 (ix2 j (0 : Fin 1)) * t4 (ix2 j (0 : Fin 1))) * n (ix2 j (0 : Fin 1))
        else z (ix2 j r) := by
  unfold k0_pay39 k0_pay37
  refine (select_eq_apply δ 2#32 _ _ _).trans (if_congr Iff.rfl ?_ rfl)
  exact bcast_col_apply _ j r

end Rows

section Cols
variable (b : IVec S1024x1 32) (t0 t1 t2 n : FVec Ideal S1024x1 .f32) (j c : Fin 1024)

theorem pay45_apply :
    k0_pay45 (F := Ideal) b t0 t1 n (ix2 j c)
      = if k0_pay40 b (ix2 j c) = 4294967295#32 then t1 (ix2 j (0 : Fin 1)) * n (ix2 j (0 : Fin 1))
        else if k0_pay40 b (ix2 j c) = 4294967294#32 then t0 (ix2 j (0 : Fin 1)) * n (ix2 j (0 : Fin 1))
        else cZero16 := by
  unfold k0_pay45 k0_pay44 k0_pay42
  refine (select_eq_apply (k0_pay40 b) 4294967295#32 _ _ _).trans (if_congr Iff.rfl ?_ ?_)
  · exact bcast_col_apply _ j c
  refine (select_eq_apply (k0_pay40 b) 4294967294#32 _ _ _).trans (if_congr Iff.rfl ?_ rfl)
  exact bcast_col_apply _ j c

theorem pay46_apply :
    k0_pay46 (F := Ideal) b t0 t1 n (ix2 j c)
      = if k0_pay40 b (ix2 j c) = 4294967295#32 then
          t1 (ix2 j (0 : Fin 1)) * n (ix2 j (0 : Fin 1)) - t1 (ix2 j (0 : Fin 1)) * n (ix2 j (0 : Fin 1))
        else if k0_pay40 b (ix2 j c) = 4294967294#32 then
          t0 (ix2 j (0 : Fin 1)) * n (ix2 j (0 : Fin 1)) - t0 (ix2 j (0 : Fin 1)) * n (ix2 j (0 : Fin 1))
        else cZero16 := by
  unfold k0_pay46 k0_pay44 k0_pay42
  refine (select_eq_apply (k0_pay40 b) 4294967295#32 _ _ _).trans (if_congr Iff.rfl ?_ ?_)
  · exact bcast_col_apply _ j c
  refine (select_eq_apply (k0_pay40 b) 4294967294#32 _ _ _).trans (if_congr Iff.rfl ?_ rfl)
  exact bcast_col_apply _ j c

theorem pay48_apply (i : S1024x1.Idx) : k0_pay48 (F := Ideal) t2 n i = t2 i * n i - t2 i * n i := rfl

theorem pay50_apply : k0_pay50 (F := Ideal) t2 n (ix2 j c) = t2 (ix2 j (0 : Fin 1)) * n (ix2 j (0 : Fin 1)) := by
  unfold k0_pay50
  exact bcast_col_apply _ j c

end Cols

/-! ## The product of two tile matrices over the tile's points -/

/-- The kernel's matrix product into a zero block contracts the FIRST axis of both operands:
    at `(r, c)` it is the sum over the points `j` of `A (j, r) · B (j, c)`. -/
theorem matmul_tile_apply (A B : FVec Ideal S1024x1024 .bf16) (r c : Fin 1024) :
    matmul dot_S1024x1024_S1024x1024_S1024x1024_0_0_1_1_n_n none A B (constant (F := Ideal) S1024x1024 .f32 0x00000000#32) (ix2 r c)
      = ∑ j : Fin 1024, A (ix2 j r) * B (ix2 j c) := by
  show FloatOps.matmul dot_S1024x1024_S1024x1024_S1024x1024_0_0_1_1_n_n none A B
      (constant (F := Ideal) S1024x1024 .f32 0x00000000#32) (ix2 r c) = _
  rw [Ideal.matmul_constant_zero_apply,
    ← Equiv.sum_comp (contrEquiv1 dot_S1024x1024_S1024x1024_S1024x1024_0_0_1_1_n_n 1024 rfl rfl).symm]
  refine Finset.sum_congr rfl fun j _ => ?_
  have cj := contrEquiv1_symm_val dot_S1024x1024_S1024x1024_S1024x1024_0_0_1_1_n_n 1024 rfl rfl j
  have l2 : dot_S1024x1024_S1024x1024_S1024x1024_0_0_1_1_n_n.lhsIdx (ix2 r c)
      ((contrEquiv1 dot_S1024x1024_S1024x1024_S1024x1024_0_0_1_1_n_n 1024 rfl rfl).symm j) = ix2 j r := by
    funext ax; apply Fin.ext
    match ax with
    | ⟨0, _⟩ => simp [DotDims.lhsIdx, dot_S1024x1024_S1024x1024_S1024x1024_0_0_1_1_n_n]; exact cj
    | ⟨1, _⟩ => simp [DotDims.lhsIdx, dot_S1024x1024_S1024x1024_S1024x1024_0_0_1_1_n_n]; rfl
  have r2 : dot_S1024x1024_S1024x1024_S1024x1024_0_0_1_1_n_n.rhsIdx (ix2 r c)
      ((contrEquiv1 dot_S1024x1024_S1024x1024_S1024x1024_0_0_1_1_n_n 1024 rfl rfl).symm j) = ix2 j c := by
    funext ax; apply Fin.ext
    match ax with
    | ⟨0, _⟩ => simp [DotDims.rhsIdx, dot_S1024x1024_S1024x1024_S1024x1024_0_0_1_1_n_n]; exact cj
    | ⟨1, _⟩ => simp [DotDims.rhsIdx, dot_S1024x1024_S1024x1024_S1024x1024_0_0_1_1_n_n]; rfl
  rw [l2, r2]

/-! ## The quantities of one point of the tile, by name -/

/-- The reciprocal tap sums of the whole tile, along each axis. -/
abbrev tInvX (xs : Vec Ideal S1x1024x1 .f32) : FVec Ideal S1024x1 .f32 :=
  k0_pay21 (F := Ideal) (k0_pay10 xs) (k0_pay12 (k0_pay8 xs) (k0_pay11 xs)) (k0_pay13 (k0_pay8 xs))
    (k0_pay14 (k0_pay8 xs)) (k0_pay15 (k0_pay8 xs))
abbrev tInvY (ys : Vec Ideal S1x1024x1 .f32) : FVec Ideal S1024x1 .f32 :=
  k0_pay22 (F := Ideal) (k0_pay9 ys) (k0_pay16 (k0_pay9 ys)) (k0_pay17 (k0_pay9 ys))

section Point
variable (xs ys vs : Vec Ideal S1x1024x1 .f32) (j : Fin 1024)

theorem tapx0 : k0_pay10 (F := Ideal) xs (ix2 j (0 : Fin 1)) = tap lam (frac (xs (ix3 (0 : Fin 1) j (0 : Fin 1)))) 0 := by
  rw [pay10_apply, pay8_apply]

theorem tapx1 : k0_pay12 (F := Ideal) (k0_pay8 xs) (k0_pay11 xs) (ix2 j (0 : Fin 1))
    = tap lam (frac (xs (ix3 (0 : Fin 1) j (0 : Fin 1)))) 1 := by
  rw [pay12_apply, pay11_apply, pay8_apply]
  rfl

theorem tapx2 : k0_pay13 (F := Ideal) (k0_pay8 xs) (ix2 j (0 : Fin 1))
    = tap lam (frac (xs (ix3 (0 : Fin 1) j (0 : Fin 1)))) 2 := by
  rw [pay13_apply, pay8_apply]

theorem tapx3 : k0_pay14 (F := Ideal) (k0_pay8 xs) (ix2 j (0 : Fin 1))
    = tap lam (frac (xs (ix3 (0 : Fin 1) j (0 : Fin 1)))) 3 := by
  rw [pay14_apply, pay8_apply]

theorem tapx4 : k0_pay15 (F := Ideal) (k0_pay8 xs) (ix2 j (0 : Fin 1))
    = tap lam (frac (xs (ix3 (0 : Fin 1) j (0 : Fin 1)))) 4 := by
  rw [pay15_apply, pay8_apply]

theorem invx : tInvX xs (ix2 j (0 : Fin 1)) = inv lam (frac (xs (ix3 (0 : Fin 1) j (0 : Fin 1)))) := by
  unfold tInvX
  rw [pay21_apply, tapx0, tapx1, tapx2, tapx3, tapx4]
  rfl

theorem tapy0 : k0_pay16 (F := Ideal) (k0_pay9 ys) (ix2 j (0 : Fin 1))
    = tap lam (frac (ys (ix3 (0 : Fin 1) j (0 : Fin 1)))) 0 := by
  rw [pay16_apply, pay9_apply]

theorem tapy1 : k0_pay17 (F := Ideal) (k0_pay9 ys) (ix2 j (0 : Fin 1))
    = tap lam (frac (ys (ix3 (0 : Fin 1) j (0 : Fin 1)))) 1 := by
  rw [pay17_apply, pay9_apply]

theorem tapy2 : k0_pay18 (F := Ideal) (k0_pay9 ys) (ix2 j (0 : Fin 1))
    = tap lam (frac (ys (ix3 (0 : Fin 1) j (0 : Fin 1)))) 2 := by
  rw [pay18_apply, pay9_apply]

theorem tapy3 : k0_pay19 (F := Ideal) (k0_pay9 ys) (ix2 j (0 : Fin 1))
    = tap lam (frac (ys (ix3 (0 : Fin 1) j (0 : Fin 1)))) 3 := by
  rw [pay19_apply, pay9_apply]

theorem tapy4 : k0_pay20 (F := Ideal) (k0_pay9 ys) (ix2 j (0 : Fin 1))
    = tap lam (frac (ys (ix3 (0 : Fin 1) j (0 : Fin 1)))) 4 := by
  rw [pay20_apply, pay9_apply]

theorem invy : tInvY ys (ix2 j (0 : Fin 1)) = inv lam (frac (ys (ix3 (0 : Fin 1) j (0 : Fin 1)))) := by
  unfold tInvY
  rw [pay22_apply, tapy0, tapy1, tapy2, tapy3, tapy4]
  rfl

end Point

/-! ## The row-weight matrix of the tile -/

section RowMatrix
variable (ys vs : Vec Ideal S1x1024x1 .f32) (j r : Fin 1024)

/-- The high part of the row weights IS the row weight. -/
theorem rowHi_apply :
    k0_pay38 (F := Ideal) (k0_pay3 vs) (k0_pay20 (k0_pay9 ys)) (tInvY ys) (k0_pay23 (k0_pay7 ys))
        (k0_pay34 (k0_pay3 vs) (k0_pay16 (k0_pay9 ys)) (k0_pay17 (k0_pay9 ys)) (k0_pay18 (k0_pay9 ys))
          (k0_pay19 (k0_pay9 ys)) (tInvY ys) (k0_pay23 (k0_pay7 ys)) (k0_pay24 (F := Ideal))) (ix2 j r)
      = rowW lam (ys (ix3 (0 : Fin 1) j (0 : Fin 1))) (vs (ix3 (0 : Fin 1) j (0 : Fin 1))) r.val := by
  rw [pay38_apply, pay34_apply, pay23_apply, pay7_apply, pay3_apply, tapy0, tapy1, tapy2, tapy3, tapy4, invy]
  rfl

/-- The low part of the row weights vanishes: each entry is a real number minus itself. -/
theorem rowLo_apply (hy : IsReal (ys (ix3 (0 : Fin 1) j (0 : Fin 1)))) (hv : IsReal (vs (ix3 (0 : Fin 1) j (0 : Fin 1)))) :
    k0_pay39 (F := Ideal) (k0_pay3 vs) (k0_pay20 (k0_pay9 ys)) (tInvY ys) (k0_pay23 (k0_pay7 ys))
        (k0_pay35 (k0_pay3 vs) (k0_pay16 (k0_pay9 ys)) (k0_pay17 (k0_pay9 ys)) (k0_pay18 (k0_pay9 ys))
          (k0_pay19 (k0_pay9 ys)) (tInvY ys) (k0_pay23 (k0_pay7 ys)) (k0_pay25 (F := Ideal))) (ix2 j r)
      = 0 := by
  obtain ⟨yr, hyr⟩ := hy
  obtain ⟨vr, hvr⟩ := hv
  have h := fun d => sub_self_of_isReal (rowVal_isReal yr vr d)
  rw [pay39_apply, pay35_apply, pay3_apply, tapy0, tapy1, tapy2, tapy3, tapy4, invy, hyr, hvr,
    h 0, h 1, h 2, h 3, h 4]
  show (if _ then (0 : EReal) else if _ then 0 else if _ then 0 else if _ then 0 else if _ then 0 else cZero16) = 0
  rw [cZero16_eq]
  simp only [ite_self]

end RowMatrix

/-! ## The column-weight matrices the products use -/

/-- The high part of the column weights: the two far neighbours `1`, `2` chosen first, then the
    middle one, then the matrix of the two near-left ones. -/
def colHi (t3 t4 n : FVec Ideal S1024x1 .f32) (δ : IVec S1024x1024 32) (m : IVec S1024x1024 1)
    (mid lo : FVec Ideal S1024x1024 .bf16) : FVec Ideal S1024x1024 .bf16 :=
  select (cmpi .eq δ (broadcast S1024x1024 2#32))
    (broadcastTo S1024x1024 (shapeCast S1024x1 (truncf .bf16 (mulf t4 n) bitsLt_bf16_f32) shapeCasts_S1024x1_S1024x1)
      broadcasts_S1024x1_S1024x1024)
    (select (cmpi .eq δ (broadcast S1024x1024 1#32))
      (broadcastTo S1024x1024 (shapeCast S1024x1 (truncf .bf16 (mulf t3 n) bitsLt_bf16_f32) shapeCasts_S1024x1_S1024x1)
        broadcasts_S1024x1_S1024x1024)
      (select m mid lo))

/-- The low part: each entry of the high part minus itself. -/
def colLo (t3 t4 n : FVec Ideal S1024x1 .f32) (δ : IVec S1024x1024 32) (m : IVec S1024x1024 1)
    (mid : FVec Ideal S1024x1 .bf16) (lo : FVec Ideal S1024x1024 .bf16) : FVec Ideal S1024x1024 .bf16 :=
  select (cmpi .eq δ (broadcast S1024x1024 2#32))
    (broadcastTo S1024x1024
      (shapeCast S1024x1 (truncf .bf16 (subf (mulf t4 n) (mulf t4 n)) bitsLt_bf16_f32) shapeCasts_S1024x1_S1024x1)
      broadcasts_S1024x1_S1024x1024)
    (select (cmpi .eq δ (broadcast S1024x1024 1#32))
      (broadcastTo S1024x1024
        (shapeCast S1024x1 (truncf .bf16 (subf (mulf t3 n) (mulf t3 n)) bitsLt_bf16_f32) shapeCasts_S1024x1_S1024x1)
        broadcasts_S1024x1_S1024x1024)
      (select m (broadcastTo S1024x1024 (shapeCast S1024x1 mid shapeCasts_S1024x1_S1024x1) broadcasts_S1024x1_S1024x1024) lo))

section ColMatrix
variable (t3 t4 n : FVec Ideal S1024x1 .f32) (δ : IVec S1024x1024 32) (m : IVec S1024x1024 1) (j c : Fin 1024)

theorem colHi_apply (mid lo : FVec Ideal S1024x1024 .bf16) :
    colHi t3 t4 n δ m mid lo (ix2 j c)
      = if δ (ix2 j c) = 2#32 then t4 (ix2 j (0 : Fin 1)) * n (ix2 j (0 : Fin 1))
        else if δ (ix2 j c) = 1#32 then t3 (ix2 j (0 : Fin 1)) * n (ix2 j (0 : Fin 1))
        else Scalar.select (m (ix2 j c)) (mid (ix2 j c)) (lo (ix2 j c)) := by
  unfold colHi
  refine (select_eq_apply δ 2#32 _ _ _).trans (if_congr Iff.rfl ?_ ?_)
  · exact bcast_col_apply _ j c
  refine (select_eq_apply δ 1#32 _ _ _).trans (if_congr Iff.rfl ?_ rfl)
  exact bcast_col_apply _ j c

theorem colLo_apply (mid : FVec Ideal S1024x1 .bf16) (lo : FVec Ideal S1024x1024 .bf16) :
    colLo t3 t4 n δ m mid lo (ix2 j c)
      = if δ (ix2 j c) = 2#32 then
          t4 (ix2 j (0 : Fin 1)) * n (ix2 j (0 : Fin 1)) - t4 (ix2 j (0 : Fin 1)) * n (ix2 j (0 : Fin 1))
        else if δ (ix2 j c) = 1#32 then
          t3 (ix2 j (0 : Fin 1)) * n (ix2 j (0 : Fin 1)) - t3 (ix2 j (0 : Fin 1)) * n (ix2 j (0 : Fin 1))
        else Scalar.select (m (ix2 j c)) (mid (ix2 j (0 : Fin 1))) (lo (ix2 j c)) := by
  unfold colLo
  refine (select_eq_apply δ 2#32 _ _ _).trans (if_congr Iff.rfl ?_ ?_)
  · exact bcast_col_apply _ j c
  refine (select_eq_apply δ 1#32 _ _ _).trans (if_congr Iff.rfl ?_ ?_)
  · exact bcast_col_apply _ j c
  exact congrArg (fun w => Scalar.select (m (ix2 j c)) w (lo (ix2 j c))) (bcast_col_apply mid j c)

end ColMatrix

/-- The middle neighbour's test: the pixel distance is zero. -/
theorem pay49_select {α : Type} (b : IVec S1024x1 32) (i : S1024x1024.Idx) (x y : α) :
    Scalar.select (k0_pay49 b i) x y = if k0_pay40 b i = 0#32 then x else y :=
  select_cmpi_eq (k0_pay40 b i) 0#32 x y

section ColTile
variable (xs : Vec Ideal S1x1024x1 .f32) (j c : Fin 1024)

/-- The high part of the column weights IS the column weight. -/
theorem colHi_tile :
    colHi (k0_pay14 (k0_pay8 xs)) (k0_pay15 (k0_pay8 xs)) (tInvX xs) (k0_pay40 (k0_pay6 xs)) (k0_pay49 (k0_pay6 xs))
        (k0_pay50 (k0_pay13 (k0_pay8 xs)) (tInvX xs))
        (k0_pay45 (k0_pay6 xs) (k0_pay10 xs) (k0_pay12 (k0_pay8 xs) (k0_pay11 xs)) (tInvX xs)) (ix2 j c)
      = colW lam (xs (ix3 (0 : Fin 1) j (0 : Fin 1))) c.val := by
  rw [colHi_apply, pay49_select, pay50_apply, pay45_apply, pay40_apply, pay6_apply, tapx0, tapx1, tapx2, tapx3, tapx4, invx]
  rfl

/-- The low part of the column weights vanishes. -/
theorem colLo_tile (hx : IsReal (xs (ix3 (0 : Fin 1) j (0 : Fin 1)))) :
    colLo (k0_pay14 (k0_pay8 xs)) (k0_pay15 (k0_pay8 xs)) (tInvX xs) (k0_pay40 (k0_pay6 xs)) (k0_pay49 (k0_pay6 xs))
        (k0_pay48 (k0_pay13 (k0_pay8 xs)) (tInvX xs))
        (k0_pay46 (k0_pay6 xs) (k0_pay10 xs) (k0_pay12 (k0_pay8 xs) (k0_pay11 xs)) (tInvX xs)) (ix2 j c)
      = 0 := by
  obtain ⟨xr, hxr⟩ := hx
  have h := fun d => sub_self_of_isReal (colVal_isReal xr d)
  rw [colLo_apply, pay49_select, pay48_apply, pay46_apply, tapx0, tapx1, tapx2, tapx3, tapx4, invx, hxr,
    h 0, h 1, h 2, h 3, h 4]
  show (if _ then (0 : EReal) else if _ then 0 else if _ then 0 else if _ then 0 else if _ then 0 else cZero16) = 0
  rw [cZero16_eq]
  simp only [ite_self]

end ColTile

/-! ## The stored block -/

section Store
variable (t3 t4 n : FVec Ideal S1024x1 .f32) (A Alo : FVec Ideal S1024x1024 .bf16) (δ : IVec S1024x1024 32)
  (lo loLo : FVec Ideal S1024x1024 .bf16) (midLo : FVec Ideal S1024x1 .bf16) (m : IVec S1024x1024 1)
  (mid : FVec Ideal S1024x1024 .bf16) (prev : Vec Ideal S1x1024x1024 .f32) (r c : Fin 1024)

/-- The stored block at `(r, c)`: the block before plus the three products, each a sum over the
    tile's points. -/
theorem pay1_eq :
    k0_pay1 (F := Ideal) t3 t4 n A Alo δ lo loLo midLo m mid prev (ix3 (0 : Fin 1) r c)
      = prev (ix3 (0 : Fin 1) r c)
        + ((∑ j : Fin 1024, A (ix2 j r) * colHi t3 t4 n δ m mid lo (ix2 j c)
            + ∑ j : Fin 1024, A (ix2 j r) * colLo t3 t4 n δ m midLo loLo (ix2 j c))
          + ∑ j : Fin 1024, Alo (ix2 j r) * colHi t3 t4 n δ m mid lo (ix2 j c)) := by
  unfold k0_pay1
  refine (shapeCast_ab_1ab_apply _ shapeCasts_S1024x1024_S1x1024x1024 (0 : Fin 1) r c).trans ?_
  show shapeCast S1024x1024 prev shapeCasts_S1x1024x1024_S1024x1024 (ix2 r c)
      + ((matmul dot_S1024x1024_S1024x1024_S1024x1024_0_0_1_1_n_n none A (colHi t3 t4 n δ m mid lo)
            (constant (F := Ideal) S1024x1024 .f32 0x00000000#32) (ix2 r c)
          + matmul dot_S1024x1024_S1024x1024_S1024x1024_0_0_1_1_n_n none A (colLo t3 t4 n δ m midLo loLo)
            (constant (F := Ideal) S1024x1024 .f32 0x00000000#32) (ix2 r c))
        + matmul dot_S1024x1024_S1024x1024_S1024x1024_0_0_1_1_n_n none Alo (colHi t3 t4 n δ m mid lo)
            (constant (F := Ideal) S1024x1024 .f32 0x00000000#32) (ix2 r c)) = _
  rw [shapeCast_1ab_ab_apply prev shapeCasts_S1x1024x1024_S1024x1024 r c, matmul_tile_apply, matmul_tile_apply,
    matmul_tile_apply]

/-- With the low parts zero, only the product of the high parts remains. -/
theorem pay1_apply (RW CW : Fin 1024 → EReal)
    (hA : ∀ j : Fin 1024, A (ix2 j r) = RW j) (hAlo : ∀ j : Fin 1024, Alo (ix2 j r) = 0)
    (hB : ∀ j : Fin 1024, colHi t3 t4 n δ m mid lo (ix2 j c) = CW j)
    (hBlo : ∀ j : Fin 1024, colLo t3 t4 n δ m midLo loLo (ix2 j c) = 0) :
    k0_pay1 (F := Ideal) t3 t4 n A Alo δ lo loLo midLo m mid prev (ix3 (0 : Fin 1) r c)
      = prev (ix3 (0 : Fin 1) r c) + ∑ j : Fin 1024, RW j * CW j := by
  have s1 : ∑ j : Fin 1024, A (ix2 j r) * colHi t3 t4 n δ m mid lo (ix2 j c) = ∑ j : Fin 1024, RW j * CW j :=
    Finset.sum_congr rfl fun j _ => by rw [hA j, hB j]
  have s2 : ∑ j : Fin 1024, A (ix2 j r) * colLo t3 t4 n δ m midLo loLo (ix2 j c) = 0 :=
    Finset.sum_eq_zero fun j _ => by rw [hBlo j, mul_zero]
  have s3 : ∑ j : Fin 1024, Alo (ix2 j r) * colHi t3 t4 n δ m mid lo (ix2 j c) = 0 :=
    Finset.sum_eq_zero fun j _ => by rw [hAlo j, zero_mul]
  rw [pay1_eq, s1, s2, s3, add_zero, add_zero]

end Store

/-- The block one grid point stores: the block before plus, at `(r, c)`, the sum over the tile's
    points of row weight times column weight. -/
theorem tileStore_apply (xs ys vs : Vec Ideal S1x1024x1 .f32) (prev : Vec Ideal S1x1024x1024 .f32)
    (hx : ∀ j : Fin 1024, IsReal (xs (ix3 (0 : Fin 1) j (0 : Fin 1))))
    (hy : ∀ j : Fin 1024, IsReal (ys (ix3 (0 : Fin 1) j (0 : Fin 1))))
    (hv : ∀ j : Fin 1024, IsReal (vs (ix3 (0 : Fin 1) j (0 : Fin 1)))) (r c : Fin 1024) :
    Tile.tileStore (F := Ideal) xs ys vs prev (ix3 (0 : Fin 1) r c)
      = prev (ix3 (0 : Fin 1) r c)
        + ∑ j : Fin 1024, rowW lam (ys (ix3 (0 : Fin 1) j (0 : Fin 1))) (vs (ix3 (0 : Fin 1) j (0 : Fin 1))) r.val
            * colW lam (xs (ix3 (0 : Fin 1) j (0 : Fin 1))) c.val := by
  unfold Tile.tileStore
  exact pay1_apply _ _ _ _ _ _ _ _ _ _ _ prev r c
    (fun j => rowW lam (ys (ix3 (0 : Fin 1) j (0 : Fin 1))) (vs (ix3 (0 : Fin 1) j (0 : Fin 1))) r.val)
    (fun j => colW lam (xs (ix3 (0 : Fin 1) j (0 : Fin 1))) c.val)
    (fun j => rowHi_apply ys vs j r) (fun j => rowLo_apply ys vs j r (hy j) (hv j))
    (fun j => colHi_tile xs j c) (fun j => colLo_tile xs j c (hx j))

/-- The block the first tile starts from is zero. -/
theorem k0_pay2_apply (i : S1x1024x1024.Idx) : k0_pay2 (F := Ideal) i = 0 := by
  unfold k0_pay2
  show Ideal.ofBits .f32 0x00000000#32 = 0
  exact Ideal.ofBits_zero_f32

end Cert.Splat

end
-- ==== Proof.KernelBlocks.lean ====
import proofs.«401088_j71786083385669_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost

/-!
  What the three input windows of the pipeline hold at a grid point.

  Before the region each input of 2,000,000 floats is padded with 896 zeros at its end and
  reshaped to `2 × 1000448 × 1`, row-major.  A window's block at grid point `t` is block
  `(t / 977, t % 977, 0)` of block shape `1 × 1024 × 1`, so its entry `(0, j, 0)` is the padded
  input at position `(t / 977) · 1000448 + (t % 977) · 1024 + j`: the input there if that
  position is below 2,000,000, zero beyond.
-/

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-- The input padded with zeros, read at a position: the input below 2,000,000, zero from there on. -/
def padAt (a : S2000000.Idx → EReal) (n : ℕ) : EReal :=
  if h : n < 2000000 then a (ValueIdx.ix1 (⟨n, h⟩ : Fin 2000000)) else 0

/-- The value the inputs are padded with, the integer constant 0 converted to a float, is zero. -/
theorem padValue_eq : (sitofp (F := Ideal) .f32 (constantI S_ 32 0#32)) (Shape.Idx.first Gen.h_S_) = (0 : EReal) := by
  show ((((0#32 : BitVec 32).toInt : ℤ) : ℝ) : EReal) = 0
  simp

/-- The padded, reshaped array read at `(q, r, 0)` is the padded input at position `q · 1000448 + r`:
    the reshape keeps row-major positions, and the padding leaves the input in place below 2,000,000
    and puts the padding value from there on. -/
theorem padded_apply (a : S2000000.Idx → EReal) (q r : ℕ) (hq : q < 2) (hr : r < 1000448) :
    shapeCast S2x1000448x1
        (pad S2000896 ![0] ![896] ![0] a (sitofp (F := Ideal) .f32 (constantI S_ 32 0#32))
          Gen.pads_S2000000_S2000896_08960 Gen.h_S_)
        Gen.shapeCasts_S2000896_S2x1000448x1 (ix3 (⟨q, hq⟩ : Fin 2) (⟨r, hr⟩ : Fin 1000448) (0 : Fin 1))
      = padAt a (q * 1000448 + r) := by
  have hlt : q * 1000448 + r < 2000896 := by omega
  refine (shapeCast_apply _ _ (ix3 (⟨q, hq⟩ : Fin 2) (⟨r, hr⟩ : Fin 1000448) (0 : Fin 1))
    (ix1 (⟨q * 1000448 + r, hlt⟩ : Fin 2000896)) ?_).trans ?_
  · rw [Shape.rowMajor_val_one, Shape.rowMajor_val_three]
    show q * 1000448 + r = (q * 1000448 + r) * 1 + 0
    omega
  · unfold padAt
    split
    next hn =>
      refine pad_apply_of_inside ![0] ![896] ![0] a _ Gen.pads_S2000000_S2000896_08960 Gen.h_S_ _
        (ix1 (⟨q * 1000448 + r, hn⟩ : Fin 2000000)) (fun b => ?_)
      match b with
      | ⟨0, _⟩ =>
        show q * 1000448 + r = 0 + (q * 1000448 + r) * (0 + 1)
        omega
    next hn =>
      refine (pad_apply_of_not_inside ![0] ![896] ![0] a _ Gen.pads_S2000000_S2000896_08960 Gen.h_S_ _ (0 : Fin 1) ?_).trans padValue_eq
      show ¬(0 ≤ q * 1000448 + r ∧ (q * 1000448 + r - 0) % (0 + 1) = 0 ∧ (q * 1000448 + r - 0) / (0 + 1) < 2000000)
      omega

/-- What the first window's array holds when the region is entered: the first input padded and reshaped. -/
theorem V_main_v1 (c : Dev nD) :
    (Gen.V m c main_v1 : S2x1000448x1.Idx → EReal)
      = shapeCast S2x1000448x1
          (pad S2000896 ![0] ![896] ![0] (m ((c : Thread nD τ).loc main_arg0) : S2000000.Idx → EReal)
            (sitofp (F := Ideal) .f32 (constantI S_ 32 0#32)) Gen.pads_S2000000_S2000896_08960 Gen.h_S_)
          Gen.shapeCasts_S2000896_S2x1000448x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  funext i
  rfl

/-- What the second window's array holds when the region is entered: the second input padded and reshaped. -/
theorem V_main_v3 (c : Dev nD) :
    (Gen.V m c main_v3 : S2x1000448x1.Idx → EReal)
      = shapeCast S2x1000448x1
          (pad S2000896 ![0] ![896] ![0] (m ((c : Thread nD τ).loc main_arg1) : S2000000.Idx → EReal)
            (sitofp (F := Ideal) .f32 (constantI S_ 32 0#32)) Gen.pads_S2000000_S2000896_08960 Gen.h_S_)
          Gen.shapeCasts_S2000896_S2x1000448x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  funext i
  rfl

/-- What the third window's array holds when the region is entered: the third input padded and reshaped. -/
theorem V_main_v5 (c : Dev nD) :
    (Gen.V m c main_v5 : S2x1000448x1.Idx → EReal)
      = shapeCast S2x1000448x1
          (pad S2000896 ![0] ![896] ![0] (m ((c : Thread nD τ).loc main_arg2) : S2000000.Idx → EReal)
            (sitofp (F := Ideal) .f32 (constantI S_ 32 0#32)) Gen.pads_S2000000_S2000896_08960 Gen.h_S_)
          Gen.shapeCasts_S2000896_S2x1000448x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  funext i
  rfl

/-- The windows' index maps over the grid: at point `t` each input window is on block
    `(t / 977, t % 977, 0)`. -/
theorem idx_facts : ∀ t : Fin cfg0.N,
    (win0_0.index t (0 : Fin 3) = t.val / 977 ∧ win0_0.index t (1 : Fin 3) = t.val % 977 ∧ win0_0.index t (2 : Fin 3) = 0)
    ∧ (win0_1.index t (0 : Fin 3) = t.val / 977 ∧ win0_1.index t (1 : Fin 3) = t.val % 977 ∧ win0_1.index t (2 : Fin 3) = 0)
    ∧ (win0_2.index t (0 : Fin 3) = t.val / 977 ∧ win0_2.index t (1 : Fin 3) = t.val % 977 ∧ win0_2.index t (2 : Fin 3) = 0) :=
  (by decide +kernel : ∀ t : Fin grid0.N, _)

/-- Entry `(0, j, 0)` of window 0's block at point `t` sits at `(t / 977, (t % 977) · 1024 + j, 0)` of its array:
    a block's coordinate is the block index times the block size plus the coordinate inside the block. -/
theorem emb0 (t : Fin cfg0.N) (j : Fin 1024) (hq : t.val / 977 < 2) (hr : t.val % 977 * 1024 + j.val < 1000448) :
    ((cfg0.win 0).blk t).view.emb (ix3 (0 : Fin 1) j (0 : Fin 1))
      = ix3 (⟨t.val / 977, hq⟩ : Fin 2) (⟨t.val % 977 * 1024 + j.val, hr⟩ : Fin 1000448) (0 : Fin 1) := by
  obtain ⟨e0, e1, e2⟩ := (idx_facts t).1
  funext a
  apply Fin.ext
  match a with
  | ⟨0, _⟩ => show win0_0.index t (0 : Fin 3) * 1 + 1 * 0 = t.val / 977; omega
  | ⟨1, _⟩ => show win0_0.index t (1 : Fin 3) * 1024 + 1 * j.val = t.val % 977 * 1024 + j.val; omega
  | ⟨2, _⟩ => show win0_0.index t (2 : Fin 3) * 1 + 1 * 0 = 0; omega

/-- Entry `(0, j, 0)` of window 1's block at point `t` sits at `(t / 977, (t % 977) · 1024 + j, 0)` of its array:
    a block's coordinate is the block index times the block size plus the coordinate inside the block. -/
theorem emb1 (t : Fin cfg0.N) (j : Fin 1024) (hq : t.val / 977 < 2) (hr : t.val % 977 * 1024 + j.val < 1000448) :
    ((cfg0.win 1).blk t).view.emb (ix3 (0 : Fin 1) j (0 : Fin 1))
      = ix3 (⟨t.val / 977, hq⟩ : Fin 2) (⟨t.val % 977 * 1024 + j.val, hr⟩ : Fin 1000448) (0 : Fin 1) := by
  obtain ⟨e0, e1, e2⟩ := (idx_facts t).2.1
  funext a
  apply Fin.ext
  match a with
  | ⟨0, _⟩ => show win0_1.index t (0 : Fin 3) * 1 + 1 * 0 = t.val / 977; omega
  | ⟨1, _⟩ => show win0_1.index t (1 : Fin 3) * 1024 + 1 * j.val = t.val % 977 * 1024 + j.val; omega
  | ⟨2, _⟩ => show win0_1.index t (2 : Fin 3) * 1 + 1 * 0 = 0; omega

/-- Entry `(0, j, 0)` of window 2's block at point `t` sits at `(t / 977, (t % 977) · 1024 + j, 0)` of its array:
    a block's coordinate is the block index times the block size plus the coordinate inside the block. -/
theorem emb2 (t : Fin cfg0.N) (j : Fin 1024) (hq : t.val / 977 < 2) (hr : t.val % 977 * 1024 + j.val < 1000448) :
    ((cfg0.win 2).blk t).view.emb (ix3 (0 : Fin 1) j (0 : Fin 1))
      = ix3 (⟨t.val / 977, hq⟩ : Fin 2) (⟨t.val % 977 * 1024 + j.val, hr⟩ : Fin 1000448) (0 : Fin 1) := by
  obtain ⟨e0, e1, e2⟩ := (idx_facts t).2.2
  funext a
  apply Fin.ext
  match a with
  | ⟨0, _⟩ => show win0_2.index t (0 : Fin 3) * 1 + 1 * 0 = t.val / 977; omega
  | ⟨1, _⟩ => show win0_2.index t (1 : Fin 3) * 1024 + 1 * j.val = t.val % 977 * 1024 + j.val; omega
  | ⟨2, _⟩ => show win0_2.index t (2 : Fin 3) * 1 + 1 * 0 = 0; omega

/-- Window 0's block view at a point reads an array at the place of the block's index in the array. -/
theorem read_blk0 (A : S2x1000448x1.Idx → EReal) (t : Fin cfg0.N) (y : S1x1024x1.Idx) :
    ((cfg0.win 0).blk t).view.read (Elt Ideal) A y = A (((cfg0.win 0).blk t).view.emb y) := rfl

/-- Window 1's block view at a point reads an array at the place of the block's index in the array. -/
theorem read_blk1 (A : S2x1000448x1.Idx → EReal) (t : Fin cfg0.N) (y : S1x1024x1.Idx) :
    ((cfg0.win 1).blk t).view.read (Elt Ideal) A y = A (((cfg0.win 1).blk t).view.emb y) := rfl

/-- Window 2's block view at a point reads an array at the place of the block's index in the array. -/
theorem read_blk2 (A : S2x1000448x1.Idx → EReal) (t : Fin cfg0.N) (y : S1x1024x1.Idx) :
    ((cfg0.win 2).blk t).view.read (Elt Ideal) A y = A (((cfg0.win 2).blk t).view.emb y) := rfl

/-- Entry `(0, j, 0)` of the first window's block at grid point `t`: the zero-padded first input at position
    `(t / 977) · 1000448 + (t % 977) · 1024 + j`. -/
theorem iblk_x (c : Dev nD) (t : Fin cfg0.N) (j : Fin 1024) :
    Gen.iblk m c 0 t (ix3 (0 : Fin 1) j (0 : Fin 1))
      = padAt (m ((c : Thread nD τ).loc main_arg0)) ((t.val / 977) * 1000448 + (t.val % 977) * 1024 + j.val) := by
  have ht : t.val < 1954 := Gen.N_0 ▸ t.isLt
  have hj : j.val < 1024 := j.isLt
  have hq : t.val / 977 < 2 := by omega
  have hr : t.val % 977 * 1024 + j.val < 1000448 := by omega
  unfold Gen.iblk
  refine (read_blk0 _ t _).trans ?_
  rw [emb0 t j hq hr,
    show t.val / 977 * 1000448 + t.val % 977 * 1024 + j.val = t.val / 977 * 1000448 + (t.val % 977 * 1024 + j.val)
      from Nat.add_assoc _ _ _]
  exact (congrFun (V_main_v1 m c) _).trans (padded_apply _ _ _ hq hr)

/-- Entry `(0, j, 0)` of the second window's block at grid point `t`: the zero-padded second input at position
    `(t / 977) · 1000448 + (t % 977) · 1024 + j`. -/
theorem iblk_y (c : Dev nD) (t : Fin cfg0.N) (j : Fin 1024) :
    Gen.iblk m c 1 t (ix3 (0 : Fin 1) j (0 : Fin 1))
      = padAt (m ((c : Thread nD τ).loc main_arg1)) ((t.val / 977) * 1000448 + (t.val % 977) * 1024 + j.val) := by
  have ht : t.val < 1954 := Gen.N_0 ▸ t.isLt
  have hj : j.val < 1024 := j.isLt
  have hq : t.val / 977 < 2 := by omega
  have hr : t.val % 977 * 1024 + j.val < 1000448 := by omega
  unfold Gen.iblk
  refine (read_blk1 _ t _).trans ?_
  rw [emb1 t j hq hr,
    show t.val / 977 * 1000448 + t.val % 977 * 1024 + j.val = t.val / 977 * 1000448 + (t.val % 977 * 1024 + j.val)
      from Nat.add_assoc _ _ _]
  exact (congrFun (V_main_v3 m c) _).trans (padded_apply _ _ _ hq hr)

/-- Entry `(0, j, 0)` of the third window's block at grid point `t`: the zero-padded third input at position
    `(t / 977) · 1000448 + (t % 977) · 1024 + j`. -/
theorem iblk_v (c : Dev nD) (t : Fin cfg0.N) (j : Fin 1024) :
    Gen.iblk m c 2 t (ix3 (0 : Fin 1) j (0 : Fin 1))
      = padAt (m ((c : Thread nD τ).loc main_arg2)) ((t.val / 977) * 1000448 + (t.val % 977) * 1024 + j.val) := by
  have ht : t.val < 1954 := Gen.N_0 ▸ t.isLt
  have hj : j.val < 1024 := j.isLt
  have hq : t.val / 977 < 2 := by omega
  have hr : t.val % 977 * 1024 + j.val < 1000448 := by omega
  unfold Gen.iblk
  refine (read_blk2 _ t _).trans ?_
  rw [emb2 t j hq hr,
    show t.val / 977 * 1000448 + t.val % 977 * 1024 + j.val = t.val / 977 * 1000448 + (t.val % 977 * 1024 + j.val)
      from Nat.add_assoc _ _ _]
  exact (congrFun (V_main_v5 m c) _).trans (padded_apply _ _ _ hq hr)

end Cert.KernelIdeal.Blocks

end
-- ==== Proof.KernelTail.lean ====
/- The lines of @main after the kernel region: the region's result array, of shape 2 × 1024 × 1024, is cut
   into its two halves along the leading axis, each half is read as a 1024 × 1024 image, and the two images
   are added entry by entry. This module reads that sum at an index, and restates the generated frame run as
   "memory at the sum's buffer holds it, the three arguments are as launched". -/
import proofs.«401088_j71786083385669_3_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F] [Named F]

variable (m : (ℓ : Loc nD τ sig) → Buf (Elt F) ℓ) (ρ : Dev nD → PrngReg)

/-- The first half of a 2 × 1024 × 1024 array, read at (0, r, col), is the array at (0, r, col): the slice's offsets are
    all zero. -/
theorem half0_apply {α : Type} (x : S2x1024x1024.Idx → α) (r col : Fin 1024) :
    extractStridedSlice S1x1024x1024 ![0, 0, 0] x slices_S2x1024x1024_S1x1024x1024_0_0_0 (ix3 (0 : Fin 1) r col)
      = x (ix3 (0 : Fin 2) r col) := by
  refine extractStridedSlice_apply ![0, 0, 0] x slices_S2x1024x1024_S1x1024x1024_0_0_0 (ix3 (0 : Fin 1) r col)
    (ix3 (0 : Fin 2) r col) fun a => ?_
  match a with
  | ⟨0, _⟩ => show (0 : ℕ) = 0 + 0; rfl
  | ⟨1, _⟩ => show r.val = 0 + r.val; omega
  | ⟨2, _⟩ => show col.val = 0 + col.val; omega

/-- The second half, read at (0, r, col), is the array at (1, r, col): the slice's offset on the leading axis is one. -/
theorem half1_apply {α : Type} (x : S2x1024x1024.Idx → α) (r col : Fin 1024) :
    extractStridedSlice S1x1024x1024 ![1, 0, 0] x slices_S2x1024x1024_S1x1024x1024_1_0_0 (ix3 (0 : Fin 1) r col)
      = x (ix3 (1 : Fin 2) r col) := by
  refine extractStridedSlice_apply ![1, 0, 0] x slices_S2x1024x1024_S1x1024x1024_1_0_0 (ix3 (0 : Fin 1) r col)
    (ix3 (1 : Fin 2) r col) fun a => ?_
  match a with
  | ⟨0, _⟩ => show (1 : ℕ) = 1 + 0; rfl
  | ⟨1, _⟩ => show r.val = 0 + r.val; omega
  | ⟨2, _⟩ => show col.val = 0 + col.val; omega

/-- The region's result array on core `c` after its last write-back, as a function of its three coordinates
    (half, image row, image column). -/
abbrev res (c : Dev nD) : S2x1024x1024.Idx → Elt F .f32 := (dats m 0 c).arrAt 3 cfg0.N

/-- What the lines after the region leave in the sum's buffer, as a function of (row, column). -/
abbrev out (c : Dev nD) : S1024x1024.Idx → Elt F .f32 :=
  Pipeline.afterTail₀ cfgs (dats m) 0 (V0 m) [hostOps1] c main_v11

/-- THE TAIL, at any float instance: the sum's entry at (row, column) is the float sum of the two halves' entries there. -/
theorem tail_v11_generic (c : Dev nD) (r col : Fin 1024) :
    out m c (ix2 r col) = FloatOps.addf (res m c (ix3 (0 : Fin 2) r col)) (res m c (ix3 (1 : Fin 2) r col)) := by
  unfold out Pipeline.afterTail₀
  show StableHlo.after hostOps1 _ (Proc.devRef .tc main_v11) (ix2 r col) = _
  after_results
  -- the region's result buffer is the fourth window's array: at the region's exit it holds `res`
  have hw : Pipeline.withArrays (cfgs 0).spec c (V0 m c) (fun w => (dats m 0 c).arrAt w (cfgs 0).N) (Proc.devRef .tc main_v6)
      = res m c := Pipeline.withArrays_arr spec0 launch0.win.arr_inj c _ _ 3
  rw [hw]
  -- the sum at (r, col) is the float sum of the two images there
  show FloatOps.addf
      (shapeCast S1024x1024 (extractStridedSlice S1x1024x1024 ![0, 0, 0] (res m c) slices_S2x1024x1024_S1x1024x1024_0_0_0)
        shapeCasts_S1x1024x1024_S1024x1024 (ix2 r col))
      (shapeCast S1024x1024 (extractStridedSlice S1x1024x1024 ![1, 0, 0] (res m c) slices_S2x1024x1024_S1x1024x1024_1_0_0)
        shapeCasts_S1x1024x1024_S1024x1024 (ix2 r col)) = _
  -- each image at (r, col) is its half at (0, r, col), which is the result array at (half, r, col)
  have h0 : shapeCast S1024x1024 (extractStridedSlice S1x1024x1024 ![0, 0, 0] (res m c) slices_S2x1024x1024_S1x1024x1024_0_0_0)
        shapeCasts_S1x1024x1024_S1024x1024 (ix2 r col) = res m c (ix3 (0 : Fin 2) r col) :=
    (shapeCast_1ab_ab_apply _ shapeCasts_S1x1024x1024_S1024x1024 r col).trans (half0_apply (res m c) r col)
  have h1 : shapeCast S1024x1024 (extractStridedSlice S1x1024x1024 ![1, 0, 0] (res m c) slices_S2x1024x1024_S1x1024x1024_1_0_0)
        shapeCasts_S1x1024x1024_S1024x1024 (ix2 r col) = res m c (ix3 (1 : Fin 2) r col) :=
    (shapeCast_1ab_ab_apply _ shapeCasts_S1x1024x1024_S1024x1024 r col).trans (half1_apply (res m c) r col)
  rw [h0, h1]

end Cert.KernelIdeal.Tail

namespace Cert.KernelIdeal.Tail

open Idealize.ShloMosaic Idealize.ShloMosaic.TcCoe
open Idealize.SL.Sem
open Idealize.ShloMosaic.ValueIdx
open Cert.KernelIdeal.Gen

/-- The two abbreviations at the ideal instance, where an entry is an extended real. -/
abbrev resI (m : (ℓ : Loc nD τ sig) → Buf (Elt Ideal) ℓ) (c : Dev nD) : S2x1024x1024.Idx → EReal := res (F := Ideal) m c
abbrev outI (m : (ℓ : Loc nD τ sig) → Buf (Elt Ideal) ℓ) (c : Dev nD) : S1024x1024.Idx → EReal := out (F := Ideal) m c

/-- THE TAIL at the ideal instance: the sum's entry at (row, column) is the extended-real sum of the two halves' entries. -/
theorem tail_v11 (m : (ℓ : Loc nD τ sig) → Buf (Elt Ideal) ℓ) (c : Dev nD) (r col : Fin 1024) :
    outI m c (ix2 r col) = resI m c (ix3 (0 : Fin 2) r col) + resI m c (ix3 (1 : Fin 2) r col) :=
  tail_v11_generic (F := Ideal) m c r col

/-- THE RUN: every weakly fair execution of @main terminates with the sum's buffer at what the lines after the region
    compute from the region's result array, and the three arguments as launched. -/
theorem run_v11 {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v11) = Pipeline.afterTail₀ cfgs (dats m) 0 (V0 m) [hostOps1] c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v11 (Pipeline.mem_restRefs_of main_v11 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.SumTiles.lean ====
import Mathlib.Algebra.BigOperators.Group.Finset.Basic
import Mathlib.Algebra.BigOperators.Fin
import Mathlib.Algebra.BigOperators.Intervals

/-!
  Re-indexing of finite sums.

  The points of the splat are enumerated in three ways: as two halves of 977 tiles of 1024
  points each (the second half starting at point `977 · 1024 = 1000448`), as one run of
  `2 · 977 · 1024 = 2000896` points of which the last 896 are padding, and as the
  `2000000` genuine points.  On the other side the `2000000 · 25 = 50000000` neighbour
  updates are enumerated flat, and as 25 updates for each point.

  Everything is stated in an arbitrary commutative additive monoid, first for symbolic
  extents and then at the literal ones.
-/

open scoped BigOperators

namespace Cert.Splat

variable {M : Type*} [AddCommMonoid M]

/-! ## Symbolic extents -/

/-- `a` consecutive blocks of `b` terms make one run of `a · b` terms. -/
theorem sum_blocks (f : ℕ → M) (a b : ℕ) :
    ∑ k ∈ Finset.range a, ∑ j : Fin b, f (k * b + j.val) = ∑ n ∈ Finset.range (a * b), f n := by
  induction a with
  | zero => simp
  | succ a ih =>
    rw [Finset.sum_range_succ, ih, Nat.succ_mul, Finset.sum_range_add,
      Fin.sum_univ_eq_sum_range (fun j => f (a * b + j)) b]

/-- Two runs of `c` terms, the second shifted by `c`, make one run of `c + c` terms. -/
theorem sum_two_runs (f : ℕ → M) (c : ℕ) :
    (∑ n ∈ Finset.range c, f n) + (∑ n ∈ Finset.range c, f (c + n))
      = ∑ n ∈ Finset.range (c + c), f n :=
  (Finset.sum_range_add f c c).symm

/-- Two halves of `a` blocks of `b` terms make one run of `a · b + a · b` terms. -/
theorem sum_two_halves (f : ℕ → M) (a b : ℕ) :
    (∑ k ∈ Finset.range a, ∑ j : Fin b, f (k * b + j.val))
      + (∑ k ∈ Finset.range a, ∑ j : Fin b, f (a * b + k * b + j.val))
      = ∑ n ∈ Finset.range (a * b + a * b), f n := by
  have h2 : (∑ k ∈ Finset.range a, ∑ j : Fin b, f (a * b + k * b + j.val))
      = ∑ n ∈ Finset.range (a * b), f (a * b + n) := by
    rw [← sum_blocks (fun n => f (a * b + n)) a b]
    refine Finset.sum_congr rfl fun k _ => Finset.sum_congr rfl fun j _ => ?_
    rw [Nat.add_assoc]
  rw [sum_blocks f a b, h2, sum_two_runs]

/-- A run whose last `b` terms vanish is the sum of its first `a` terms. -/
theorem sum_drop_tail (f : ℕ → M) (a b : ℕ)
    (h : ∀ n, a ≤ n → n < a + b → f n = 0) :
    ∑ n ∈ Finset.range (a + b), f n = ∑ n : Fin a, f n.val := by
  rw [Finset.sum_range_add, Fin.sum_univ_eq_sum_range f a]
  have h0 : ∑ x ∈ Finset.range b, f (a + x) = 0 :=
    Finset.sum_eq_zero fun x hx =>
      h (a + x) (Nat.le_add_right a x) (Nat.add_lt_add_left (Finset.mem_range.mp hx) a)
  rw [h0, add_zero]

/-- A run of `a · b` terms is `a` rows of `b` terms. -/
theorem sum_rows_gen (g : ℕ → M) (a b : ℕ) :
    ∑ i ∈ Finset.range (a * b), g i = ∑ n : Fin a, ∑ q : Fin b, g (n.val * b + q.val) := by
  rw [← sum_blocks g a b, Fin.sum_univ_eq_sum_range (fun k => ∑ q : Fin b, g (k * b + q.val)) a]

/-! ## The literal extents -/

/-- The two halves of 977 tiles of 1024 points are the run of all 2000896 points. -/
theorem sum_tiles (f : ℕ → M) :
    (∑ k ∈ Finset.range 977, ∑ j : Fin 1024, f (k * 1024 + j.val))
      + (∑ k ∈ Finset.range 977, ∑ j : Fin 1024, f (1000448 + k * 1024 + j.val))
      = ∑ n ∈ Finset.range 2000896, f n :=
  sum_two_halves f 977 1024

/-- The 896 padding points contribute nothing. -/
theorem sum_drop_pad (f : ℕ → M) (h : ∀ n, 2000000 ≤ n → n < 2000896 → f n = 0) :
    ∑ n ∈ Finset.range 2000896, f n = ∑ n : Fin 2000000, f n.val :=
  sum_drop_tail f 2000000 896 h

/-- The 50000000 flat neighbour updates are 25 updates for each of the 2000000 points. -/
theorem sum_rows (g : ℕ → M) :
    ∑ i ∈ Finset.range 50000000, g i
      = ∑ n : Fin 2000000, ∑ q : Fin 25, g (n.val * 25 + q.val) :=
  sum_rows_gen g 2000000 25

/-- An accumulator that starts at zero and adds `C k` at step `k` holds, after `K` steps,
    the sum of the first `K` terms. -/
theorem sum_range_succ_acc (C acc : ℕ → M) (h0 : acc 0 = 0)
    (hs : ∀ k, acc (k + 1) = acc k + C k) (K : ℕ) :
    acc K = ∑ k ∈ Finset.range K, C k := by
  induction K with
  | zero => simpa using h0
  | succ K ih => rw [hs, ih, Finset.sum_range_succ]

/-- The same with a starting value `s`. -/
theorem sum_range_succ_acc_from (C acc : ℕ → M) (s : M) (h0 : acc 0 = s)
    (hs : ∀ k, acc (k + 1) = acc k + C k) (K : ℕ) :
    acc K = s + ∑ k ∈ Finset.range K, C k := by
  induction K with
  | zero => simpa using h0
  | succ K ih => rw [hs, ih, Finset.sum_range_succ, add_assoc]

end Cert.Splat
-- ==== Proof.KernelSum.lean ====
import proofs.«401088_j71786083385669_3_alg».proof.Proof.TileSum
import proofs.«401088_j71786083385669_3_alg».proof.Proof.SplatReal
import proofs.«401088_j71786083385669_3_alg».proof.Proof.SumTiles

/-!
  The tiles cover the points.

  The zero-padded point list has `2 · 977 · 1024 = 2000896` entries, cut into two halves of 977
  tiles of 1024 points; entry `(h, k, j)` is point `h · 1000448 + k · 1024 + j`.  The last 896
  entries are padding whose value is zero, so their row weight, and with it their product of
  row and column weight, is zero.  Hence the tile sums of the two halves add up to the sum over the
  2,000,000 points.
-/

open scoped BigOperators

noncomputable section

namespace Cert.Splat

open Idealize.ShloMosaic

/-- The two halves' tile sums add up to the sum over the real points. -/
theorem kernel_sum (X Y W : ℕ → EReal) (hW : ∀ n, 2000000 ≤ n → W n = 0) (r col : Fin 1024) :
    (∑ k ∈ Finset.range 977, tileSum X Y W 0 k r col)
      + (∑ k ∈ Finset.range 977, tileSum X Y W 1 k r col)
      = ∑ n : Fin 2000000, rowW lam (Y n.val) (W n.val) r.val * colW lam (X n.val) col.val := by
  have h0 : ∀ k j : ℕ, pos 0 k j = k * 1024 + j := by
    intro k j; unfold pos; omega
  have h1 : ∀ k j : ℕ, pos 1 k j = 1000448 + k * 1024 + j := by
    intro k j; unfold pos; omega
  have key := sum_tiles (fun n => rowW lam (Y n) (W n) r.val * colW lam (X n) col.val)
  have pad := sum_drop_pad (fun n => rowW lam (Y n) (W n) r.val * colW lam (X n) col.val)
    (fun n hn _ => by
      show rowW lam (Y n) (W n) r.val * colW lam (X n) col.val = 0
      rw [hW n hn, rowW_zero, zero_mul])
  simp only [tileSum, h0, h1]
  exact key.trans pad

end Cert.Splat

end
-- ==== Proof.KernelImage.lean ====
import proofs.«401088_j71786083385669_3_alg».proof.Proof.Gen.KernelIdeal.Frame
import proofs.«401088_j71786083385669_3_alg».proof.Proof.KAccum
import proofs.«401088_j71786083385669_3_alg».proof.Proof.KFinal
import proofs.«401088_j71786083385669_3_alg».proof.Proof.TilePieces
import proofs.«401088_j71786083385669_3_alg».proof.Proof.TileValue
import proofs.«401088_j71786083385669_3_alg».proof.Proof.KernelBlocks
import proofs.«401088_j71786083385669_3_alg».proof.Proof.KernelTail
import proofs.«401088_j71786083385669_3_alg».proof.Proof.KernelSum
import proofs.«401088_j71786083385669_3_alg».proof.Proof.SplatReal
import proofs.«401088_j71786083385669_3_alg».proof.Proof.LibReal

/-!
  The kernel's result is the image.

  The padded point list is the 2,000,000 points followed by 896 points of value zero.
  Every grid point adds its tile's contribution to the result block of its half
  (the running sum), the region's result array ends holding each half's total, the
  program adds the two halves, and the padding adds nothing: the result at pixel
  `(r, col)` is the sum over the 2,000,000 points of row weight times column weight.
-/

open scoped BigOperators

noncomputable section

namespace Cert.KernelIdeal.Image

open Idealize.ShloMosaic Idealize.ShloMosaic.TcCoe Idealize.SL.Sem
open Cert.KernelIdeal Cert.KernelIdeal.Gen Cert.Splat Cert.LibReal
open Idealize.ShloMosaic.ValueIdx

variable (m : (ℓ : Loc nD τ sig) → Buf (Elt Ideal) ℓ)

/-- The three argument arrays on core `c`. -/
abbrev ax (c : Dev nD) : S2000000.Idx → EReal := m ((c : Thread nD τ).loc main_arg0)
abbrev ay (c : Dev nD) : S2000000.Idx → EReal := m ((c : Thread nD τ).loc main_arg1)
abbrev av (c : Dev nD) : S2000000.Idx → EReal := m ((c : Thread nD τ).loc main_arg2)

theorem padAt_isReal (a : S2000000.Idx → EReal) (ha : ∀ n : Fin 2000000, IsReal (a (ix1 n))) (n : ℕ) :
    IsReal (Blocks.padAt a n) := by
  unfold Blocks.padAt
  split
  · exact ha _
  · exact IsReal.zero

theorem padAt_pad (a : S2000000.Idx → EReal) (n : ℕ) (h : 2000000 ≤ n) : Blocks.padAt a n = 0 := by
  unfold Blocks.padAt
  rw [dif_neg (by omega)]

theorem padAt_val (a : S2000000.Idx → EReal) (n : Fin 2000000) : Blocks.padAt a n.val = a (ix1 n) := by
  unfold Blocks.padAt
  rw [dif_pos n.isLt]

/-- The kernel program's result at pixel `(r, col)`, for real inputs. -/
theorem kernel_img (c : Dev nD)
    (hx : ∀ n : Fin 2000000, IsReal (ax m c (ix1 n))) (hy : ∀ n : Fin 2000000, IsReal (ay m c (ix1 n)))
    (hv : ∀ n : Fin 2000000, IsReal (av m c (ix1 n))) (r col : Fin 1024) :
    Tail.outI m c (ix2 r col)
      = img lam (fun n => ax m c (ix1 n)) (fun n => ay m c (ix1 n)) (fun n => av m c (ix1 n)) r col := by
  have hacc := Accum.outsAt_apply m c (Blocks.padAt (ax m c)) (Blocks.padAt (ay m c)) (Blocks.padAt (av m c))
    (padAt_isReal _ hx) (padAt_isReal _ hy) (padAt_isReal _ hv)
    (fun t j => Blocks.iblk_x m c t j) (fun t j => Blocks.iblk_y m c t j) (fun t j => Blocks.iblk_v m c t j)
    (fun xs ys vs prev h1 h2 h3 r col => tileStore_apply xs ys vs prev h1 h2 h3 r col)
    (fun i a2 h2 a3 h3 a4 h4 a5 h5 hc x0 x1 x2 => Tile.out0_A_3_eq c i a2 h2 a3 h3 a4 h4 a5 h5 hc x0 x1 x2)
    (fun i a2 h2 a3 h3 a4 h4 a5 h5 hc x0 x1 x2 xo => Tile.out0_B_3_eq c i a2 h2 a3 h3 a4 h4 a5 h5 hc x0 x1 x2 xo)
    k0_pay2_apply
  rw [Tail.tail_v11 m c r col]
  show Final.arr6 m c (ix3 (0 : Fin 2) r col) + Final.arr6 m c (ix3 (1 : Fin 2) r col) = _
  rw [Final.final6 m c _ _ _ hacc 0 r col, Final.final6 m c _ _ _ hacc 1 r col]
  show (∑ k ∈ Finset.range 977, tileSum _ _ _ 0 k r col) + (∑ k ∈ Finset.range 977, tileSum _ _ _ 1 k r col) = _
  rw [kernel_sum _ _ _ (padAt_pad (av m c)) r col]
  unfold img
  refine Finset.sum_congr rfl fun n _ => ?_
  rw [padAt_val, padAt_val, padAt_val]

end Cert.KernelIdeal.Image

end
-- ==== Proof.RefDef.lean ====
import proofs.«401088_j71786083385669_3_alg».proof.ReferenceIdeal
import Idealize.ShloMosaic.PureOps.Ideal

/-!
  The reference splat as one function of its three argument arrays.

  The host program maps the positions `x`, `y` and the values `v` of 2,000,000 points to a
  1024 × 1024 image.  Here the same operations, in the same order, are composed into one
  pure function `refTerm x y v`, with a name for each stage that has a meaning:

  * per point: the pixel coordinate `(x + 1) / 2⁻⁹`, its floor as a 32-bit integer (the base
    pixel) and the offset inside that pixel;
  * per point and neighbour `q < 25`: the neighbour's pixel column and row (base pixel plus
    the offset tables), the squared distance to it, the weight `exp ((-½ · d²) / D)`, the sum
    of the 25 weights, the normalised weight, the mask "inside the image", the clipped
    coordinates, the flat pixel index `row · 1024 + col` and the update
    `value · weight · mask`;
  * the scatter of the 50,000,000 updates, added into a zero image of 1,048,576 pixels read as
    1024 rows of 1024.
-/

noncomputable section

namespace Cert.ReferenceIdeal.RefDef

open Idealize.ShloMosaic
open Cert.ReferenceIdeal

variable [Cert.ReferenceIdeal.Facts]
open Facts₀ Facts

/-! ## Literals and offset tables -/

/-- The column offsets `q mod 5 - 2` and the row offsets `q / 5 - 2` of the 25 neighbours. -/
def offX : IVec S25 32 := fun i => lit0 (S25.rowMajor i)
def offY : IVec S25 32 := fun i => lit1 (S25.rowMajor i)

/-! ## One axis of every point -/

/-- Pixel coordinate of every position: `(x - (-1)) / 2⁻⁹`. -/
def stPix (x : FVec Ideal S2000000 .f32) : FVec Ideal S2000000 .f32 :=
  Host.divf
    (subf x (broadcastInDim S2000000 ![] bcast_S_S2000000 (constant S_ .f32 0xBF800000#32)))
    (broadcastInDim S2000000 ![] bcast_S_S2000000 (constant S_ .f32 0x3B000000#32))

/-- Base pixel: the floor of the coordinate, as a 32-bit integer. -/
def stBase (x : FVec Ideal S2000000 .f32) : IVec S2000000 32 :=
  fptosi 32 (Host.floor (stPix x))

/-- Offset inside the base pixel. -/
def stFrac (x : FVec Ideal S2000000 .f32) : FVec Ideal S2000000 .f32 :=
  subf (stPix x) (sitofp .f32 (stBase x))

/-! ## Every point with each of its 25 neighbours -/

/-- A per-point integer repeated along the 25 neighbours. -/
def rowsI (a : IVec S2000000 32) : IVec S2000000x25 32 :=
  broadcastInDim S2000000x25 ![0, 1] bcast_S2000000x1_S2000000x25_0_1
    (broadcastInDim S2000000x1 ![0] bcast_S2000000_S2000000x1_0 a)

/-- A per-point float repeated along the 25 neighbours. -/
def rowsF (a : FVec Ideal S2000000 .f32) : FVec Ideal S2000000x25 .f32 :=
  broadcastInDim S2000000x25 ![0, 1] bcast_S2000000x1_S2000000x25_0_1
    (broadcastInDim S2000000x1 ![0] bcast_S2000000_S2000000x1_0 a)

/-- A per-neighbour integer repeated along the points. -/
def colsI (o : IVec S25 32) : IVec S2000000x25 32 :=
  broadcastInDim S2000000x25 ![0, 1] bcast_S1x25_S2000000x25_0_1
    (broadcastInDim S1x25 ![1] bcast_S25_S1x25_1 o)

/-- A per-neighbour integer read as a float and repeated along the points. -/
def colsF (o : IVec S25 32) : FVec Ideal S2000000x25 .f32 :=
  broadcastInDim S2000000x25 ![0, 1] bcast_S1x25_S2000000x25_0_1
    (sitofp .f32 (broadcastInDim S1x25 ![1] bcast_S25_S1x25_1 o))

/-- The neighbours' pixel columns (from `x`, `offX`) or rows (from `y`, `offY`). -/
def stNb (x : FVec Ideal S2000000 .f32) (o : IVec S25 32) : IVec S2000000x25 32 :=
  addi (rowsI (stBase x)) (colsI o)

/-- Signed distance, along one axis, from the point to each neighbour's pixel. -/
def stDist (x : FVec Ideal S2000000 .f32) (o : IVec S25 32) : FVec Ideal S2000000x25 .f32 :=
  subf (rowsF (stFrac x)) (colsF o)

/-- Unnormalised weights `exp ((-½ · (dx² + dy²)) / D)`. -/
def stE (x y : FVec Ideal S2000000 .f32) : FVec Ideal S2000000x25 .f32 :=
  Host.exp (Host.divf
    (mulf (broadcastInDim S2000000x25 ![] bcast_S_S2000000x25 (constant S_ .f32 0xBF000000#32))
      (addf (mulf (stDist x offX) (stDist x offX)) (mulf (stDist y offY) (stDist y offY))))
    (broadcastInDim S2000000x25 ![] bcast_S_S2000000x25 (constant S_ .f32 0x3C23D70A#32)))

/-- Per point, the sum of its 25 weights, from zero. -/
def stSum (x y : FVec Ideal S2000000 .f32) : FVec Ideal S2000000 .f32 :=
  Host.reduceAdd (stE x y) (constant S_ .f32 0x00000000#32) reducesTo_S2000000x25_S2000000_d1 h_S_

/-- Normalised weights. -/
def stW (x y : FVec Ideal S2000000 .f32) : FVec Ideal S2000000x25 .f32 :=
  Host.divf (stE x y) (rowsF (stSum x y))

/-- The mask: neighbour column and row both in `[0, 1024)`. -/
def stValid (x y : FVec Ideal S2000000 .f32) : IVec S2000000x25 1 :=
  andi
    (andi
      (andi
        (cmpi .sge (stNb x offX) (broadcastInDim S2000000x25 ![] bcast_S_S2000000x25 (constantI S_ 32 0#32)))
        (cmpi .slt (stNb x offX) (broadcastInDim S2000000x25 ![] bcast_S_S2000000x25 (constantI S_ 32 1024#32))))
      (cmpi .sge (stNb y offY) (broadcastInDim S2000000x25 ![] bcast_S_S2000000x25 (constantI S_ 32 0#32))))
    (cmpi .slt (stNb y offY) (broadcastInDim S2000000x25 ![] bcast_S_S2000000x25 (constantI S_ 32 1024#32)))

/-- Clip every entry into `[lo, hi]`: `min hi (max lo a)`. -/
def stClip (a : IVec S2000000x25 32) (lo hi : IVec S_ 32) : IVec S2000000x25 32 :=
  minsi (broadcastInDim S2000000x25 ![] bcast_S_S2000000x25 (id hi))
    (maxsi (broadcastInDim S2000000x25 ![] bcast_S_S2000000x25 (id lo)) a)

/-- Clipped neighbour columns and rows. -/
def stClipX (x : FVec Ideal S2000000 .f32) : IVec S2000000x25 32 :=
  stClip (stNb x offX) (constantI S_ 32 0#32) (constantI S_ 32 1023#32)
def stClipY (y : FVec Ideal S2000000 .f32) : IVec S2000000x25 32 :=
  stClip (stNb y offY) (constantI S_ 32 0#32) (constantI S_ 32 1023#32)

/-- The updates: value times normalised weight times mask. -/
def stUpd (x y v : FVec Ideal S2000000 .f32) : FVec Ideal S2000000x25 .f32 :=
  mulf (mulf (rowsF v) (stW x y)) (uitofp .f32 (stValid x y))

/-- Flat pixel index of each clipped neighbour: `row · 1024 + col`. -/
def stFlat (x y : FVec Ideal S2000000 .f32) : IVec S2000000x25 32 :=
  addi
    (muli (stClipY y) (broadcastInDim S2000000x25 ![] bcast_S_S2000000x25 (constantI S_ 32 1024#32)))
    (stClipX x)

/-! ## The scatter -/

/-- The image as a vector of 1,048,576 pixels: zero plus every update at its flat index. -/
def stScatter (x y v : FVec Ideal S2000000 .f32) : FVec Ideal S1048576 .f32 :=
  Host.scatterAdd scatter_S1048576_S50000000x1_S50000000_n_0_0_1
    (broadcastInDim S1048576 ![] bcast_S_S1048576 (constant S_ .f32 0x00000000#32))
    (broadcastInDim S50000000x1 ![0] bcast_S50000000_S50000000x1_0
      (shapeCast S50000000 (stFlat x y) shapeCasts_S2000000x25_S50000000))
    (shapeCast S50000000 (stUpd x y v) shapeCasts_S2000000x25_S50000000)

/-- The reference's result: the scattered vector read as 1024 rows of 1024 pixels. -/
def refTerm (x y v : FVec Ideal S2000000 .f32) : FVec Ideal S1024x1024 .f32 :=
  shapeCast S1024x1024 (stScatter x y v) shapeCasts_S1048576_S1024x1024

end Cert.ReferenceIdeal.RefDef

end
-- ==== Proof.RefRun.lean ====
/- The reference program's run: @main's two windows and the two calls of the outlined clamp, as ONE
   list of host operations; every weakly fair execution terminates, the result buffer at the operations'
   composed term of the three argument buffers' launch contents, the arguments unchanged. -/
import proofs.«401088_j71786083385669_3_alg».proof.ReferenceIdeal
import proofs.«401088_j71786083385669_3_alg».proof.Proof.Gen.ReferenceIdeal
import proofs.«401088_j71786083385669_3_alg».proof.Proof.RefDef
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The composed term

What the operations compute from the three argument arrays, written once, as functions: the pixel coordinate
along an axis, its integer part and its remainder; the 25 neighbours' integer coordinates and real offsets;
the 25 weights and their normalisation; the mask of the neighbours inside the image; the clamp; the flat
index; the masked, weighted updates; the scatter-add into the zero image, reshaped. -/

/-- `(x − (−1)) / 2⁻⁹`, elementwise: the pixel coordinate. -/
def pixT (x : FVec F S2000000 .f32) : FVec F S2000000 .f32 :=
  Host.divf (subf x (broadcastInDim S2000000 ![] bcast_S_S2000000 (constant S_ .f32 0xBF800000#32)))
    (broadcastInDim S2000000 ![] bcast_S_S2000000 (constant S_ .f32 0x3B000000#32))

/-- `⌊pix⌋` as a 32-bit integer: the base pixel. -/
def baseT (x : FVec F S2000000 .f32) : IVec S2000000 32 := fptosi 32 (Host.floor (pixT x))

/-- `pix − ⌊pix⌋`: the offset inside the pixel. -/
def fracT (x : FVec F S2000000 .f32) : FVec F S2000000 .f32 := subf (pixT x) (sitofp .f32 (baseT x))

/-- A table of 25 integer offsets as a `1 × 25` row. -/
def offT (lit : Fin 25 → BitVec 32) : IVec S1x25 32 :=
  broadcastInDim S1x25 ![1] bcast_S25_S1x25_1 (fun i => lit (S25.rowMajor i))

/-- The 25 neighbours' integer coordinates along an axis: base + offset. -/
def nbT (b : IVec S2000000 32) (lit : Fin 25 → BitVec 32) : IVec S2000000x25 32 :=
  addi (broadcastInDim S2000000x25 ![0, 1] bcast_S2000000x1_S2000000x25_0_1 (broadcastInDim S2000000x1 ![0] bcast_S2000000_S2000000x1_0 b))
    (broadcastInDim S2000000x25 ![0, 1] bcast_S1x25_S2000000x25_0_1 (offT lit))

/-- The 25 neighbours' real distances along an axis: remainder − offset. -/
def dT (f : FVec F S2000000 .f32) (lit : Fin 25 → BitVec 32) : FVec F S2000000x25 .f32 :=
  subf (broadcastInDim S2000000x25 ![0, 1] bcast_S2000000x1_S2000000x25_0_1 (broadcastInDim S2000000x1 ![0] bcast_S2000000_S2000000x1_0 f))
    (broadcastInDim S2000000x25 ![0, 1] bcast_S1x25_S2000000x25_0_1 (sitofp .f32 (offT lit)))

/-- The 25 unnormalised weights `exp(−½ (dx² + dy²) / D)`. -/
def wT (x y : FVec F S2000000 .f32) : FVec F S2000000x25 .f32 :=
  Host.exp (Host.divf
    (mulf (broadcastInDim S2000000x25 ![] bcast_S_S2000000x25 (constant S_ .f32 0xBF000000#32))
      (addf (mulf (dT (fracT x) lit0) (dT (fracT x) lit0)) (mulf (dT (fracT y) lit1) (dT (fracT y) lit1))))
    (broadcastInDim S2000000x25 ![] bcast_S_S2000000x25 (constant S_ .f32 0x3C23D70A#32)))

/-- The weights divided by their sum over the 25 neighbours. -/
def nwT (x y : FVec F S2000000 .f32) : FVec F S2000000x25 .f32 :=
  Host.divf (wT x y)
    (broadcastInDim S2000000x25 ![0, 1] bcast_S2000000x1_S2000000x25_0_1
      (broadcastInDim S2000000x1 ![0] bcast_S2000000_S2000000x1_0
        (Host.reduceAdd (wT x y) (constant S_ .f32 0x00000000#32) reducesTo_S2000000x25_S2000000_d1 h_S_)))

/-- The mask: both coordinates in `[0, 1024)`. -/
def inT (nx ny : IVec S2000000x25 32) : IVec S2000000x25 1 :=
  andi (andi (andi (cmpi .sge nx (broadcastInDim S2000000x25 ![] bcast_S_S2000000x25 (constantI S_ 32 0#32))) (cmpi .slt nx (broadcastInDim S2000000x25 ![] bcast_S_S2000000x25 (constantI S_ 32 1024#32))))
      (cmpi .sge ny (broadcastInDim S2000000x25 ![] bcast_S_S2000000x25 (constantI S_ 32 0#32))))
    (cmpi .slt ny (broadcastInDim S2000000x25 ![] bcast_S_S2000000x25 (constantI S_ 32 1024#32)))

/-- The clamp to `[0, 1023]`: the maximum with 0, then the minimum with 1023. -/
def clipT (n : IVec S2000000x25 32) : IVec S2000000x25 32 :=
  minsi (broadcastInDim S2000000x25 ![] bcast_S_S2000000x25 (constantI S_ 32 1023#32)) (maxsi (broadcastInDim S2000000x25 ![] bcast_S_S2000000x25 (constantI S_ 32 0#32)) n)

/-- The flat index `clamp(ny) · 1024 + clamp(nx)`, the 25 neighbours of every point in one row. -/
def flatT (nx ny : IVec S2000000x25 32) : IVec S50000000 32 :=
  shapeCast S50000000 (addi (muli (clipT ny) (broadcastInDim S2000000x25 ![] bcast_S_S2000000x25 (constantI S_ 32 1024#32))) (clipT nx)) shapeCasts_S2000000x25_S50000000

/-- The updates: value · normalised weight · mask, in the same order. -/
def updT (x y v : FVec F S2000000 .f32) : FVec F S50000000 .f32 :=
  shapeCast S50000000
    (mulf (mulf (broadcastInDim S2000000x25 ![0, 1] bcast_S2000000x1_S2000000x25_0_1 (broadcastInDim S2000000x1 ![0] bcast_S2000000_S2000000x1_0 v)) (nwT x y))
      (uitofp .f32 (inT (nbT (baseT x) lit0) (nbT (baseT y) lit1))))
    shapeCasts_S2000000x25_S50000000

/-- The image: the updates scatter-added into the zero image at the flat indices, as `1024 × 1024`. -/
def out (x y v : FVec F S2000000 .f32) : FVec F S1024x1024 .f32 :=
  shapeCast S1024x1024
    (Host.scatterAdd scatter_S1048576_S50000000x1_S50000000_n_0_0_1
      (broadcastInDim S1048576 ![] bcast_S_S1048576 (constant S_ .f32 0x00000000#32))
      (broadcastInDim S50000000x1 ![0] bcast_S50000000_S50000000x1_0 (flatT (nbT (baseT x) lit0) (nbT (baseT y) lit1)))
      (updT x y v))
    shapeCasts_S1048576_S1024x1024

/-! ## The program as a list -/

/-- @main's operations in order, the two calls of the clamp unfolded at their sites (six operations each, over
    the call's own buffers): 106 in all. -/
abbrev ops : List (HloOp τ sig (Elt F)) :=
  [
    StableHlo.nullary main_c (fun i => lit0 (S25.rowMajor i)),
    StableHlo.nullary main_c_0 (fun i => lit1 (S25.rowMajor i)),
    StableHlo.nullary main_cst (constant S_ .f32 0xBF800000#32),
    StableHlo.unary main_cst main_v0 (broadcastInDim S2000000 ![] bcast_S_S2000000 : (⟨S_, .f32⟩ : BufTy).Contents (Elt F) → (⟨S2000000, .f32⟩ : BufTy).Contents (Elt F)),
    StableHlo.binary main_arg0 main_v0 main_v1 (subf : (⟨S2000000, .f32⟩ : BufTy).Contents (Elt F) → (⟨S2000000, .f32⟩ : BufTy).Contents (Elt F) → (⟨S2000000, .f32⟩ : BufTy).Contents (Elt F)),
    StableHlo.nullary main_cst_1 (constant S_ .f32 0x3B000000#32),
    StableHlo.unary main_cst_1 main_v2 (broadcastInDim S2000000 ![] bcast_S_S2000000 : (⟨S_, .f32⟩ : BufTy).Contents (Elt F) → (⟨S2000000, .f32⟩ : BufTy).Contents (Elt F)),
    StableHlo.binary main_v1 main_v2 main_v3 (Host.divf : (⟨S2000000, .f32⟩ : BufTy).Contents (Elt F) → (⟨S2000000, .f32⟩ : BufTy).Contents (Elt F) → (⟨S2000000, .f32⟩ : BufTy).Contents (Elt F)),
    StableHlo.nullary main_cst_2 (constant S_ .f32 0xBF800000#32),
    StableHlo.unary main_cst_2 main_v4 (broadcastInDim S2000000 ![] bcast_S_S2000000 : (⟨S_, .f32⟩ : BufTy).Contents (Elt F) → (⟨S2000000, .f32⟩ : BufTy).Contents (Elt F)),
    StableHlo.binary main_arg1 main_v4 main_v5 (subf : (⟨S2000000, .f32⟩ : BufTy).Contents (Elt F) → (⟨S2000000, .f32⟩ : BufTy).Contents (Elt F) → (⟨S2000000, .f32⟩ : BufTy).Contents (Elt F)),
    StableHlo.nullary main_cst_3 (constant S_ .f32 0x3B000000#32),
    StableHlo.unary main_cst_3 main_v6 (broadcastInDim S2000000 ![] bcast_S_S2000000 : (⟨S_, .f32⟩ : BufTy).Contents (Elt F) → (⟨S2000000, .f32⟩ : BufTy).Contents (Elt F)),
    StableHlo.binary main_v5 main_v6 main_v7 (Host.divf : (⟨S2000000, .f32⟩ : BufTy).Contents (Elt F) → (⟨S2000000, .f32⟩ : BufTy).Contents (Elt F) → (⟨S2000000, .f32⟩ : BufTy).Contents (Elt F)),
    StableHlo.unary main_v3 main_v8 (Host.floor : (⟨S2000000, .f32⟩ : BufTy).Contents (Elt F) → (⟨S2000000, .f32⟩ : BufTy).Contents (Elt F)),
    StableHlo.unary main_v8 main_v9 (fptosi 32 : (⟨S2000000, .f32⟩ : BufTy).Contents (Elt F) → (⟨S2000000, .i32⟩ : BufTy).Contents (Elt F)),
    StableHlo.unary main_v7 main_v10 (Host.floor : (⟨S2000000, .f32⟩ : BufTy).Contents (Elt F) → (⟨S2000000, .f32⟩ : BufTy).Contents (Elt F)),
    StableHlo.unary main_v10 main_v11 (fptosi 32 : (⟨S2000000, .f32⟩ : BufTy).Contents (Elt F) → (⟨S2000000, .i32⟩ : BufTy).Contents (Elt F)),
    StableHlo.unary main_v9 main_v12 (sitofp .f32 : (⟨S2000000, .i32⟩ : BufTy).Contents (Elt F) → (⟨S2000000, .f32⟩ : BufTy).Contents (Elt F)),
    StableHlo.binary main_v3 main_v12 main_v13 (subf : (⟨S2000000, .f32⟩ : BufTy).Contents (Elt F) → (⟨S2000000, .f32⟩ : BufTy).Contents (Elt F) → (⟨S2000000, .f32⟩ : BufTy).Contents (Elt F)),
    StableHlo.unary main_v11 main_v14 (sitofp .f32 : (⟨S2000000, .i32⟩ : BufTy).Contents (Elt F) → (⟨S2000000, .f32⟩ : BufTy).Contents (Elt F)),
    StableHlo.binary main_v7 main_v14 main_v15 (subf : (⟨S2000000, .f32⟩ : BufTy).Contents (Elt F) → (⟨S2000000, .f32⟩ : BufTy).Contents (Elt F) → (⟨S2000000, .f32⟩ : BufTy).Contents (Elt F)),
    StableHlo.unary main_v9 main_v16 (broadcastInDim S2000000x1 ![0] bcast_S2000000_S2000000x1_0 : (⟨S2000000, .i32⟩ : BufTy).Contents (Elt F) → (⟨S2000000x1, .i32⟩ : BufTy).Contents (Elt F)),
    StableHlo.unary main_c main_v17 (broadcastInDim S1x25 ![1] bcast_S25_S1x25_1 : (⟨S25, .i32⟩ : BufTy).Contents (Elt F) → (⟨S1x25, .i32⟩ : BufTy).Contents (Elt F)),
    StableHlo.unary main_v16 main_v18 (broadcastInDim S2000000x25 ![0, 1] bcast_S2000000x1_S2000000x25_0_1 : (⟨S2000000x1, .i32⟩ : BufTy).Contents (Elt F) → (⟨S2000000x25, .i32⟩ : BufTy).Contents (Elt F)),
    StableHlo.unary main_v17 main_v19 (broadcastInDim S2000000x25 ![0, 1] bcast_S1x25_S2000000x25_0_1 : (⟨S1x25, .i32⟩ : BufTy).Contents (Elt F) → (⟨S2000000x25, .i32⟩ : BufTy).Contents (Elt F)),
    StableHlo.binary main_v18 main_v19 main_v20 (addi : (⟨S2000000x25, .i32⟩ : BufTy).Contents (Elt F) → (⟨S2000000x25, .i32⟩ : BufTy).Contents (Elt F) → (⟨S2000000x25, .i32⟩ : BufTy).Contents (Elt F)),
    StableHlo.unary main_v11 main_v21 (broadcastInDim S2000000x1 ![0] bcast_S2000000_S2000000x1_0 : (⟨S2000000, .i32⟩ : BufTy).Contents (Elt F) → (⟨S2000000x1, .i32⟩ : BufTy).Contents (Elt F)),
    StableHlo.unary main_c_0 main_v22 (broadcastInDim S1x25 ![1] bcast_S25_S1x25_1 : (⟨S25, .i32⟩ : BufTy).Contents (Elt F) → (⟨S1x25, .i32⟩ : BufTy).Contents (Elt F)),
    StableHlo.unary main_v21 main_v23 (broadcastInDim S2000000x25 ![0, 1] bcast_S2000000x1_S2000000x25_0_1 : (⟨S2000000x1, .i32⟩ : BufTy).Contents (Elt F) → (⟨S2000000x25, .i32⟩ : BufTy).Contents (Elt F)),
    StableHlo.unary main_v22 main_v24 (broadcastInDim S2000000x25 ![0, 1] bcast_S1x25_S2000000x25_0_1 : (⟨S1x25, .i32⟩ : BufTy).Contents (Elt F) → (⟨S2000000x25, .i32⟩ : BufTy).Contents (Elt F)),
    StableHlo.binary main_v23 main_v24 main_v25 (addi : (⟨S2000000x25, .i32⟩ : BufTy).Contents (Elt F) → (⟨S2000000x25, .i32⟩ : BufTy).Contents (Elt F) → (⟨S2000000x25, .i32⟩ : BufTy).Contents (Elt F)),
    StableHlo.unary main_v13 main_v26 (broadcastInDim S2000000x1 ![0] bcast_S2000000_S2000000x1_0 : (⟨S2000000, .f32⟩ : BufTy).Contents (Elt F) → (⟨S2000000x1, .f32⟩ : BufTy).Contents (Elt F)),
    StableHlo.unary main_c main_v27 (broadcastInDim S1x25 ![1] bcast_S25_S1x25_1 : (⟨S25, .i32⟩ : BufTy).Contents (Elt F) → (⟨S1x25, .i32⟩ : BufTy).Contents (Elt F)),
    StableHlo.unary main_v27 main_v28 (sitofp .f32 : (⟨S1x25, .i32⟩ : BufTy).Contents (Elt F) → (⟨S1x25, .f32⟩ : BufTy).Contents (Elt F)),
    StableHlo.unary main_v26 main_v29 (broadcastInDim S2000000x25 ![0, 1] bcast_S2000000x1_S2000000x25_0_1 : (⟨S2000000x1, .f32⟩ : BufTy).Contents (Elt F) → (⟨S2000000x25, .f32⟩ : BufTy).Contents (Elt F)),
    StableHlo.unary main_v28 main_v30 (broadcastInDim S2000000x25 ![0, 1] bcast_S1x25_S2000000x25_0_1 : (⟨S1x25, .f32⟩ : BufTy).Contents (Elt F) → (⟨S2000000x25, .f32⟩ : BufTy).Contents (Elt F)),
    StableHlo.binary main_v29 main_v30 main_v31 (subf : (⟨S2000000x25, .f32⟩ : BufTy).Contents (Elt F) → (⟨S2000000x25, .f32⟩ : BufTy).Contents (Elt F) → (⟨S2000000x25, .f32⟩ : BufTy).Contents (Elt F)),
    StableHlo.unary main_v15 main_v32 (broadcastInDim S2000000x1 ![0] bcast_S2000000_S2000000x1_0 : (⟨S2000000, .f32⟩ : BufTy).Contents (Elt F) → (⟨S2000000x1, .f32⟩ : BufTy).Contents (Elt F)),
    StableHlo.unary main_c_0 main_v33 (broadcastInDim S1x25 ![1] bcast_S25_S1x25_1 : (⟨S25, .i32⟩ : BufTy).Contents (Elt F) → (⟨S1x25, .i32⟩ : BufTy).Contents (Elt F)),
    StableHlo.unary main_v33 main_v34 (sitofp .f32 : (⟨S1x25, .i32⟩ : BufTy).Contents (Elt F) → (⟨S1x25, .f32⟩ : BufTy).Contents (Elt F)),
    StableHlo.unary main_v32 main_v35 (broadcastInDim S2000000x25 ![0, 1] bcast_S2000000x1_S2000000x25_0_1 : (⟨S2000000x1, .f32⟩ : BufTy).Contents (Elt F) → (⟨S2000000x25, .f32⟩ : BufTy).Contents (Elt F)),
    StableHlo.unary main_v34 main_v36 (broadcastInDim S2000000x25 ![0, 1] bcast_S1x25_S2000000x25_0_1 : (⟨S1x25, .f32⟩ : BufTy).Contents (Elt F) → (⟨S2000000x25, .f32⟩ : BufTy).Contents (Elt F)),
    StableHlo.binary main_v35 main_v36 main_v37 (subf : (⟨S2000000x25, .f32⟩ : BufTy).Contents (Elt F) → (⟨S2000000x25, .f32⟩ : BufTy).Contents (Elt F) → (⟨S2000000x25, .f32⟩ : BufTy).Contents (Elt F)),
    StableHlo.binary main_v31 main_v31 main_v38 (mulf : (⟨S2000000x25, .f32⟩ : BufTy).Contents (Elt F) → (⟨S2000000x25, .f32⟩ : BufTy).Contents (Elt F) → (⟨S2000000x25, .f32⟩ : BufTy).Contents (Elt F)),
    StableHlo.binary main_v37 main_v37 main_v39 (mulf : (⟨S2000000x25, .f32⟩ : BufTy).Contents (Elt F) → (⟨S2000000x25, .f32⟩ : BufTy).Contents (Elt F) → (⟨S2000000x25, .f32⟩ : BufTy).Contents (Elt F)),
    StableHlo.binary main_v38 main_v39 main_v40 (addf : (⟨S2000000x25, .f32⟩ : BufTy).Contents (Elt F) → (⟨S2000000x25, .f32⟩ : BufTy).Contents (Elt F) → (⟨S2000000x25, .f32⟩ : BufTy).Contents (Elt F)),
    StableHlo.nullary main_cst_4 (constant S_ .f32 0xBF000000#32),
    StableHlo.unary main_cst_4 main_v41 (broadcastInDim S2000000x25 ![] bcast_S_S2000000x25 : (⟨S_, .f32⟩ : BufTy).Contents (Elt F) → (⟨S2000000x25, .f32⟩ : BufTy).Contents (Elt F)),
    StableHlo.binary main_v41 main_v40 main_v42 (mulf : (⟨S2000000x25, .f32⟩ : BufTy).Contents (Elt F) → (⟨S2000000x25, .f32⟩ : BufTy).Contents (Elt F) → (⟨S2000000x25, .f32⟩ : BufTy).Contents (Elt F)),
    StableHlo.nullary main_cst_5 (constant S_ .f32 0x3C23D70A#32),
    StableHlo.unary main_cst_5 main_v43 (broadcastInDim S2000000x25 ![] bcast_S_S2000000x25 : (⟨S_, .f32⟩ : BufTy).Contents (Elt F) → (⟨S2000000x25, .f32⟩ : BufTy).Contents (Elt F)),
    StableHlo.binary main_v42 main_v43 main_v44 (Host.divf : (⟨S2000000x25, .f32⟩ : BufTy).Contents (Elt F) → (⟨S2000000x25, .f32⟩ : BufTy).Contents (Elt F) → (⟨S2000000x25, .f32⟩ : BufTy).Contents (Elt F)),
    StableHlo.unary main_v44 main_v45 (Host.exp : (⟨S2000000x25, .f32⟩ : BufTy).Contents (Elt F) → (⟨S2000000x25, .f32⟩ : BufTy).Contents (Elt F)),
    StableHlo.nullary main_cst_6 (constant S_ .f32 0x00000000#32),
    StableHlo.binary main_v45 main_cst_6 main_v46 ((fun x v => Host.reduceAdd x v reducesTo_S2000000x25_S2000000_d1 h_S_) : (⟨S2000000x25, .f32⟩ : BufTy).Contents (Elt F) → (⟨S_, .f32⟩ : BufTy).Contents (Elt F) → (⟨S2000000, .f32⟩ : BufTy).Contents (Elt F)),
    StableHlo.unary main_v46 main_v47 (broadcastInDim S2000000x1 ![0] bcast_S2000000_S2000000x1_0 : (⟨S2000000, .f32⟩ : BufTy).Contents (Elt F) → (⟨S2000000x1, .f32⟩ : BufTy).Contents (Elt F)),
    StableHlo.unary main_v47 main_v48 (broadcastInDim S2000000x25 ![0, 1] bcast_S2000000x1_S2000000x25_0_1 : (⟨S2000000x1, .f32⟩ : BufTy).Contents (Elt F) → (⟨S2000000x25, .f32⟩ : BufTy).Contents (Elt F)),
    StableHlo.binary main_v45 main_v48 main_v49 (Host.divf : (⟨S2000000x25, .f32⟩ : BufTy).Contents (Elt F) → (⟨S2000000x25, .f32⟩ : BufTy).Contents (Elt F) → (⟨S2000000x25, .f32⟩ : BufTy).Contents (Elt F)),
    StableHlo.nullary main_c_7 (constantI S_ 32 0#32),
    StableHlo.unary main_c_7 main_v50 (broadcastInDim S2000000x25 ![] bcast_S_S2000000x25 : (⟨S_, .i32⟩ : BufTy).Contents (Elt F) → (⟨S2000000x25, .i32⟩ : BufTy).Contents (Elt F)),
    StableHlo.binary main_v20 main_v50 main_v51 (cmpi .sge : (⟨S2000000x25, .i32⟩ : BufTy).Contents (Elt F) → (⟨S2000000x25, .i32⟩ : BufTy).Contents (Elt F) → (⟨S2000000x25, .i1⟩ : BufTy).Contents (Elt F)),
    StableHlo.nullary main_c_8 (constantI S_ 32 1024#32),
    StableHlo.unary main_c_8 main_v52 (broadcastInDim S2000000x25 ![] bcast_S_S2000000x25 : (⟨S_, .i32⟩ : BufTy).Contents (Elt F) → (⟨S2000000x25, .i32⟩ : BufTy).Contents (Elt F)),
    StableHlo.binary main_v20 main_v52 main_v53 (cmpi .slt : (⟨S2000000x25, .i32⟩ : BufTy).Contents (Elt F) → (⟨S2000000x25, .i32⟩ : BufTy).Contents (Elt F) → (⟨S2000000x25, .i1⟩ : BufTy).Contents (Elt F)),
    StableHlo.binary main_v51 main_v53 main_v54 (andi : (⟨S2000000x25, .i1⟩ : BufTy).Contents (Elt F) → (⟨S2000000x25, .i1⟩ : BufTy).Contents (Elt F) → (⟨S2000000x25, .i1⟩ : BufTy).Contents (Elt F)),
    StableHlo.nullary main_c_9 (constantI S_ 32 0#32),
    StableHlo.unary main_c_9 main_v55 (broadcastInDim S2000000x25 ![] bcast_S_S2000000x25 : (⟨S_, .i32⟩ : BufTy).Contents (Elt F) → (⟨S2000000x25, .i32⟩ : BufTy).Contents (Elt F)),
    StableHlo.binary main_v25 main_v55 main_v56 (cmpi .sge : (⟨S2000000x25, .i32⟩ : BufTy).Contents (Elt F) → (⟨S2000000x25, .i32⟩ : BufTy).Contents (Elt F) → (⟨S2000000x25, .i1⟩ : BufTy).Contents (Elt F)),
    StableHlo.binary main_v54 main_v56 main_v57 (andi : (⟨S2000000x25, .i1⟩ : BufTy).Contents (Elt F) → (⟨S2000000x25, .i1⟩ : BufTy).Contents (Elt F) → (⟨S2000000x25, .i1⟩ : BufTy).Contents (Elt F)),
    StableHlo.nullary main_c_10 (constantI S_ 32 1024#32),
    StableHlo.unary main_c_10 main_v58 (broadcastInDim S2000000x25 ![] bcast_S_S2000000x25 : (⟨S_, .i32⟩ : BufTy).Contents (Elt F) → (⟨S2000000x25, .i32⟩ : BufTy).Contents (Elt F)),
    StableHlo.binary main_v25 main_v58 main_v59 (cmpi .slt : (⟨S2000000x25, .i32⟩ : BufTy).Contents (Elt F) → (⟨S2000000x25, .i32⟩ : BufTy).Contents (Elt F) → (⟨S2000000x25, .i1⟩ : BufTy).Contents (Elt F)),
    StableHlo.binary main_v57 main_v59 main_v60 (andi : (⟨S2000000x25, .i1⟩ : BufTy).Contents (Elt F) → (⟨S2000000x25, .i1⟩ : BufTy).Contents (Elt F) → (⟨S2000000x25, .i1⟩ : BufTy).Contents (Elt F)),
    StableHlo.nullary main_c_11 (constantI S_ 32 0#32),
    StableHlo.nullary main_c_12 (constantI S_ 32 1023#32),
    StableHlo.TRef.unary (.of main_c_11 : TRef sig ⟨S_, .i32⟩) main_call0.v0 id,
    StableHlo.TRef.unary main_call0.v0 main_call0.v1 (broadcastInDim S2000000x25 ![] bcast_S_S2000000x25),
    StableHlo.TRef.binary main_call0.v1 (.of main_v20 : TRef sig ⟨S2000000x25, .i32⟩) main_call0.v2 maxsi,
    StableHlo.TRef.unary (.of main_c_12 : TRef sig ⟨S_, .i32⟩) main_call0.v3 id,
    StableHlo.TRef.unary main_call0.v3 main_call0.v4 (broadcastInDim S2000000x25 ![] bcast_S_S2000000x25),
    StableHlo.TRef.binary main_call0.v4 main_call0.v2 main_call0.v5 minsi,
    StableHlo.nullary main_c_13 (constantI S_ 32 0#32),
    StableHlo.nullary main_c_14 (constantI S_ 32 1023#32),
    StableHlo.TRef.unary (.of main_c_13 : TRef sig ⟨S_, .i32⟩) main_call1.v0 id,
    StableHlo.TRef.unary main_call1.v0 main_call1.v1 (broadcastInDim S2000000x25 ![] bcast_S_S2000000x25),
    StableHlo.TRef.binary main_call1.v1 (.of main_v25 : TRef sig ⟨S2000000x25, .i32⟩) main_call1.v2 maxsi,
    StableHlo.TRef.unary (.of main_c_14 : TRef sig ⟨S_, .i32⟩) main_call1.v3 id,
    StableHlo.TRef.unary main_call1.v3 main_call1.v4 (broadcastInDim S2000000x25 ![] bcast_S_S2000000x25),
    StableHlo.TRef.binary main_call1.v4 main_call1.v2 main_call1.v5 minsi,
    StableHlo.unary main_arg2 main_v63 (broadcastInDim S2000000x1 ![0] bcast_S2000000_S2000000x1_0 : (⟨S2000000, .f32⟩ : BufTy).Contents (Elt F) → (⟨S2000000x1, .f32⟩ : BufTy).Contents (Elt F)),
    StableHlo.unary main_v63 main_v64 (broadcastInDim S2000000x25 ![0, 1] bcast_S2000000x1_S2000000x25_0_1 : (⟨S2000000x1, .f32⟩ : BufTy).Contents (Elt F) → (⟨S2000000x25, .f32⟩ : BufTy).Contents (Elt F)),
    StableHlo.binary main_v64 main_v49 main_v65 (mulf : (⟨S2000000x25, .f32⟩ : BufTy).Contents (Elt F) → (⟨S2000000x25, .f32⟩ : BufTy).Contents (Elt F) → (⟨S2000000x25, .f32⟩ : BufTy).Contents (Elt F)),
    StableHlo.unary main_v60 main_v66 (uitofp .f32 : (⟨S2000000x25, .i1⟩ : BufTy).Contents (Elt F) → (⟨S2000000x25, .f32⟩ : BufTy).Contents (Elt F)),
    StableHlo.binary main_v65 main_v66 main_v67 (mulf : (⟨S2000000x25, .f32⟩ : BufTy).Contents (Elt F) → (⟨S2000000x25, .f32⟩ : BufTy).Contents (Elt F) → (⟨S2000000x25, .f32⟩ : BufTy).Contents (Elt F)),
    StableHlo.nullary main_c_15 (constantI S_ 32 1024#32),
    StableHlo.unary main_c_15 main_v68 (broadcastInDim S2000000x25 ![] bcast_S_S2000000x25 : (⟨S_, .i32⟩ : BufTy).Contents (Elt F) → (⟨S2000000x25, .i32⟩ : BufTy).Contents (Elt F)),
    StableHlo.binary main_v62 main_v68 main_v69 (muli : (⟨S2000000x25, .i32⟩ : BufTy).Contents (Elt F) → (⟨S2000000x25, .i32⟩ : BufTy).Contents (Elt F) → (⟨S2000000x25, .i32⟩ : BufTy).Contents (Elt F)),
    StableHlo.binary main_v69 main_v61 main_v70 (addi : (⟨S2000000x25, .i32⟩ : BufTy).Contents (Elt F) → (⟨S2000000x25, .i32⟩ : BufTy).Contents (Elt F) → (⟨S2000000x25, .i32⟩ : BufTy).Contents (Elt F)),
    StableHlo.reshape main_v70 main_v71 rfl shapeCasts_S2000000x25_S50000000,
    StableHlo.reshape main_v67 main_v72 rfl shapeCasts_S2000000x25_S50000000,
    StableHlo.nullary main_cst_16 (constant S_ .f32 0x00000000#32),
    StableHlo.unary main_cst_16 main_v73 (broadcastInDim S1048576 ![] bcast_S_S1048576 : (⟨S_, .f32⟩ : BufTy).Contents (Elt F) → (⟨S1048576, .f32⟩ : BufTy).Contents (Elt F)),
    StableHlo.unary main_v71 main_v74 (broadcastInDim S50000000x1 ![0] bcast_S50000000_S50000000x1_0 : (⟨S50000000, .i32⟩ : BufTy).Contents (Elt F) → (⟨S50000000x1, .i32⟩ : BufTy).Contents (Elt F)),
    StableHlo.ternary main_v73 main_v74 main_v72 main_v75 ((fun x i u => Host.scatterAdd scatter_S1048576_S50000000x1_S50000000_n_0_0_1 x i u) : (⟨S1048576, .f32⟩ : BufTy).Contents (Elt F) → (⟨S50000000x1, .i32⟩ : BufTy).Contents (Elt F) → (⟨S50000000, .f32⟩ : BufTy).Contents (Elt F) → (⟨S1048576, .f32⟩ : BufTy).Contents (Elt F)),
    StableHlo.reshape main_v75 main_v76 rfl shapeCasts_S1048576_S1024x1024 ]

set_option maxRecDepth 8192 in
set_option maxHeartbeats 4000000 in
/-- @main is that straight line: the two windows and the clamp's body unfolded, sequencing reassociated. -/
theorem main_eq (c : Dev nD) : main (F := F) c = seq ops := by
  simp only [main, main_part0, main_part1, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., binary_bufs_sub .., reshape_bufs_sub .., reshape_bufs_sub .., nullary_bufs_sub .., unary_bufs_sub .., unary_bufs_sub .., ternary_bufs_sub .., reshape_bufs_sub ..⟩

attribute [local irreducible] Host.scatterAdd Host.reduceAdd Host.exp Host.divf Host.floor shapeCast broadcastInDim in
set_option maxRecDepth 8192 in
set_option maxHeartbeats 8000000 in
/-- The fold at the result buffer is the composed term: each operation's result read at its own buffer, every
    other buffer passed through. -/
theorem out_eq (V : Valuation τ sig (Elt F)) :
    after ops V (main_v76 : DevRef τ sig)
      = out (V (main_arg0 : DevRef τ sig)) (V (main_arg1 : DevRef τ sig)) (V (main_arg2 : DevRef τ sig)) := by
  after_results_simp
  rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
/-- On every device, for any float values, from any memory with zero counters: every weakly fair execution of
    @main terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76)
          = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v76).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

/-- At the ideal instance the composed term is the reference's stage-by-stage definition: the same operations in
    the same order, so the two unfold to one term. -/
theorem out_eq_refTerm (x y v : FVec Ideal S2000000 .f32) :
    out (F := Ideal) x y v = Cert.ReferenceIdeal.RefDef.refTerm x y v := rfl

/-- The run at the ideal instance, the result named by the reference's definition. -/
theorem run_refTerm (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v76)
          = Cert.ReferenceIdeal.RefDef.refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (out_eq_refTerm _ _ _), (h c).2⟩) (run (F := Ideal) m ρ)

end Cert.ReferenceIdeal.HandRun

end
-- ==== Proof.RefValue.lean ====
import proofs.«401088_j71786083385669_3_alg».proof.Proof.RefDef
import proofs.«401088_j71786083385669_3_alg».proof.Proof.Spec
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value
import Idealize.ShloMosaic.Lib.IdealHost

/-!
  The reference splat read at one pixel.

  `refTerm x y v` composes array operations over 2,000,000 points and their 25 neighbours.
  Read at a point `n` and a neighbour `q`, every elementwise stage is the scalar function of
  the same name on `x n`, `y n`, `v n`: pixel coordinate, base pixel, in-pixel offset,
  neighbour column and row, weight, sum of the 25 weights, mask, clipped coordinates, flat
  pixel index and update.  The row sum over the neighbour axis is a sum over `q < 25`.

  The scatter adds update `j` of the flat list of 50,000,000 to the pixel whose position is
  the index of `j` read as a signed integer, and drops it when that is outside the image.
  The flat list is the `2000000 × 25` array in row-major order, so the sum over `j` is the
  double sum over points and neighbours; the vector of 1,048,576 pixels read as 1024 rows of
  1024 puts pixel `(r, c)` at position `r · 1024 + c`.  Hence

    `refTerm x y v (r, c) = 0 + Σ_n Σ_q [flat (x n) (y n) q = r · 1024 + c] · upd (x n) (y n) (v n) q`.

  Nothing here needs the inputs to be finite: every step unfolds a definition or re-indexes
  a finite sum in a commutative monoid.  The scatter and the re-indexing are proved for
  arbitrary extents first and then used at the literal ones.
-/

open scoped BigOperators

noncomputable section

namespace Cert.ReferenceIdeal.RefValue

open Idealize.ShloMosaic Idealize.ShloMosaic.ValueIdx
open Cert.ReferenceIdeal Cert.ReferenceIdeal.RefDef

variable [Cert.ReferenceIdeal.Facts]
open Facts₀ Facts

/-! ## Offset tables -/

theorem lit0_eq_ox : ∀ q : Fin 25, lit0 q = Cert.Splat.ox q := by decide

theorem lit1_eq_oy : ∀ q : Fin 25, lit1 q = Cert.Splat.oy q := by decide

theorem rowMajor_ix1 (q : Fin 25) : S25.rowMajor (ix1 q) = q :=
  Fin.ext (Shape.rowMajor_val_one (d := ![25]) (ix1 q))

theorem offX_apply (q : Fin 25) : offX (ix1 q) = Cert.Splat.ox q := by
  unfold offX; rw [rowMajor_ix1, lit0_eq_ox]

theorem offY_apply (q : Fin 25) : offY (ix1 q) = Cert.Splat.oy q := by
  unfold offY; rw [rowMajor_ix1, lit1_eq_oy]

/-! ## One axis of every point -/

theorem stPix_apply (x : FVec Ideal S2000000 .f32) (j : S2000000.Idx) :
    stPix x j = Cert.Splat.pix (x j) := rfl

theorem stBase_apply (x : FVec Ideal S2000000 .f32) (j : S2000000.Idx) :
    stBase x j = Cert.Splat.base (x j) := rfl

theorem stFrac_apply (x : FVec Ideal S2000000 .f32) (j : S2000000.Idx) :
    stFrac x j = Cert.Splat.frac (x j) := rfl

/-! ## The broadcasts read at a point and a neighbour -/

theorem rowsI_apply (a : IVec S2000000 32) (n : Fin 2000000) (q : Fin 25) :
    rowsI a (ix2 n q) = a (ix1 n) := by
  unfold rowsI
  rw [broadcastInDim_apply _ _ _ (ix2 n q) (ix2 n (0 : Fin 1))
    (fun a => match a with | ⟨0, _⟩ => rfl | ⟨1, _⟩ => rfl)]
  exact broadcastInDim_apply _ _ _ _ (ix1 n) (fun a => match a with | ⟨0, _⟩ => rfl)

theorem rowsF_apply (a : FVec Ideal S2000000 .f32) (n : Fin 2000000) (q : Fin 25) :
    rowsF a (ix2 n q) = a (ix1 n) := by
  unfold rowsF
  rw [broadcastInDim_apply _ _ _ (ix2 n q) (ix2 n (0 : Fin 1))
    (fun a => match a with | ⟨0, _⟩ => rfl | ⟨1, _⟩ => rfl)]
  exact broadcastInDim_apply _ _ _ _ (ix1 n) (fun a => match a with | ⟨0, _⟩ => rfl)

theorem colsI_apply (o : IVec S25 32) (n : Fin 2000000) (q : Fin 25) :
    colsI o (ix2 n q) = o (ix1 q) := by
  unfold colsI
  rw [broadcastInDim_apply _ _ _ (ix2 n q) (ix2 (0 : Fin 1) q)
    (fun a => match a with | ⟨0, _⟩ => rfl | ⟨1, _⟩ => rfl)]
  exact broadcastInDim_apply _ _ _ _ (ix1 q) (fun a => match a with | ⟨0, _⟩ => rfl)

theorem colsF_apply (o : IVec S25 32) (n : Fin 2000000) (q : Fin 25) :
    colsF o (ix2 n q) = Cert.Splat.ofI (o (ix1 q)) := by
  unfold colsF
  rw [broadcastInDim_apply _ _ _ (ix2 n q) (ix2 (0 : Fin 1) q)
    (fun a => match a with | ⟨0, _⟩ => rfl | ⟨1, _⟩ => rfl)]
  show Cert.Splat.ofI (broadcastInDim S1x25 ![1] bcast_S25_S1x25_1 o (ix2 (0 : Fin 1) q)) = _
  rw [broadcastInDim_apply _ _ _ _ (ix1 q) (fun a => match a with | ⟨0, _⟩ => rfl)]

/-! ## The stages read at a point and a neighbour -/

theorem stNb_apply (x : FVec Ideal S2000000 .f32) (o : IVec S25 32) (n : Fin 2000000) (q : Fin 25) :
    stNb x o (ix2 n q) = IntOp.addi (Cert.Splat.base (x (ix1 n))) (o (ix1 q)) := by
  show IntOp.addi (rowsI (stBase x) (ix2 n q)) (colsI o (ix2 n q)) = _
  rw [rowsI_apply, colsI_apply]; rfl

theorem stNbX_apply (x : FVec Ideal S2000000 .f32) (n : Fin 2000000) (q : Fin 25) :
    stNb x offX (ix2 n q) = Cert.Splat.nbX (x (ix1 n)) q := by
  rw [stNb_apply, offX_apply]; rfl

theorem stNbY_apply (y : FVec Ideal S2000000 .f32) (n : Fin 2000000) (q : Fin 25) :
    stNb y offY (ix2 n q) = Cert.Splat.nbY (y (ix1 n)) q := by
  rw [stNb_apply, offY_apply]; rfl

theorem stDist_apply (x : FVec Ideal S2000000 .f32) (o : IVec S25 32) (n : Fin 2000000) (q : Fin 25) :
    stDist x o (ix2 n q) = Cert.Splat.frac (x (ix1 n)) - Cert.Splat.ofI (o (ix1 q)) := by
  show rowsF (stFrac x) (ix2 n q) - colsF o (ix2 n q) = _
  rw [rowsF_apply, colsF_apply]; rfl

theorem stE_apply (x y : FVec Ideal S2000000 .f32) (n : Fin 2000000) (q : Fin 25) :
    stE x y (ix2 n q) = Cert.Splat.nbE (x (ix1 n)) (y (ix1 n)) q := by
  have hx := stDist_apply x offX n q
  have hy := stDist_apply y offY n q
  rw [offX_apply] at hx; rw [offY_apply] at hy
  show Ideal.exp (Ideal.div (Cert.Splat.cNegHalf *
    (stDist x offX (ix2 n q) * stDist x offX (ix2 n q) + stDist y offY (ix2 n q) * stDist y offY (ix2 n q)))
    Cert.Splat.cD) = _
  rw [hx, hy]; rfl

theorem lift_ix1 (hR : S2000000x25.Reduces [1] S2000000) (n : Fin 2000000) (k : Fin 25) :
    hR.lift (ix1 n) k = ix2 n k := by
  funext a
  match a with
  | ⟨0, _⟩ => exact Fin.ext rfl
  | ⟨1, _⟩ => exact Fin.ext rfl

theorem stSum_apply (x y : FVec Ideal S2000000 .f32) (n : Fin 2000000) :
    stSum x y (ix1 n) = Cert.Splat.nbS (x (ix1 n)) (y (ix1 n)) := by
  have hR : S2000000x25.Reduces [1] S2000000 := by decide
  unfold stSum
  rw [hostReduceAdd_apply, Ideal.hostReduceAdd_single _ hR]
  show Cert.Splat.cZero + ∑ k : Fin 25, stE x y (hR.lift (ix1 n) k) = _
  unfold Cert.Splat.nbS
  congr 1
  refine Finset.sum_congr rfl fun k _ => ?_
  rw [lift_ix1, stE_apply]

theorem stW_apply (x y : FVec Ideal S2000000 .f32) (n : Fin 2000000) (q : Fin 25) :
    stW x y (ix2 n q)
      = Ideal.div (Cert.Splat.nbE (x (ix1 n)) (y (ix1 n)) q) (Cert.Splat.nbS (x (ix1 n)) (y (ix1 n))) := by
  unfold stW
  rw [hostDivf_apply, stE_apply, rowsF_apply, stSum_apply]

theorem stValid_apply (x y : FVec Ideal S2000000 .f32) (n : Fin 2000000) (q : Fin 25) :
    stValid x y (ix2 n q) = Cert.Splat.nbValid (x (ix1 n)) (y (ix1 n)) q := by
  show IntOp.andi (IntOp.andi (IntOp.andi
      (IntOp.cmpi .sge (stNb x offX (ix2 n q)) 0#32) (IntOp.cmpi .slt (stNb x offX (ix2 n q)) 1024#32))
      (IntOp.cmpi .sge (stNb y offY (ix2 n q)) 0#32)) (IntOp.cmpi .slt (stNb y offY (ix2 n q)) 1024#32) = _
  rw [stNbX_apply, stNbY_apply]; rfl

theorem stClipX_apply (x : FVec Ideal S2000000 .f32) (n : Fin 2000000) (q : Fin 25) :
    stClipX x (ix2 n q) = Cert.Splat.clip (Cert.Splat.nbX (x (ix1 n)) q) := by
  show IntOp.minsi 1023#32 (IntOp.maxsi 0#32 (stNb x offX (ix2 n q))) = _
  rw [stNbX_apply]; rfl

theorem stClipY_apply (y : FVec Ideal S2000000 .f32) (n : Fin 2000000) (q : Fin 25) :
    stClipY y (ix2 n q) = Cert.Splat.clip (Cert.Splat.nbY (y (ix1 n)) q) := by
  show IntOp.minsi 1023#32 (IntOp.maxsi 0#32 (stNb y offY (ix2 n q))) = _
  rw [stNbY_apply]; rfl

theorem stFlat_apply (x y : FVec Ideal S2000000 .f32) (n : Fin 2000000) (q : Fin 25) :
    stFlat x y (ix2 n q) = Cert.Splat.flat (x (ix1 n)) (y (ix1 n)) q := by
  show IntOp.addi (IntOp.muli (stClipY y (ix2 n q)) 1024#32) (stClipX x (ix2 n q)) = _
  rw [stClipX_apply, stClipY_apply]; rfl

theorem stUpd_apply (x y v : FVec Ideal S2000000 .f32) (n : Fin 2000000) (q : Fin 25) :
    stUpd x y v (ix2 n q) = Cert.Splat.upd (x (ix1 n)) (y (ix1 n)) (v (ix1 n)) q := by
  show (rowsF v (ix2 n q) * stW x y (ix2 n q))
    * (((stValid x y (ix2 n q)).toNat : ℝ) : EReal) = _
  rw [rowsF_apply, stW_apply, stValid_apply]; rfl

/-! ## A scatter of scalars along one index axis

  Operand of `N` elements, `M` updates, the scatter indices an `M × 1` array: update `j` lands
  on the element whose position is the index read as a signed integer, and is dropped when
  that is outside `[0, N)`. -/

section Scatter

variable {N M w : ℕ}
  (wf : ScatterDims.WF (⟨1, ![N]⟩ : Shape) (⟨2, ![M, 1]⟩ : Shape) (⟨1, ![M]⟩ : Shape) [] [0] [0] 1)

/-- The dimension numbers: no window axis, the operand's axis inserted and named by the one
    component of each index vector. -/
abbrev sd : ScatterDims (⟨1, ![N]⟩ : Shape) (⟨2, ![M, 1]⟩ : Shape) (⟨1, ![M]⟩ : Shape) :=
  ⟨[], [0], [0], 1, wf⟩

theorem sd_siIdx (j : (⟨1, ![M]⟩ : Shape).Idx) (c : Fin (sd wf).scatterDimsToOperandDims.length) :
    (sd wf).siIdx j c = ix2 (j 0) (0 : Fin 1) := by
  funext b
  match b with
  | ⟨0, hb⟩ =>
    apply Fin.ext
    unfold ScatterDims.siIdx
    rw [dif_neg (show ¬ ((0 : ℕ) = 1) from by decide)]
    unfold ScatterDims.siCoord
    exact congrArg (fun t => (j t).val) (Subsingleton.elim _ _)
  | ⟨1, hb⟩ =>
    apply Fin.ext
    unfold ScatterDims.siIdx
    rw [dif_pos rfl]
    have := c.isLt
    show c.val = 0
    exact Nat.lt_one_iff.mp this

theorem sd_start (j : (⟨1, ![M]⟩ : Shape).Idx) (idx : IVec (⟨2, ![M, 1]⟩ : Shape) w)
    (a : Fin (⟨1, ![N]⟩ : Shape).rank) :
    (sd wf).start j idx a = (idx (ix2 (j 0) (0 : Fin 1))).toInt := by
  unfold ScatterDims.start
  have ha : a ∈ (sd wf).scatterDimsToOperandDims := List.mem_singleton.mpr (Subsingleton.elim _ _)
  rw [dif_pos ha, sd_siIdx]
  rfl

theorem sd_window (j : (⟨1, ![M]⟩ : Shape).Idx) (a : Fin (⟨1, ![N]⟩ : Shape).rank) :
    (sd wf).window j a = 0 := by
  unfold ScatterDims.window
  have hk : (sd wf).sKept = [] := by rfl
  have ha : ¬ a ∈ (sd wf).sKept := by rw [hk]; exact List.not_mem_nil
  rw [dif_neg ha]

theorem sd_resultIdx_iff (j : (⟨1, ![M]⟩ : Shape).Idx) (idx : IVec (⟨2, ![M, 1]⟩ : Shape) w)
    (i : (⟨1, ![N]⟩ : Shape).Idx) :
    (sd wf).resultIdx? j idx = some i ↔ (idx (ix2 (j 0) (0 : Fin 1))).toInt = ((i 0).val : ℤ) := by
  have hsz : ∀ a : Fin (⟨1, ![N]⟩ : Shape).rank, (⟨1, ![N]⟩ : Shape).size a = N := fun a => by
    have : a = 0 := Subsingleton.elim _ _
    subst this; rfl
  constructor
  · intro hres
    unfold ScatterDims.resultIdx? at hres
    split at hres
    · rename_i h
      have h1 := Option.some.inj hres
      have h0 : ((sd wf).start j idx 0 + (sd wf).window j 0).toNat = (i 0).val := by
        rw [← h1]
      have h2 := (h 0).1
      rw [sd_start, sd_window] at h0 h2
      omega
    · cases hres
  · intro hT
    unfold ScatterDims.resultIdx?
    have h : ∀ a, 0 ≤ (sd wf).start j idx a + (sd wf).window j a
        ∧ (sd wf).start j idx a + (sd wf).window j a < (⟨1, ![N]⟩ : Shape).size a := fun a => by
      rw [sd_start, sd_window, hsz, hT]
      have hi : (i 0).val < N := (i 0).isLt
      omega
    rw [dif_pos h]
    congr 1
    funext a
    apply Fin.ext
    have : a = 0 := Subsingleton.elim _ _
    subst this
    show ((sd wf).start j idx 0 + (sd wf).window j 0).toNat = (i 0).val
    rw [sd_start, sd_window, hT]
    omega

end Scatter

/-- With these dimension numbers the scattered vector at `i` is the operand's element plus
    the updates whose index, read as a signed integer, is the position of `i`. -/
theorem sd_hostScatterAdd {N M w : ℕ}
    (wf : ScatterDims.WF (⟨1, ![N]⟩ : Shape) (⟨2, ![M, 1]⟩ : Shape) (⟨1, ![M]⟩ : Shape) [] [0] [0] 1)
    (X : (⟨1, ![N]⟩ : Shape).Idx → EReal) (idx : IVec (⟨2, ![M, 1]⟩ : Shape) w)
    (U : (⟨1, ![M]⟩ : Shape).Idx → EReal) (i : (⟨1, ![N]⟩ : Shape).Idx) :
    Ideal.hostScatterAdd (sd wf) X idx U i
      = X i + ∑ j : (⟨1, ![M]⟩ : Shape).Idx,
          (if (idx (ix2 (j 0) (0 : Fin 1))).toInt = ((i 0).val : ℤ) then U j else 0) := by
  unfold Ideal.hostScatterAdd
  rw [Finset.sum_filter]
  exact congrArg (fun t => X i + t)
    (Finset.sum_congr rfl fun j _ => if_congr (sd_resultIdx_iff wf j idx i) rfl rfl)

/-- A vector of `M` entries laid out as an `M × 1` array, read at `(j, 0)`. -/
theorem bcast_col {M : ℕ} {α : Type}
    (h : (⟨1, ![M]⟩ : Shape).BroadcastsInDim (⟨2, ![M, 1]⟩ : Shape) ![0])
    (f : (⟨1, ![M]⟩ : Shape).Idx → α) (j : (⟨1, ![M]⟩ : Shape).Idx) :
    broadcastInDim (⟨2, ![M, 1]⟩ : Shape) ![0] h f (ix2 (j 0) (0 : Fin 1)) = f j :=
  broadcastInDim_apply _ _ _ _ j (fun a => match a with
    | ⟨0, _⟩ => by
      show (j 0).val = if M = 1 then 0 else (j 0).val
      have hj : (j 0).val < M := (j 0).isLt
      split
      · omega
      · rfl)

/-- A sum over the entries of an `a × b` array listed in row-major order is the double sum
    over rows and columns. -/
theorem sum_reshape {a b m : ℕ} {K : Type*} [AddCommMonoid K]
    (h : (⟨2, ![a, b]⟩ : Shape).ShapeCasts (⟨1, ![m]⟩ : Shape))
    (G : (⟨2, ![a, b]⟩ : Shape).Idx → K) :
    ∑ j : (⟨1, ![m]⟩ : Shape).Idx, G (Shape.reshapeEquiv h j) = ∑ n : Fin a, ∑ q : Fin b, G (ix2 n q) := by
  rw [Equiv.sum_comp (Shape.reshapeEquiv h) G, sum_idx2]

/-- The scatter of an `a × b` array of updates, listed in row-major order, at the flat
    indices of an `a × b` array of indices: element `i` of the result is the operand's
    element plus the updates of the rows and columns whose index is the position of `i`. -/
theorem scatter_rows {a b m N : ℕ}
    (wf : ScatterDims.WF (⟨1, ![N]⟩ : Shape) (⟨2, ![m, 1]⟩ : Shape) (⟨1, ![m]⟩ : Shape) [] [0] [0] 1)
    (d : ScatterDims (⟨1, ![N]⟩ : Shape) (⟨2, ![m, 1]⟩ : Shape) (⟨1, ![m]⟩ : Shape)) (hd : d = sd wf)
    (hb : (⟨1, ![m]⟩ : Shape).BroadcastsInDim (⟨2, ![m, 1]⟩ : Shape) ![0])
    (hc : (⟨2, ![a, b]⟩ : Shape).ShapeCasts (⟨1, ![m]⟩ : Shape))
    (X : FVec Ideal (⟨1, ![N]⟩ : Shape) .f32) (A : IVec (⟨2, ![a, b]⟩ : Shape) 32)
    (B : FVec Ideal (⟨2, ![a, b]⟩ : Shape) .f32) (i : (⟨1, ![N]⟩ : Shape).Idx) :
    Host.scatterAdd d X
        (broadcastInDim (⟨2, ![m, 1]⟩ : Shape) ![0] hb (shapeCast (⟨1, ![m]⟩ : Shape) A hc))
        (shapeCast (⟨1, ![m]⟩ : Shape) B hc) i
      = X i + ∑ n : Fin a, ∑ q : Fin b,
          (if (A (ix2 n q)).toInt = ((i 0).val : ℤ) then B (ix2 n q) else 0) := by
  subst hd
  unfold Host.scatterAdd
  rw [Ideal.hostScatterAdd_def, sd_hostScatterAdd]
  refine congrArg (fun t => X i + t) ?_
  rw [← sum_reshape hc (fun k => if (A k).toInt = ((i 0).val : ℤ) then B k else 0)]
  refine Finset.sum_congr rfl fun j _ => ?_
  rw [bcast_col]
  rfl

/-- The reference's scatter has these dimension numbers. -/
theorem scatter_eq :
    scatter_S1048576_S50000000x1_S50000000_n_0_0_1
      = sd (N := 1048576) (M := 50000000) scatter_S1048576_S50000000x1_S50000000_n_0_0_1_wf := rfl

/-- Pixel `i` of the scattered vector, over the stages. -/
theorem stScatter_eq (x y v : FVec Ideal S2000000 .f32) (i : S1048576.Idx) :
    stScatter x y v i
      = broadcastInDim S1048576 ![] bcast_S_S1048576 (constant (F := Ideal) S_ .f32 0x00000000#32) i
        + ∑ n : Fin 2000000, ∑ q : Fin 25,
          (if (stFlat x y (ix2 n q)).toInt = ((i 0).val : ℤ) then stUpd x y v (ix2 n q) else 0) :=
  scatter_rows (a := 2000000) (b := 25) (m := 50000000) (N := 1048576)
    scatter_S1048576_S50000000x1_S50000000_n_0_0_1_wf
    scatter_S1048576_S50000000x1_S50000000_n_0_0_1 scatter_eq
    bcast_S50000000_S50000000x1_0 shapeCasts_S2000000x25_S50000000
    (broadcastInDim S1048576 ![] bcast_S_S1048576 (constant (F := Ideal) S_ .f32 0x00000000#32))
    (stFlat x y) (stUpd x y v) i

/-! ## The image -/

/-- Pixel `i` of the scattered vector: zero plus, over all points and neighbours, the update
    of those whose flat index is `i`. -/
theorem stScatter_apply (x y v : FVec Ideal S2000000 .f32) (i : S1048576.Idx) :
    stScatter x y v i = Cert.Splat.cZero + ∑ n : Fin 2000000, ∑ q : Fin 25,
      (if (Cert.Splat.flat (x (ix1 n)) (y (ix1 n)) q).toInt = ((i 0).val : ℤ)
        then Cert.Splat.upd (x (ix1 n)) (y (ix1 n)) (v (ix1 n)) q else 0) := by
  rw [stScatter_eq, broadcastInDim_scalar_apply]
  refine congrArg (fun t => Cert.Splat.cZero + t) ?_
  exact Finset.sum_congr rfl fun n _ => Finset.sum_congr rfl fun q _ => by
    rw [stFlat_apply, stUpd_apply]

/-- The reference's image at row `r`, column `c`: zero plus the updates of all points'
    neighbours whose clipped flat index is `r · 1024 + c`. -/
theorem refTerm_apply (x y v : FVec Ideal S2000000 .f32) (r c : Fin 1024) :
    RefDef.refTerm x y v (ValueIdx.ix2 r c) = Cert.Splat.cZero + ∑ n : Fin 2000000, ∑ q : Fin 25,
      (if (Cert.Splat.flat (x (ix1 n)) (y (ix1 n)) q).toInt = (r.val : ℤ) * 1024 + c.val
        then Cert.Splat.upd (x (ix1 n)) (y (ix1 n)) (v (ix1 n)) q else 0) := by
  have hlt : r.val * 1024 + c.val < 1048576 := by
    have := r.isLt; have := c.isLt; omega
  have hk : (S1048576.rowMajor (ix1 (⟨r.val * 1024 + c.val, hlt⟩ : Fin 1048576))).val
      = (S1024x1024.rowMajor (ix2 r c)).val := by
    rw [Shape.rowMajor_val_one, Shape.rowMajor_val_two]; rfl
  have h1 : refTerm x y v (ix2 r c)
      = stScatter x y v (ix1 (⟨r.val * 1024 + c.val, hlt⟩ : Fin 1048576)) :=
    shapeCast_apply _ _ (ix2 r c) (ix1 (⟨r.val * 1024 + c.val, hlt⟩ : Fin 1048576)) hk
  have hc : (((ix1 (⟨r.val * 1024 + c.val, hlt⟩ : Fin 1048576) : S1048576.Idx) 0).val : ℤ)
      = (r.val : ℤ) * 1024 + c.val := by
    show ((r.val * 1024 + c.val : ℕ) : ℤ) = _
    push_cast; rfl
  rw [h1, stScatter_apply, hc]

end Cert.ReferenceIdeal.RefValue

end
-- ==== Proof.Landing.lean ====
import proofs.«401088_j71786083385669_3_alg».proof.Proof.Spec
import Mathlib.Algebra.BigOperators.Fin
import Mathlib.Data.EReal.Basic

/-!
  Where the 25 neighbours of a point land.

  Neighbour `q = 5·a + b` of a point whose base pixel is `(bx, by)` sits at row `by + offI a`
  and column `bx + offI b` (32-bit wrapping sums).  It is inside the image when both lie in
  `[0, 1024)` read as signed integers; then clipping leaves them alone and the flat index
  `row · 1024 + col` is below `2²⁰`, so it equals `r · 1024 + c` exactly when `row = r` and
  `col = c`.  Summing a product weight `Wy a · Zx b` over the neighbours that land on pixel
  `(r, c)` therefore gives the product of the two one-axis selections `sel5`.
-/

open scoped BigOperators

noncomputable section

namespace Cert.Splat

open Idealize.ShloMosaic

/-- Row index `q / 5` and column index `q mod 5` of neighbour `q`. -/
def qRow (q : Fin 25) : Fin 5 := ⟨q.val / 5, by have := q.isLt; omega⟩
def qCol (q : Fin 25) : Fin 5 := ⟨q.val % 5, Nat.mod_lt _ (by decide)⟩

/-- The inside mask of neighbour `q` of base pixel `(bx, by)`. -/
def validB (bx «by» : BitVec 32) (q : Fin 25) : BitVec 1 :=
  IntOp.andi (IntOp.andi (IntOp.andi (IntOp.cmpi .sge (IntOp.addi bx (offI (qCol q))) 0#32)
      (IntOp.cmpi .slt (IntOp.addi bx (offI (qCol q))) 1024#32))
    (IntOp.cmpi .sge (IntOp.addi «by» (offI (qRow q))) 0#32))
    (IntOp.cmpi .slt (IntOp.addi «by» (offI (qRow q))) 1024#32)

/-- The flat index of the clipped neighbour `q` of base pixel `(bx, by)`. -/
def flatB (bx «by» : BitVec 32) (q : Fin 25) : BitVec 32 :=
  IntOp.addi (IntOp.muli (clip (IntOp.addi «by» (offI (qRow q)))) 1024#32)
    (clip (IntOp.addi bx (offI (qCol q))))

theorem flat_eq (x y : EReal) (q : Fin 25) : flat x y q = flatB (base x) (base y) q := rfl

theorem nbValid_eq (x y : EReal) (q : Fin 25) : nbValid x y q = validB (base x) (base y) q := rfl

theorem ox_eq (q : Fin 25) : ox q = offI (qCol q) := rfl

theorem oy_eq (q : Fin 25) : oy q = offI (qRow q) := rfl

/-- The 16-bit float zero is the real zero. -/
theorem landing_cZero16 : cZero16 = 0 := by
  simp [cZero16, Ideal.ofBits, Ideal.ieee]

/-- A 32-bit integer lies in [0, 1024) as a signed number iff it does as an unsigned one. -/
private theorem inR_iff (p : BitVec 32) : (0 ≤ p.toInt ∧ p.toInt < 1024) ↔ p.toNat < 1024 := by
  have := p.isLt
  rw [BitVec.toInt_eq_toNat_cond]
  split <;> omega

/-- The inside mask of a pixel `(px, py)`: both coordinates in `[0, 1024)` as signed integers. -/
private def validP (px py : BitVec 32) : BitVec 1 :=
  IntOp.andi (IntOp.andi (IntOp.andi (IntOp.cmpi .sge px 0#32) (IntOp.cmpi .slt px 1024#32))
    (IntOp.cmpi .sge py 0#32)) (IntOp.cmpi .slt py 1024#32)

/-- The mask is one exactly when both coordinates are below 1024 as unsigned integers. -/
private theorem validP_eq (px py : BitVec 32) :
    validP px py = if (px.toNat < 1024 ∧ py.toNat < 1024) then 1#1 else 0#1 := by
  have hx := inR_iff px
  have hy := inR_iff py
  have h0 : (0#32).toInt = 0 := by decide
  have h1 : (1024#32).toInt = 1024 := by decide
  unfold validP IntOp.andi IntOp.cmpi
  simp only [BitVec.slt, BitVec.sle, h0, h1]
  by_cases a1 : 0 ≤ px.toInt <;> by_cases a2 : px.toInt < 1024 <;>
    by_cases a3 : 0 ≤ py.toInt <;> by_cases a4 : py.toInt < 1024 <;>
    simp [a1, a2, a3, a4] <;> omega

/-- Clipping leaves a coordinate inside the image alone. -/
private theorem clip_id (p : BitVec 32) (h : p.toNat < 1024) : clip p = p := by
  have := (inR_iff p).2 h
  have h0 : (0#32).toInt = 0 := by decide
  have h1 : (1023#32).toInt = 1023 := by decide
  unfold clip IntOp.minsi IntOp.maxsi
  simp only [BitVec.slt, h0, h1]
  have e1 : ¬ (p.toInt < 0) := by omega
  simp only [e1, decide_false, Bool.false_eq_true, if_false]
  have e2 : ¬ (1023 < p.toInt) := by omega
  simp [e2]

/-- Inside the image `row · 1024 + col` does not wrap: it is below `2²⁰`. -/
private theorem flat_toInt (px py : BitVec 32) (hx : px.toNat < 1024) (hy : py.toNat < 1024) :
    (IntOp.addi (IntOp.muli py 1024#32) px).toInt = (py.toNat : ℤ) * 1024 + px.toNat := by
  unfold IntOp.addi IntOp.muli
  rw [BitVec.toInt_eq_toNat_cond]
  simp only [BitVec.toNat_add, BitVec.toNat_mul, BitVec.toNat_ofNat]
  split <;> omega

/-- Moving the base pixel across: `n - b = o` iff `b + o = n`. -/
private theorem sub_eq_iff_add_eq (n b o : BitVec 32) : n - b = o ↔ b + o = n := by
  constructor <;> intro h <;> bv_omega

/-- A 32-bit integer equals the image of `n < 1024` iff its unsigned value is `n`. -/
private theorem eq_ofNat_iff (p : BitVec 32) (n : ℕ) (hn : n < 1024) : p = BitVec.ofNat 32 n ↔ p.toNat = n := by
  rw [← BitVec.toNat_inj, BitVec.toNat_ofNat]
  have : n % 2 ^ 32 = n := Nat.mod_eq_of_lt (by omega)
  rw [this]

/-- The five offsets are distinct. -/
private theorem offI_inj : ∀ a b : Fin 5, offI a = offI b → a = b := by decide

/-- The selection picks the value of the offset that matches … -/
private theorem sel5_of_eq {δ : BitVec 32} {a : Fin 5} (h : δ = offI a) (W : Fin 5 → EReal) :
    sel5 δ W = W a := by
  subst h
  fin_cases a <;> simp [sel5, offI]

/-- … and is zero when none does. -/
private theorem sel5_of_ne {δ : BitVec 32} (h : ∀ a : Fin 5, δ ≠ offI a) (W : Fin 5 → EReal) :
    sel5 δ W = 0 := by
  unfold sel5
  rw [if_neg (h 4), if_neg (h 3), if_neg (h 2), if_neg (h 1), if_neg (h 0)]
  exact landing_cZero16

/-- A neighbour is determined by its row and column index: `q = 5 · (q / 5) + q mod 5`. -/
private theorem q_eq_of {q : Fin 25} {a b : Fin 5} (ha : qRow q = a) (hb : qCol q = b) :
    q = ⟨5 * a.val + b.val, by have := a.isLt; have := b.isLt; omega⟩ := by
  subst ha; subst hb
  apply Fin.ext
  simp only [qRow, qCol]
  omega

/-- The one-axis selections multiply to the sum over the 25 neighbours of the matching products. -/
private theorem sum_match (δy δx : BitVec 32) (Wy Zx : Fin 5 → EReal) :
    ∑ q : Fin 25, (if (δy = offI (qRow q) ∧ δx = offI (qCol q))
        then Wy (qRow q) * Zx (qCol q) else 0)
      = sel5 δy Wy * sel5 δx Zx := by
  by_cases hy : ∃ a0, δy = offI a0
  · obtain ⟨a0, hy⟩ := hy
    by_cases hx : ∃ b0, δx = offI b0
    · obtain ⟨b0, hx⟩ := hx
      rw [sel5_of_eq hy, sel5_of_eq hx]
      have ha := a0.isLt
      have hb := b0.isLt
      rw [Finset.sum_eq_single (⟨5 * a0.val + b0.val, by omega⟩ : Fin 25)]
      · have e1 : qRow ⟨5 * a0.val + b0.val, by omega⟩ = a0 := by
          apply Fin.ext; simp only [qRow]; omega
        have e2 : qCol ⟨5 * a0.val + b0.val, by omega⟩ = b0 := by
          apply Fin.ext; simp only [qCol]; omega
        rw [e1, e2, if_pos ⟨hy, hx⟩]
      · intro q _ hq
        rw [if_neg]
        rintro ⟨h1, h2⟩
        exact hq (q_eq_of (offI_inj _ _ (h1.symm.trans hy)) (offI_inj _ _ (h2.symm.trans hx)))
      · intro h; exact absurd (Finset.mem_univ _) h
    · have hx' : ∀ b : Fin 5, δx ≠ offI b := fun b hb => hx ⟨b, hb⟩
      rw [sel5_of_ne hx', mul_zero]
      apply Finset.sum_eq_zero
      intro q _
      rw [if_neg]
      exact fun h => hx' _ h.2
  · have hy' : ∀ a : Fin 5, δy ≠ offI a := fun a ha => hy ⟨a, ha⟩
    rw [sel5_of_ne hy', zero_mul]
    apply Finset.sum_eq_zero
    intro q _
    rw [if_neg]
    exact fun h => hy' _ h.1

private theorem validB_eq (bx «by» : BitVec 32) (q : Fin 25) :
    validB bx «by» q = validP (bx + offI (qCol q)) («by» + offI (qRow q)) := rfl

private theorem flatB_eq (bx «by» : BitVec 32) (q : Fin 25) :
    flatB bx «by» q = IntOp.addi (IntOp.muli (clip («by» + offI (qRow q))) 1024#32)
      (clip (bx + offI (qCol q))) := rfl

/-- One neighbour's contribution to pixel `(r, c)`: its product weight if it sits exactly there,
    nothing otherwise. -/
private theorem term_eq (bx «by» : BitVec 32) (Wy Zx : Fin 5 → EReal) (r c : Fin 1024) (q : Fin 25) :
    (if (flatB bx «by» q).toInt = (r.val : ℤ) * 1024 + c.val
        then (Wy (qRow q) * Zx (qCol q)) * (((validB bx «by» q).toNat : ℝ) : EReal) else 0)
      = if (BitVec.ofNat 32 r.val - «by» = offI (qRow q) ∧ BitVec.ofNat 32 c.val - bx = offI (qCol q))
        then Wy (qRow q) * Zx (qCol q) else 0 := by
  have hr := r.isLt
  have hc := c.isLt
  simp only [sub_eq_iff_add_eq, eq_ofNat_iff _ _ hr, eq_ofNat_iff _ _ hc]
  rw [validB_eq, flatB_eq, validP_eq]
  by_cases hv : (bx + offI (qCol q)).toNat < 1024 ∧ («by» + offI (qRow q)).toNat < 1024
  · rw [if_pos hv, clip_id _ hv.1, clip_id _ hv.2, flat_toInt _ _ hv.1 hv.2]
    have e1 : (((1#1 : BitVec 1).toNat : ℝ) : EReal) = 1 := by simp
    rw [e1, mul_one]
    obtain ⟨h1, h2⟩ := hv
    by_cases hm : («by» + offI (qRow q)).toNat = r.val ∧ (bx + offI (qCol q)).toNat = c.val
    · rw [if_pos hm, if_pos]
      omega
    · rw [if_neg hm, if_neg]
      omega
  · rw [if_neg hv]
    have e0 : (((0#1 : BitVec 1).toNat : ℝ) : EReal) = 0 := by simp
    rw [e0, mul_zero, ite_self, if_neg]
    rintro ⟨h1, h2⟩
    exact hv ⟨by omega, by omega⟩

/-- Summing the product weights of the neighbours that land on pixel `(r, c)` gives the product
    of the row selection and the column selection. -/
theorem landing (bx «by» : BitVec 32) (Wy Zx : Fin 5 → EReal) (r c : Fin 1024) :
    ∑ q : Fin 25, (if (flatB bx «by» q).toInt = (r.val : ℤ) * 1024 + c.val
        then (Wy (qRow q) * Zx (qCol q)) * (((validB bx «by» q).toNat : ℝ) : EReal) else 0)
      = sel5 (BitVec.ofNat 32 r.val - «by») Wy * sel5 (BitVec.ofNat 32 c.val - bx) Zx := by
  rw [← sum_match]
  exact Finset.sum_congr rfl fun q _ => term_eq bx «by» Wy Zx r c q

end Cert.Splat

end
-- ==== Proof.PointSplat.lean ====
import proofs.«401088_j71786083385669_3_alg».proof.Proof.Spec
import proofs.«401088_j71786083385669_3_alg».proof.Proof.LibReal
import proofs.«401088_j71786083385669_3_alg».proof.Proof.SplatReal
import proofs.«401088_j71786083385669_3_alg».proof.Proof.Landing
import Idealize.ShloMosaic.PureOps.Ideal
import Mathlib.Analysis.SpecialFunctions.Exp
import Mathlib.Algebra.BigOperators.Fin
import Mathlib.Logic.Equiv.Fin.Basic
import Mathlib.Algebra.BigOperators.Ring.Finset

/-!
  One point, one pixel: the two descriptions of a splat agree.

  The weight `exp (-½ (dx² + dy²) / D)` of a neighbour factors as a row tap times a column
  tap, because the exponent scale is `-½ / D` exactly and `exp (a + b) = exp a · exp b`; the
  sum of the 25 weights is the product of the two sums of five.  So the normalised weight of
  neighbour `q` is the product of the normalised row tap `q / 5` and the normalised column tap
  `q mod 5`.  Summing over the neighbours that land on pixel `(r, c)` then gives the row weight
  at `r` times the column weight at `c`.
-/

open scoped BigOperators

noncomputable section

namespace Cert.Splat

open Idealize.ShloMosaic
open Cert.LibReal

/-! ## Integer offsets read as reals -/

theorem offI_toInt (d : Fin 5) : (((offI d).toInt : ℤ) : ℝ) = offR d := by
  fin_cases d
  · have h : (offI 0).toInt = -2 := by decide
    show (((offI 0).toInt : ℤ) : ℝ) = -2
    rw [h]; norm_num
  · have h : (offI 1).toInt = -1 := by decide
    show (((offI 1).toInt : ℤ) : ℝ) = -1
    rw [h]; norm_num
  · have h : (offI 2).toInt = 0 := by decide
    show (((offI 2).toInt : ℤ) : ℝ) = 0
    rw [h]; norm_num
  · have h : (offI 3).toInt = 1 := by decide
    show (((offI 3).toInt : ℤ) : ℝ) = 1
    rw [h]; norm_num
  · have h : (offI 4).toInt = 2 := by decide
    show (((offI 4).toInt : ℤ) : ℝ) = 2
    rw [h]; norm_num

theorem ofI_offI (d : Fin 5) : ofI (offI d) = ((offR d : ℝ) : EReal) := by
  unfold ofI
  rw [offI_toInt]

/-! ## The weight of a neighbour is a product of two one-axis taps -/

/-- The real gaussian tap of neighbour `d` at in-pixel offset `f`. -/
def e5 (f : ℝ) (d : Fin 5) : ℝ := Real.exp (lamR * (f - offR d) * (f - offR d))

/-- `exp (-½ (dx² + dy²) / D) = exp (lam dy²) · exp (lam dx²)`, because `lam = -½ / D` exactly. -/
theorem exp_split (fx fy a b : ℝ) :
    Real.exp ((-1 / 2 * ((fx - a) * (fx - a) + (fy - b) * (fy - b))) * (1 / (5368709 / 536870912)))
      = Real.exp (lamR * (fy - b) * (fy - b)) * Real.exp (lamR * (fx - a) * (fx - a)) := by
  rw [← Real.exp_add]
  congr 1
  unfold lamR
  ring

theorem nbE_coe (x y fx fy : ℝ) (hx : frac (x : EReal) = (fx : EReal)) (hy : frac (y : EReal) = (fy : EReal))
    (q : Fin 25) :
    nbE (x : EReal) (y : EReal) q = ((e5 fy (qRow q) * e5 fx (qCol q) : ℝ) : EReal) := by
  unfold nbE
  rw [hx, hy, ox_eq, oy_eq, ofI_offI, ofI_offI, cNegHalf_eq, cD_eq,
    Ideal.div_coe (by norm_num : (5368709 / 536870912 : ℝ) ≠ 0)]
  simp only [← EReal.coe_sub, ← EReal.coe_mul, ← EReal.coe_add]
  rw [Ideal.exp_coe, exp_split]
  rfl

/-- A sum over the 25 neighbours of a product of a row term and a column term is the product of
    the two sums over five: `q ↦ (q / 5, q mod 5)` is a bijection onto the pairs. -/
theorem sum25 (g h : Fin 5 → ℝ) :
    ∑ q : Fin 25, g (qRow q) * h (qCol q) = (∑ a, g a) * (∑ b, h b) := by
  rw [Finset.sum_mul_sum, ← Finset.sum_product']
  refine (Fintype.sum_equiv (finProdFinEquiv (m := 5) (n := 5)) (fun p => g p.1 * h p.2)
    (fun q => g (qRow q) * h (qCol q)) ?_).symm
  rintro ⟨a, b⟩
  have ha : qRow (finProdFinEquiv (a, b)) = a := by
    apply Fin.ext
    show (b.val + 5 * a.val) / 5 = a.val
    have := b.isLt; omega
  have hb : qCol (finProdFinEquiv (a, b)) = b := by
    apply Fin.ext
    show (b.val + 5 * a.val) % 5 = b.val
    have := b.isLt; omega
  rw [ha, hb]

theorem nbS_coe (x y fx fy : ℝ) (hx : frac (x : EReal) = (fx : EReal)) (hy : frac (y : EReal) = (fy : EReal)) :
    nbS (x : EReal) (y : EReal) = (((∑ a, e5 fy a) * (∑ b, e5 fx b) : ℝ) : EReal) := by
  unfold nbS
  rw [cZero_eq, zero_add, ← sum25, coe_sum]
  exact Finset.sum_congr rfl fun q _ => nbE_coe x y fx fy hx hy q

/-- The normalised weight of neighbour `q` is the normalised row tap times the normalised
    column tap. -/
theorem weight_factor (x y : ℝ) (q : Fin 25) :
    Ideal.div (nbE (x : EReal) (y : EReal) q) (nbS (x : EReal) (y : EReal))
      = (tap lam (frac (y : EReal)) (qRow q) * inv lam (frac (y : EReal)))
        * (tap lam (frac (x : EReal)) (qCol q) * inv lam (frac (x : EReal))) := by
  obtain ⟨fx, hx⟩ := frac_isReal x
  obtain ⟨fy, hy⟩ := frac_isReal y
  have hSy : (∑ a, e5 fy a) ≠ 0 := (normR_pos fy).ne'
  have hSx : (∑ b, e5 fx b) ≠ 0 := (normR_pos fx).ne'
  rw [nbE_coe x y fx fy hx hy, nbS_coe x y fx fy hx hy, hx, hy, tap_coe, tap_coe, inv_coe, inv_coe,
    Ideal.div_coe (mul_ne_zero hSy hSx)]
  simp only [← EReal.coe_mul]
  congr 1
  show e5 fy (qRow q) * e5 fx (qCol q) * (1 / ((∑ a, e5 fy a) * (∑ b, e5 fx b)))
    = e5 fy (qRow q) * (∑ a, e5 fy a)⁻¹ * (e5 fx (qCol q) * (∑ b, e5 fx b)⁻¹)
  rw [one_div, mul_inv]
  ring

/-! ## One point, one pixel -/

/-- What the 25 neighbours of a point add to pixel `(r, c)` is the point's row weight at `r`
    times its column weight at `c`. -/
theorem point_identity (x y v : ℝ) (r c : Fin 1024) :
    ∑ q : Fin 25, (if (flat (x : EReal) (y : EReal) q).toInt = (r.val : ℤ) * 1024 + c.val
        then upd (x : EReal) (y : EReal) (v : EReal) q else 0)
      = rowW lam (y : EReal) (v : EReal) r.val * colW lam (x : EReal) c.val := by
  have h := landing (base (x : EReal)) (base (y : EReal))
    (fun d => ((v : EReal) * tap lam (frac (y : EReal)) d) * inv lam (frac (y : EReal)))
    (fun d => tap lam (frac (x : EReal)) d * inv lam (frac (x : EReal))) r c
  unfold rowW colW
  rw [← h]
  refine Finset.sum_congr rfl fun q _ => ?_
  have hu : upd (x : EReal) (y : EReal) (v : EReal) q
      = ((((v : EReal) * tap lam (frac (y : EReal)) (qRow q)) * inv lam (frac (y : EReal)))
          * (tap lam (frac (x : EReal)) (qCol q) * inv lam (frac (x : EReal))))
        * (((validB (base (x : EReal)) (base (y : EReal)) q).toNat : ℝ) : EReal) := by
    unfold upd
    rw [weight_factor, nbValid_eq, ← mul_assoc (v : EReal), ← mul_assoc (v : EReal)]
  rw [flat_eq, hu]

end Cert.Splat

end
-- ==== Proof.RefImage.lean ====
import proofs.«401088_j71786083385669_3_alg».proof.Proof.Spec
import proofs.«401088_j71786083385669_3_alg».proof.Proof.LibReal
import proofs.«401088_j71786083385669_3_alg».proof.Proof.SplatReal
import proofs.«401088_j71786083385669_3_alg».proof.Proof.PointSplat
import proofs.«401088_j71786083385669_3_alg».proof.Proof.RefDef
import Idealize.ShloMosaic.PureOps.Ideal
import Idealize.ShloMosaic.Lib.ValueIdx

/-!
  The reference's result is the image.

  Pixel `(r, c)` of the reference's result is zero plus, over every point and each of its 25
  neighbours, the neighbour's update when its flat index is `r · 1024 + c`.  For a point at a
  real position with a real value the inner sum is the point's row weight at `r` times its
  column weight at `c`; the sum over the points of these products is the image.
-/

open scoped BigOperators

noncomputable section

namespace Cert.Splat

open Idealize.ShloMosaic
open Cert.LibReal

/-- Zero plus the updates of all neighbours of all points that land on pixel `(r, c)` is the
    image at `(r, c)`, when every position and value is real. -/
theorem splat_sum_img (X Y W : Fin 2000000 → EReal) (hX : ∀ n, IsReal (X n)) (hY : ∀ n, IsReal (Y n))
    (hW : ∀ n, IsReal (W n)) (r c : Fin 1024) :
    cZero + ∑ n : Fin 2000000, ∑ q : Fin 25,
        (if (flat (X n) (Y n) q).toInt = (r.val : ℤ) * 1024 + c.val then upd (X n) (Y n) (W n) q else 0)
      = img lam X Y W r c := by
  rw [cZero_eq, zero_add]
  unfold img
  refine Finset.sum_congr rfl fun n _ => ?_
  obtain ⟨a, ha⟩ := hX n
  obtain ⟨b, hb⟩ := hY n
  obtain ⟨w, hw⟩ := hW n
  rw [ha, hb, hw]
  exact point_identity a b w r c

end Cert.Splat

namespace Cert.ReferenceIdeal.RefImage

open Idealize.ShloMosaic
open Idealize.ShloMosaic.ValueIdx
open Cert.ReferenceIdeal
open Cert.LibReal
open Cert.Splat

variable [Cert.ReferenceIdeal.Facts]

/-- The reference's result at pixel `(r, c)` is the image of the points, for real inputs, given
    the value of the reference's result at that pixel as a sum over points and neighbours. -/
theorem refTerm_img_of (x y v : FVec Ideal S2000000 .f32)
    (hx : ∀ n : Fin 2000000, IsReal (x (ix1 n))) (hy : ∀ n : Fin 2000000, IsReal (y (ix1 n)))
    (hv : ∀ n : Fin 2000000, IsReal (v (ix1 n))) (r c : Fin 1024)
    (happly : RefDef.refTerm x y v (ValueIdx.ix2 r c) = Cert.Splat.cZero + ∑ n : Fin 2000000, ∑ q : Fin 25,
      (if (Cert.Splat.flat (x (ix1 n)) (y (ix1 n)) q).toInt = (r.val : ℤ) * 1024 + c.val
        then Cert.Splat.upd (x (ix1 n)) (y (ix1 n)) (v (ix1 n)) q else 0)) :
    RefDef.refTerm x y v (ValueIdx.ix2 r c)
      = img lam (fun n => x (ix1 n)) (fun n => y (ix1 n)) (fun n => v (ix1 n)) r c :=
  happly.trans
    (splat_sum_img (fun n => x (ix1 n)) (fun n => y (ix1 n)) (fun n => v (ix1 n)) hx hy hv r c)

end Cert.ReferenceIdeal.RefImage

end
-- ==== Proof.Finite.lean ====
import proofs.«401088_j71786083385669_3_alg».proof.Defs
import proofs.«401088_j71786083385669_3_alg».proof.Proof.Gen.Pre_finite_inputs
import proofs.«401088_j71786083385669_3_alg».proof.Proof.LibReal
import Idealize.ShloMosaic.Lib.ReduceAll
import Idealize.ShloMosaic.Lib.ValueIdx

/-!
  From the precondition to real entries.

  The precondition says `all (|x| < +inf) ∧ all (|y| < +inf) ∧ all (|values| < +inf)`.  At the
  ideal instance an entry is an extended real, `|x| = max x (-x)`, and `+inf = ⊤`.  An extended
  real whose absolute value lies strictly below `⊤` is neither `⊤` nor `⊥`, hence a real number.
-/

noncomputable section

namespace Cert.Finite

open Idealize.ShloMosaic Idealize.SL.Sem

/-- An extended real with `max x (-x) < ⊤` is a real number: at `⊥` the maximum is `-⊥ = ⊤`, at
    `⊤` it is `⊤` itself. -/
theorem isReal_of_abs_lt_top (x : EReal) (h : max x (-x) < ⊤) : Cert.LibReal.IsReal x := by
  induction x using EReal.rec with
  | bot => simp at h
  | coe r => exact ⟨r, rfl⟩
  | top => simp at h

/-- The 32-bit pattern of `+inf` denotes `⊤`. -/
theorem inf_eq_top : Ideal.ofBits .f32 0x7F800000#32 = (⊤ : EReal) := by
  simp [Ideal.ofBits, Ideal.ieee]

/-- The element fact: if the comparison `|x| < +inf` came out 1, then `x` is a real number. -/
theorem isReal_of_cmp (x : Ideal .f32)
    (h : FloatOps.cmpf .olt (FloatOps.hostAbsf x) (FloatOps.ofBits (F := Ideal) .f32 0x7F800000#32) = 1#1) :
    Cert.LibReal.IsReal x := by
  apply isReal_of_abs_lt_top
  have h' : BitVec.ofBool (decide (max x (-x) < Ideal.ofBits .f32 0x7F800000#32)) = 1#1 := h
  rw [inf_eq_top] at h'
  by_contra hn
  rw [decide_eq_false hn] at h'
  exact absurd h' (by decide)

/-- The rank-0 shape has one index. -/
instance : Subsingleton Cert.Pre_finite_inputs.S_.Idx := ⟨fun a b => funext fun d => d.elim0⟩

/-- The predicate, all ones, makes every entry of its three arguments a real number: the final
    `and` of three `all`s splits into the three, each `all` gives its comparison at every index, and
    each comparison is the element fact. -/
theorem all_real [Cert.Pre_finite_inputs.Facts] (a b c : FVec Ideal Cert.Pre_finite_inputs.S2000000 .f32)
    (h : Cert.Pre_finite_inputs.fn (F := Ideal) a b c = fun _ => 1#1) (i : Cert.Pre_finite_inputs.S2000000.Idx) :
    Cert.LibReal.IsReal (a i) ∧ Cert.LibReal.IsReal (b i) ∧ Cert.LibReal.IsReal (c i) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  refine ⟨isReal_of_cmp _ ?_, isReal_of_cmp _ ?_, isReal_of_cmp _ ?_⟩
  · exact Host.reduce_andi_all _ _ _ _ _ h0' i
  · exact Host.reduce_andi_all _ _ _ _ _ h1 i
  · exact Host.reduce_andi_all _ _ _ _ _ h2 i

/-- Every entry of the three input arrays is a real number. -/
theorem finite_of_pre [hPre_finite_inputs : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (n : Fin 2000000) :
    Cert.LibReal.IsReal ((m ((c.tc : Thread Cert.KernelIdeal.nD Cert.KernelIdeal.τ).loc Cert.KernelIdeal.main_arg0) : Cert.KernelIdeal.S2000000.Idx → EReal) (ValueIdx.ix1 n))
    ∧ Cert.LibReal.IsReal ((m ((c.tc : Thread Cert.KernelIdeal.nD Cert.KernelIdeal.τ).loc Cert.KernelIdeal.main_arg1) : Cert.KernelIdeal.S2000000.Idx → EReal) (ValueIdx.ix1 n))
    ∧ Cert.LibReal.IsReal ((m ((c.tc : Thread Cert.KernelIdeal.nD Cert.KernelIdeal.τ).loc Cert.KernelIdeal.main_arg2) : Cert.KernelIdeal.S2000000.Idx → EReal) (ValueIdx.ix1 n)) :=
  all_real _ _ _ (hpre c) (ValueIdx.ix1 n)

end Cert.Finite

end
-- ==== Proof.lean ====
/-
  The kernel splats 2,000,000 points into a 1024 × 1024 image as a sum of products of row
  weights and column weights (two matrix products per tile of 1024 points, accumulated over
  2 × 977 tiles); the reference splats every point's 25 neighbours with a scatter-add.

  Both are, at every pixel, the sum over the points of
  (value · normalised tap along y at that row) · (normalised tap along x at that column):
  the 25 weights exp(−½(dx² + dy²)/D) factor as a product of two 5-tap gaussians because
  the kernel's exponent scale is NAMED −½/D, the 25-sum is the product of the two 5-sums,
  a neighbour lands on pixel (r, c) exactly when its row is r and its column is c, and
  neighbours outside the image are masked on one side and never selected on the other.
  Finiteness of the inputs is used where a value is subtracted from itself and where the
  real laws of exp and of division are used.
-/
import proofs.«401088_j71786083385669_3_alg».proof.Defs
import proofs.«401088_j71786083385669_3_alg».proof.Proof.Gen.Kernel
import proofs.«401088_j71786083385669_3_alg».proof.Proof.Gen.Kernel.Skeleton
import proofs.«401088_j71786083385669_3_alg».proof.Proof.Gen.Kernel.Launch
import proofs.«401088_j71786083385669_3_alg».proof.Proof.Gen.Kernel.Points
import proofs.«401088_j71786083385669_3_alg».proof.Proof.Gen.Kernel.Frame
import proofs.«401088_j71786083385669_3_alg».proof.Proof.Gen.KernelIdeal
import proofs.«401088_j71786083385669_3_alg».proof.Proof.Gen.KernelIdeal.Skeleton
import proofs.«401088_j71786083385669_3_alg».proof.Proof.Gen.KernelIdeal.Launch
import proofs.«401088_j71786083385669_3_alg».proof.Proof.Gen.KernelIdeal.Points
import proofs.«401088_j71786083385669_3_alg».proof.Proof.Gen.KernelIdeal.Frame
import proofs.«401088_j71786083385669_3_alg».proof.Proof.Gen.ReferenceIdeal
import proofs.«401088_j71786083385669_3_alg».proof.Proof.Gen.Pre_finite_inputs
import proofs.«401088_j71786083385669_3_alg».proof.Proof.KernelImage
import proofs.«401088_j71786083385669_3_alg».proof.Proof.KernelTail
import proofs.«401088_j71786083385669_3_alg».proof.Proof.RefRun
import proofs.«401088_j71786083385669_3_alg».proof.Proof.RefValue
import proofs.«401088_j71786083385669_3_alg».proof.Proof.RefImage
import proofs.«401088_j71786083385669_3_alg».proof.Proof.Finite
import Idealize.ShloMosaic.Adequacy
import Idealize.ShloMosaic.Init

noncomputable section

namespace Cert.Proof

open Idealize.ShloMosaic Idealize.SL.Sem Idealize.ShloMosaic.ValueIdx Cert.LibReal

/-- The word-level kernel terminates without a fault and keeps its arguments. -/
theorem frame_k : Cert.frame_Kernel := fun m ρ _ => Cert.Kernel.Gen.frame m ρ

/-- So does the kernel read at the ideal instance. -/
theorem frame_ki : Cert.frame_KernelIdeal := fun m ρ _ => Cert.KernelIdeal.Gen.frame m ρ

/-- The reference terminates without a fault and keeps its arguments: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The exponent scale's name: the table gives it the value −268435456/5368709, which is −½/D. -/
theorem named_scale : IdealRules.named_const.Statement Cert.KernelIdeal.κ "neg_half_over_sigma_sq" .f32 0xC2480000#32 ((-268435456 / 5368709 : ℝ) : EReal) :=
  IdealRules.named_const.statement Cert.KernelIdeal.κ "neg_half_over_sigma_sq" .f32 0xC2480000#32 ((-268435456 / 5368709 : ℝ) : EReal) rfl

/-- Narrowing a column of 1024 floats to 16 bits and widening it back is the identity at the ideal instance. -/
theorem widen_narrow : IdealRules.truncf_extf.Statement Cert.KernelIdeal.S1024x1 .f32 .bf16 :=
  IdealRules.truncf_extf.statement Cert.KernelIdeal.S1024x1 .f32 .bf16

/-- The ideal pass's twenty rewrites: ten occurrences of the named scale, ten narrow-then-widen pairs. -/
theorem preserves : Cert.preserves_Kernel_KernelIdeal :=
  ⟨named_scale, named_scale, named_scale, named_scale, named_scale, named_scale, named_scale, named_scale, named_scale, named_scale,
   widen_narrow, widen_narrow, widen_narrow, widen_narrow, widen_narrow, widen_narrow, widen_narrow, widen_narrow, widen_narrow, widen_narrow⟩

/-- The image both programs end with: at pixel `(r, c)` the sum over the points of row weight times
    column weight, of the kernel's argument arrays on core `c`. -/
def image (m : (ℓ : Loc Cert.KernelIdeal.nD Cert.KernelIdeal.τ Cert.KernelIdeal.sig) → Buf (Elt Ideal) ℓ) (c : Dev Cert.KernelIdeal.nD) :
    Cert.KernelIdeal.S1024x1024.Idx → EReal := fun i =>
  Cert.Splat.img Cert.Splat.lam (fun n => Cert.KernelIdeal.Image.ax m c (ix1 n)) (fun n => Cert.KernelIdeal.Image.ay m c (ix1 n))
    (fun n => Cert.KernelIdeal.Image.av m c (ix1 n)) (i 0) (i 1)

/-- At the ideal instance, from memories that agree on the three finite inputs, the kernel's program and the
    reference both end with the image: the kernel by its running sums over the grid and the padding's zero
    values, the reference by its scatter-add re-indexed by point and neighbour and the per-point law. -/
theorem algebraic : Cert.algebraic_KernelIdeal_ReferenceIdeal := by
  intro m ρ m' ρ' hpre hagree
  have hfin := fun (c : Dev Cert.KernelIdeal.nD) (n : Fin 2000000) => Cert.Finite.finite_of_pre m hpre c n
  refine ⟨fun c => image m c, ?_, ?_⟩
  · refine (θ_run Cert.KernelIdeal.defs _ _).mono (fun _ h c => ⟨(h c).1.trans ?_, (h c).2⟩)
      (Cert.KernelIdeal.Tail.run_v11 (F := Ideal) m ρ)
    funext i
    obtain ⟨r, col, rfl⟩ : ∃ (r col : Fin 1024), i = ix2 r col := ⟨i 0, i 1, eq_ix2 i⟩
    exact Cert.KernelIdeal.Image.kernel_img m c (fun n => (hfin c n).1) (fun n => (hfin c n).2.1) (fun n => (hfin c n).2.2) r col
  · refine (θ_run Cert.ReferenceIdeal.defs _ _).mono (fun _ h c => ⟨(h c).1.trans ?_, (h c).2⟩)
      (Cert.ReferenceIdeal.HandRun.run_refTerm m' ρ')
    rw [(hagree c).1, (hagree c).2.1, (hagree c).2.2]
    funext i
    obtain ⟨r, col, rfl⟩ : ∃ (r col : Fin 1024), i = ix2 r col := ⟨i 0, i 1, eq_ix2 i⟩
    exact Cert.ReferenceIdeal.RefImage.refTerm_img_of _ _ _ (fun n => (hfin c n).1) (fun n => (hfin c n).2.1) (fun n => (hfin c n).2.2) r col
      (Cert.ReferenceIdeal.RefValue.refTerm_apply _ _ _ r col)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
